-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v43_2)) (v1 : (c : Dev Cert.KernelIdeal.nD) → Buf (Elt Ideal) ((c.tc : Thread Cert.KernelIdeal.nD Cert.KernelIdeal.τ).loc Cert.KernelIdeal.main_v44)) (v2 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43_2) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_v45) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_v114) = v1 c
          ∧ r.2.mem ((c.tc : Thread Cert.ReferenceIdeal.nD Cert.ReferenceIdeal.τ).loc Cert.ReferenceIdeal.main_v115) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S1x50000x64 : Shape := ⟨3, ![1, 50000, 64]⟩
abbrev S1x100x100 : Shape := ⟨3, ![1, 100, 100]⟩
abbrev S300x100 : Shape := ⟨2, ![300, 100]⟩
abbrev S300 : Shape := ⟨1, ![300]⟩
abbrev S256x100 : Shape := ⟨2, ![256, 100]⟩
abbrev S256x64 : Shape := ⟨2, ![256, 64]⟩
abbrev S256 : Shape := ⟨1, ![256]⟩
abbrev S8x64 : Shape := ⟨2, ![8, 64]⟩
abbrev S8 : Shape := ⟨1, ![8]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S1x50000x64 : S_.BroadcastsInDim S1x50000x64 (![] : Fin 0 → Fin S1x50000x64.rank)
  reducesTo_S1x50000x64_S_d0_1_2 : S1x50000x64.ReducesTo [0, 1, 2] S_
  bcast_S_S1x100x100 : S_.BroadcastsInDim S1x100x100 (![] : Fin 0 → Fin S1x100x100.rank)
  reducesTo_S1x100x100_S_d0_1_2 : S1x100x100.ReducesTo [0, 1, 2] S_
  bcast_S_S300x100 : S_.BroadcastsInDim S300x100 (![] : Fin 0 → Fin S300x100.rank)
  reducesTo_S300x100_S_d0_1 : S300x100.ReducesTo [0, 1] S_
  bcast_S_S300 : S_.BroadcastsInDim S300 (![] : Fin 0 → Fin S300.rank)
  reducesTo_S300_S_d0 : S300.ReducesTo [0] S_
  bcast_S_S256x100 : S_.BroadcastsInDim S256x100 (![] : Fin 0 → Fin S256x100.rank)
  reducesTo_S256x100_S_d0_1 : S256x100.ReducesTo [0, 1] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  bcast_S_S8x64 : S_.BroadcastsInDim S8x64 (![] : Fin 0 → Fin S8x64.rank)
  reducesTo_S8x64_S_d0_1 : S8x64.ReducesTo [0, 1] S_
  bcast_S_S8 : S_.BroadcastsInDim S8 (![] : Fin 0 → Fin S8.rank)
  reducesTo_S8_S_d0 : S8.ReducesTo [0] S_

variable [Facts]

def fn_part4 {F : FTy → Type} [FloatOps F] (main_arg15 : FVec F S8 .f32) (main_v63 : IVec S_ 1) (main_v67 : IVec S_ 1) : IVec S_ 1 :=
  let main_v68 : IVec S_ 1 := andi main_v63 main_v67
  let main_v69 : FVec F S8 .f32 := Host.absf main_arg15
  let main_cst_26 : FVec F S_ .f32 := constant S_ .f32 0x7F800000#32
  let main_v70 : FVec F S8 .f32 := broadcastInDim S8 ![] bcast_S_S8 main_cst_26
  let main_v71 : IVec S8 1 := cmpf .olt main_v69 main_v70
  let main_c_27 : IVec S_ 1 := constantI S_ 1 1#1
  let main_v72 : IVec S_ 1 := (fun x v => Host.reduce IntOp.andi x v reducesTo_S8_S_d0 h_S_) main_v71 main_c_27
  let main_v73 : IVec S_ 1 := andi main_v68 main_v72
  main_v73

def fn_part3 {F : FTy → Type} [FloatOps F] (main_arg12 : FVec F S256 .f32) (main_arg13 : FVec F S256 .f32) (main_arg14 : FVec F S8x64 .f32) (main_arg15 : FVec F S8 .f32) (main_v48 : IVec S_ 1) (main_v49 : FVec F S256x64 .f32) (main_v50 : FVec F S256x64 .f32) : IVec S_ 1 :=
  let main_v51 : IVec S256x64 1 := cmpf .olt main_v49 main_v50
  let main_c_19 : IVec S_ 1 := constantI S_ 1 1#1
  let main_v52 : IVec S_ 1 := (fun x v => Host.reduce IntOp.andi x v reducesTo_S256x64_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S8x64 .f32 := Host.absf main_arg14
  let main_cst_24 : FVec F S_ .f32 := constant S_ .f32 0x7F800000#32
  let main_v65 : FVec F S8x64 .f32 := broadcastInDim S8x64 ![] bcast_S_S8x64 main_cst_24
  let main_v66 : IVec S8x64 1 := cmpf .olt main_v64 main_v65
  let main_c_25 : IVec S_ 1 := constantI S_ 1 1#1
  let main_v67 : IVec S_ 1 := (fun x v => Host.reduce IntOp.andi x v reducesTo_S8x64_S_d0_1 h_S_) main_v66 main_c_25
  fn_part4 (F := F) main_arg15 main_v63 main_v67

def fn_part2 {F : FTy → Type} [FloatOps F] (main_arg8 : FVec F S300 .f32) (main_arg9 : FVec F S300 .f32) (main_arg10 : FVec F S256x100 .f32) (main_arg11 : FVec F S256x64 .f32) (main_arg12 : FVec F S256 .f32) (main_arg13 : FVec F S256 .f32) (main_arg14 : FVec F S8x64 .f32) (main_arg15 : FVec F S8 .f32) (main_v33 : IVec S_ 1) : IVec S_ 1 :=
  let main_v34 : FVec F S300 .f32 := Host.absf main_arg8
  let main_cst_12 : FVec F S_ .f32 := constant S_ .f32 0x7F800000#32
  let main_v35 : FVec F S300 .f32 := broadcastInDim S300 ![] bcast_S_S300 main_cst_12
  let main_v36 : IVec S300 1 := cmpf .olt main_v34 main_v35
  let main_c_13 : IVec S_ 1 := constantI S_ 1 1#1
  let main_v37 : IVec S_ 1 := (fun x v => Host.reduce IntOp.andi x v reducesTo_S300_S_d0 h_S_) main_v36 main_c_13
  let main_v38 : IVec S_ 1 := andi main_v33 main_v37
  let main_v39 : FVec F S300 .f32 := Host.absf main_arg9
  let main_cst_14 : FVec F S_ .f32 := constant S_ .f32 0x7F800000#32
  let main_v40 : FVec F S300 .f32 := broadcastInDim S300 ![] bcast_S_S300 main_cst_14
  let main_v41 : IVec S300 1 := cmpf .olt main_v39 main_v40
  let main_c_15 : IVec S_ 1 := constantI S_ 1 1#1
  let main_v42 : IVec S_ 1 := (fun x v => Host.reduce IntOp.andi x v reducesTo_S300_S_d0 h_S_) main_v41 main_c_15
  let main_v43 : IVec S_ 1 := andi main_v38 main_v42
  let main_v44 : FVec F S256x100 .f32 := Host.absf main_arg10
  let main_cst_16 : FVec F S_ .f32 := constant S_ .f32 0x7F800000#32
  let main_v45 : FVec F S256x100 .f32 := broadcastInDim S256x100 ![] bcast_S_S256x100 main_cst_16
  let main_v46 : IVec S256x100 1 := cmpf .olt main_v44 main_v45
  let main_c_17 : IVec S_ 1 := constantI S_ 1 1#1
  let main_v47 : IVec S_ 1 := (fun x v => Host.reduce IntOp.andi x v reducesTo_S256x100_S_d0_1 h_S_) main_v46 main_c_17
  let main_v48 : IVec S_ 1 := andi main_v43 main_v47
  let main_v49 : FVec F S256x64 .f32 := Host.absf main_arg11
  let main_cst_18 : FVec F S_ .f32 := constant S_ .f32 0x7F800000#32
  let main_v50 : FVec F S256x64 .f32 := broadcastInDim S256x64 ![] bcast_S_S256x64 main_cst_18
  fn_part3 (F := F) main_arg12 main_arg13 main_arg14 main_arg15 main_v48 main_v49 main_v50

def fn_part1 {F : FTy → Type} [FloatOps F] (main_arg5 : FVec F S1x100x100 .f32) (main_arg6 : FVec F S300x100 .f32) (main_arg7 : FVec F S300x100 .f32) (main_arg8 : FVec F S300 .f32) (main_arg9 : FVec F S300 .f32) (main_arg10 : FVec F S256x100 .f32) (main_arg11 : FVec F S256x64 .f32) (main_arg12 : FVec F S256 .f32) (main_arg13 : FVec F S256 .f32) (main_arg14 : FVec F S8x64 .f32) (main_arg15 : FVec F S8 .f32) (main_v13 : IVec S_ 1) (main_v16 : IVec S1x50000x64 1) : IVec S_ 1 :=
  let main_c_5 : IVec S_ 1 := constantI S_ 1 1#1
  let main_v17 : IVec S_ 1 := (fun x v => Host.reduce IntOp.andi x v reducesTo_S1x50000x64_S_d0_1_2 h_S_) main_v16 main_c_5
  let main_v18 : IVec S_ 1 := andi main_v13 main_v17
  let main_v19 : FVec F S1x100x100 .f32 := Host.absf main_arg5
  let main_cst_6 : FVec F S_ .f32 := constant S_ .f32 0x7F800000#32
  let main_v20 : FVec F S1x100x100 .f32 := broadcastInDim S1x100x100 ![] bcast_S_S1x100x100 main_cst_6
  let main_v21 : IVec S1x100x100 1 := cmpf .olt main_v19 main_v20
  let main_c_7 : IVec S_ 1 := constantI S_ 1 1#1
  let main_v22 : IVec S_ 1 := (fun x v => Host.reduce IntOp.andi x v reducesTo_S1x100x100_S_d0_1_2 h_S_) main_v21 main_c_7
  let main_v23 : IVec S_ 1 := andi main_v18 main_v22
  let main_v24 : FVec F S300x100 .f32 := Host.absf main_arg6
  let main_cst_8 : FVec F S_ .f32 := constant S_ .f32 0x7F800000#32
  let main_v25 : FVec F S300x100 .f32 := broadcastInDim S300x100 ![] bcast_S_S300x100 main_cst_8
  let main_v26 : IVec S300x100 1 := cmpf .olt main_v24 main_v25
  let main_c_9 : IVec S_ 1 := constantI S_ 1 1#1
  let main_v27 : IVec S_ 1 := (fun x v => Host.reduce IntOp.andi x v reducesTo_S300x100_S_d0_1 h_S_) main_v26 main_c_9
  let main_v28 : IVec S_ 1 := andi main_v23 main_v27
  let main_v29 : FVec F S300x100 .f32 := Host.absf main_arg7
  let main_cst_10 : FVec F S_ .f32 := constant S_ .f32 0x7F800000#32
  let main_v30 : FVec F S300x100 .f32 := broadcastInDim S300x100 ![] bcast_S_S300x100 main_cst_10
  let main_v31 : IVec S300x100 1 := cmpf .olt main_v29 main_v30
  let main_c_11 : IVec S_ 1 := constantI S_ 1 1#1
  let main_v32 : IVec S_ 1 := (fun x v => Host.reduce IntOp.andi x v reducesTo_S300x100_S_d0_1 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x64 .f32) (main_arg1 : IVec S2x800000 32) (main_arg2 : FVec F S800000 .f32) (main_arg3 : FVec F S1x50000x64 .f32) (main_arg4 : FVec F S1x50000x64 .f32) (main_arg5 : FVec F S1x100x100 .f32) (main_arg6 : FVec F S300x100 .f32) (main_arg7 : FVec F S300x100 .f32) (main_arg8 : FVec F S300 .f32) (main_arg9 : FVec F S300 .f32) (main_arg10 : FVec F S256x100 .f32) (main_arg11 : FVec F S256x64 .f32) (main_arg12 : FVec F S256 .f32) (main_arg13 : FVec F S256 .f32) (main_arg14 : FVec F S8x64 .f32) (main_arg15 : FVec F S8 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S1x50000x64 .f32 := Host.absf main_arg3
  let main_cst_2 : FVec F S_ .f32 := constant S_ .f32 0x7F800000#32
  let main_v10 : FVec F S1x50000x64 .f32 := broadcastInDim S1x50000x64 ![] bcast_S_S1x50000x64 main_cst_2
  let main_v11 : IVec S1x50000x64 1 := cmpf .olt main_v9 main_v10
  let main_c_3 : IVec S_ 1 := constantI S_ 1 1#1
  let main_v12 : IVec S_ 1 := (fun x v => Host.reduce IntOp.andi x v reducesTo_S1x50000x64_S_d0_1_2 h_S_) main_v11 main_c_3
  let main_v13 : IVec S_ 1 := andi main_v8 main_v12
  let main_v14 : FVec F S1x50000x64 .f32 := Host.absf main_arg4
  let main_cst_4 : FVec F S_ .f32 := constant S_ .f32 0x7F800000#32
  let main_v15 : FVec F S1x50000x64 .f32 := broadcastInDim S1x50000x64 ![] bcast_S_S1x50000x64 main_cst_4
  let main_v16 : IVec S1x50000x64 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x64 : Shape := ⟨2, ![50000, 64]⟩
abbrev S2x800000 : Shape := ⟨2, ![2, 800000]⟩
abbrev S800000 : Shape := ⟨1, ![800000]⟩
abbrev S1x50000x64 : Shape := ⟨3, ![1, 50000, 64]⟩
abbrev S1x100x100 : Shape := ⟨3, ![1, 100, 100]⟩
abbrev S300x100 : Shape := ⟨2, ![300, 100]⟩
abbrev S300 : Shape := ⟨1, ![300]⟩
abbrev S256x100 : Shape := ⟨2, ![256, 100]⟩
abbrev S256x64 : Shape := ⟨2, ![256, 64]⟩
abbrev S256 : Shape := ⟨1, ![256]⟩
abbrev S8x64 : Shape := ⟨2, ![8, 64]⟩
abbrev S8 : Shape := ⟨1, ![8]⟩
abbrev S1x800000 : Shape := ⟨2, ![1, 800000]⟩
abbrev S_ : Shape := ⟨0, ![]⟩
abbrev S50000x36 : Shape := ⟨2, ![50000, 36]⟩
abbrev S50000x100 : Shape := ⟨2, ![50000, 100]⟩
abbrev S1x64x100 : Shape := ⟨3, ![1, 64, 100]⟩
abbrev S64x100 : Shape := ⟨2, ![64, 100]⟩
abbrev S1000x64 : Shape := ⟨2, ![1000, 64]⟩
abbrev S1000x100 : Shape := ⟨2, ![1000, 100]⟩
abbrev S800000x1 : Shape := ⟨2, ![800000, 1]⟩
abbrev S800000x100 : Shape := ⟨2, ![800000, 100]⟩
abbrev S50000 : Shape := ⟨1, ![50000]⟩
abbrev S50000x1 : Shape := ⟨2, ![50000, 1]⟩
abbrev S100x300 : Shape := ⟨2, ![100, 300]⟩
abbrev S1x300 : Shape := ⟨2, ![1, 300]⟩
abbrev S100x256 : Shape := ⟨2, ![100, 256]⟩
abbrev S64x256 : Shape := ⟨2, ![64, 256]⟩
abbrev S1x256 : Shape := ⟨2, ![1, 256]⟩
abbrev S64x8 : Shape := ⟨2, ![64, 8]⟩
abbrev S1x8 : Shape := ⟨2, ![1, 8]⟩
abbrev S50000x8 : Shape := ⟨2, ![50000, 8]⟩
abbrev S1000x8 : Shape := ⟨2, ![1000, 8]⟩
abbrev S1000x300 : Shape := ⟨2, ![1000, 300]⟩
abbrev S1000x256 : Shape := ⟨2, ![1000, 256]⟩

abbrev nBuf : Space → Nat
  | .hbm => 71
  | .vmem => 29
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S1x50000x64, .f32⟩
  | .hbm, ⟨4, _⟩ => ⟨S1x50000x64, .f32⟩
  | .hbm, ⟨5, _⟩ => ⟨S1x100x100, .f32⟩
  | .hbm, ⟨6, _⟩ => ⟨S300x100, .f32⟩
  | .hbm, ⟨7, _⟩ => ⟨S300x100, .f32⟩
  | .hbm, ⟨8, _⟩ => ⟨S300, .f32⟩
  | .hbm, ⟨9, _⟩ => ⟨S300, .f32⟩
  | .hbm, ⟨10, _⟩ => ⟨S256x100, .f32⟩
  | .hbm, ⟨11, _⟩ => ⟨S256x64, .f32⟩
  | .hbm, ⟨12, _⟩ => ⟨S256, .f32⟩
  | .hbm, ⟨13, _⟩ => ⟨S256, .f32⟩
  | .hbm, ⟨14, _⟩ => ⟨S8x64, .f32⟩
  | .hbm, ⟨15, _⟩ => ⟨S8, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .f32⟩
  | .hbm, ⟨21, _⟩ => ⟨S50000x36, .f32⟩
  | .hbm, ⟨22, _⟩ => ⟨S50000x100, .f32⟩
  | .hbm, ⟨23, _⟩ => ⟨S1x64x100, .f32⟩
  | .hbm, ⟨24, _⟩ => ⟨S64x100, .f32⟩
  | .hbm, ⟨25, _⟩ => ⟨S50000x100, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x100, .f32⟩
  | .hbm, ⟨35, _⟩ => ⟨S800000x1, .f32⟩
  | .hbm, ⟨36, _⟩ => ⟨S800000x100, .f32⟩
  | .hbm, ⟨37, _⟩ => ⟨S800000x100, .f32⟩
  | .hbm, ⟨38, _⟩ => ⟨S_, .f32⟩
  | .hbm, ⟨39, _⟩ => ⟨S50000x100, .f32⟩
  | .hbm, ⟨40, _⟩ => ⟨S800000x1, .i32⟩
  | .hbm, ⟨41, _⟩ => ⟨S50000x100, .f32⟩
  | .hbm, ⟨42, _⟩ => ⟨S_, .f32⟩
  | .hbm, ⟨43, _⟩ => ⟨S800000, .f32⟩
  | .hbm, ⟨44, _⟩ => ⟨S_, .f32⟩
  | .hbm, ⟨45, _⟩ => ⟨S50000, .f32⟩
  | .hbm, ⟨46, _⟩ => ⟨S800000x1, .i32⟩
  | .hbm, ⟨47, _⟩ => ⟨S50000, .f32⟩
  | .hbm, ⟨48, _⟩ => ⟨S_, .f32⟩
  | .hbm, ⟨49, _⟩ => ⟨S50000, .f32⟩
  | .hbm, ⟨50, _⟩ => ⟨S50000, .f32⟩
  | .hbm, ⟨51, _⟩ => ⟨S50000x1, .f32⟩
  | .hbm, ⟨52, _⟩ => ⟨S50000x100, .f32⟩
  | .hbm, ⟨53, _⟩ => ⟨S50000x100, .f32⟩
  | .hbm, ⟨54, _⟩ => ⟨S50000x64, .f32⟩
  | .hbm, ⟨55, _⟩ => ⟨S50000x64, .f32⟩
  | .hbm, ⟨56, _⟩ => ⟨S100x300, .f32⟩
  | .hbm, ⟨57, _⟩ => ⟨S100x300, .f32⟩
  | .hbm, ⟨58, _⟩ => ⟨S1x300, .f32⟩
  | .hbm, ⟨59, _⟩ => ⟨S1x300, .f32⟩
  | .hbm, ⟨60, _⟩ => ⟨S100x256, .f32⟩
  | .hbm, ⟨61, _⟩ => ⟨S64x256, .f32⟩
  | .hbm, ⟨62, _⟩ => ⟨S1x256, .f32⟩
  | .hbm, ⟨63, _⟩ => ⟨S1x256, .f32⟩
  | .hbm, ⟨64, _⟩ => ⟨S64x8, .f32⟩
  | .hbm, ⟨65, _⟩ => ⟨S1x8, .f32⟩
  | .hbm, ⟨66, _⟩ => ⟨S50000x64, .f32⟩
  | .hbm, ⟨67, _⟩ => ⟨S50000x64, .f32⟩
  | .hbm, ⟨68, _⟩ => ⟨S50000x8, .f32⟩
  | .hbm, ⟨69, _⟩ => ⟨S1x50000x64, .f32⟩
  | .hbm, ⟨70, _⟩ => ⟨S1x50000x64, .f32⟩
  | .local _ .vmem, ⟨0, _⟩ => ⟨S1000x64, .f32⟩
  | .local _ .vmem, ⟨1, _⟩ => ⟨S1000x64, .f32⟩
  | .local _ .vmem, ⟨2, _⟩ => ⟨S64x100, .f32⟩
  | .local _ .vmem, ⟨3, _⟩ => ⟨S1000x100, .f32⟩
  | .local _ .vmem, ⟨4, _⟩ => ⟨S1000x100, .f32⟩
  | .local _ .vmem, ⟨5, _⟩ => ⟨S1000x100, .f32⟩
  | .local _ .vmem, ⟨6, _⟩ => ⟨S1000x100, .f32⟩
  | .local _ .vmem, ⟨7, _⟩ => ⟨S1000x100, .f32⟩
  | .local _ .vmem, ⟨8, _⟩ => ⟨S1000x100, .f32⟩
  | .local _ .vmem, ⟨9, _⟩ => ⟨S1000x64, .f32⟩
  | .local _ .vmem, ⟨10, _⟩ => ⟨S1000x64, .f32⟩
  | .local _ .vmem, ⟨11, _⟩ => ⟨S1000x64, .f32⟩
  | .local _ .vmem, ⟨12, _⟩ => ⟨S1000x64, .f32⟩
  | .local _ .vmem, ⟨13, _⟩ => ⟨S100x300, .f32⟩
  | .local _ .vmem, ⟨14, _⟩ => ⟨S100x300, .f32⟩
  | .local _ .vmem, ⟨15, _⟩ => ⟨S1x300, .f32⟩
  | .local _ .vmem, ⟨16, _⟩ => ⟨S1x300, .f32⟩
  | .local _ .vmem, ⟨17, _⟩ => ⟨S100x256, .f32⟩
  | .local _ .vmem, ⟨18, _⟩ => ⟨S64x256, .f32⟩
  | .local _ .vmem, ⟨19, _⟩ => ⟨S1x256, .f32⟩
  | .local _ .vmem, ⟨20, _⟩ => ⟨S1x256, .f32⟩
  | .local _ .vmem, ⟨21, _⟩ => ⟨S64x8, .f32⟩
  | .local _ .vmem, ⟨22, _⟩ => ⟨S1x8, .f32⟩
  | .local _ .vmem, ⟨23, _⟩ => ⟨S1000x64, .f32⟩
  | .local _ .vmem, ⟨24, _⟩ => ⟨S1000x64, .f32⟩
  | .local _ .vmem, ⟨25, _⟩ => ⟨S1000x64, .f32⟩
  | .local _ .vmem, ⟨26, _⟩ => ⟨S1000x64, .f32⟩
  | .local _ .vmem, ⟨27, _⟩ => ⟨S1000x8, .f32⟩
  | .local _ .vmem, ⟨28, _⟩ => ⟨S1000x8, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c : Ref sig .tc := ⟨.hbm, 26, rfl⟩
abbrev main_v9 : Ref sig .tc := ⟨.hbm, 27, rfl⟩
abbrev main_v10 : Ref sig .tc := ⟨.hbm, 28, rfl⟩
abbrev main_c_0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_4 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43_0 : Ref sig .tc := ⟨.hbm, 66, rfl⟩
abbrev main_v43_1 : Ref sig .tc := ⟨.hbm, 67, rfl⟩
abbrev main_v43_2 : Ref sig .tc := ⟨.hbm, 68, rfl⟩
abbrev main_v44 : Ref sig .tc := ⟨.hbm, 69, rfl⟩
abbrev main_v45 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg11_0 : Ref sig .tc := ⟨.vmem, 20, rfl⟩
abbrev cc1_stg12_0 : Ref sig .tc := ⟨.vmem, 21, rfl⟩
abbrev cc1_stg13_0 : Ref sig .tc := ⟨.vmem, 22, rfl⟩
abbrev cc1_stg14_0 : Ref sig .tc := ⟨.vmem, 23, rfl⟩
abbrev cc1_stg14_1 : Ref sig .tc := ⟨.vmem, 24, rfl⟩
abbrev cc1_stg15_0 : Ref sig .tc := ⟨.vmem, 25, rfl⟩
abbrev cc1_stg15_1 : Ref sig .tc := ⟨.vmem, 26, rfl⟩
abbrev cc1_stg16_0 : Ref sig .tc := ⟨.vmem, 27, rfl⟩
abbrev cc1_stg16_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem11_0 : DmaSem sig := 20
abbrev cc1_sem12_0 : DmaSem sig := 21
abbrev cc1_sem13_0 : DmaSem sig := 22
abbrev cc1_sem14_0 : DmaSem sig := 23
abbrev cc1_sem14_1 : DmaSem sig := 24
abbrev cc1_sem15_0 : DmaSem sig := 25
abbrev cc1_sem15_1 : DmaSem sig := 26
abbrev cc1_sem16_0 : DmaSem sig := 27
abbrev cc1_sem16_1 : DmaSem sig := 28

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x100 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S100x300 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S100x300 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x300 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x300 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S100x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S64x8 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x8 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S1000x64 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S1000x64 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S1000x8 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000x36 : S_.BroadcastsInDim S50000x36 (![] : Fin 0 → Fin S50000x36.rank)
  concatenates_S50000x64_S50000x36_S50000x100_d1 : Shape.Concatenates [S50000x64, S50000x36] S50000x100 1
  slices_S1x100x100_S1x64x100_0_0_0 : S1x100x100.Slices ![0, 0, 0] S1x64x100
  shapeCasts_S1x64x100_S64x100 : S1x64x100.ShapeCasts S64x100
  inb_S1000x64_S1000x64_0_0 : ∀ a, (![0, 0] : Fin 2 → Nat) a + S1000x64.size a ≤ S1000x64.size a
  h_S1000x64 : 0 < S1000x64.numel
  bitsLt_bf16_f32 : FTy.bits .bf16 < FTy.bits .f32
  inb_S64x100_S64x100_0_0 : ∀ a, (![0, 0] : Fin 2 → Nat) a + S64x100.size a ≤ S64x100.size a
  h_S64x100 : 0 < S64x100.numel
  shapeCasts_S64x100_S64x100 : S64x100.ShapeCasts S64x100
  inb_S1000x100_S1000x100_0_0 : ∀ a, (![0, 0] : Fin 2 → Nat) a + S1000x100.size a ≤ S1000x100.size a
  h_S1000x100 : 0 < S1000x100.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x100_0_1 : S800000x1.BroadcastsInDim S800000x100 (![0, 1] : Fin 2 → Fin S800000x100.rank)
  bcast_S_S50000x100 : S_.BroadcastsInDim S50000x100 (![] : Fin 0 → Fin S50000x100.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x100_0_1 : S50000x1.BroadcastsInDim S50000x100 (![0, 1] : Fin 2 → Fin S50000x100.rank)
  shapeCasts_S1x50000x64_S50000x64 : S1x50000x64.ShapeCasts S50000x64
  transposes_S300x100_S100x300_1_0 : S300x100.Transposes [1, 0] S100x300
  shapeCasts_S300_S1x300 : S300.ShapeCasts S1x300
  transposes_S256x100_S100x256_1_0 : S256x100.Transposes [1, 0] S100x256
  transposes_S256x64_S64x256_1_0 : S256x64.Transposes [1, 0] S64x256
  shapeCasts_S256_S1x256 : S256.ShapeCasts S1x256
  transposes_S8x64_S64x8_1_0 : S8x64.Transposes [1, 0] S64x8
  shapeCasts_S8_S1x8 : S8.ShapeCasts S1x8
  shapeCasts_S1000x100_S1000x100 : S1000x100.ShapeCasts S1000x100
  shapeCasts_S1000x64_S1000x64 : S1000x64.ShapeCasts S1000x64
  inb_S100x300_S100x300_0_0 : ∀ a, (![0, 0] : Fin 2 → Nat) a + S100x300.size a ≤ S100x300.size a
  h_S100x300 : 0 < S100x300.numel
  shapeCasts_S100x300_S100x300 : S100x300.ShapeCasts S100x300
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S1000x300 : S1x300.Broadcasts S1000x300
  slices_S1000x300_o0_0_S1000x100 : S1000x300.Slices ![0, 0] S1000x100
  slices_S1000x300_o0_100_S1000x100 : S1000x300.Slices ![0, 100] S1000x100
  slices_S1000x300_o0_200_S1000x100 : S1000x300.Slices ![0, 200] S1000x100
  inb_S100x256_S100x256_0_0 : ∀ a, (![0, 0] : Fin 2 → Nat) a + S100x256.size a ≤ S100x256.size a
  h_S100x256 : 0 < S100x256.numel
  shapeCasts_S100x256_S100x256 : S100x256.ShapeCasts S100x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  slices_S1000x256_o0_0_S1000x64 : S1000x256.Slices ![0, 0] S1000x64
  slices_S1000x256_o0_64_S1000x64 : S1000x256.Slices ![0, 64] S1000x64
  slices_S1000x256_o0_128_S1000x64 : S1000x256.Slices ![0, 128] S1000x64
  slices_S1000x256_o0_192_S1000x64 : S1000x256.Slices ![0, 192] S1000x64
  inb_S64x8_S64x8_0_0 : ∀ a, (![0, 0] : Fin 2 → Nat) a + S64x8.size a ≤ S64x8.size a
  h_S64x8 : 0 < S64x8.numel
  shapeCasts_S64x8_S64x8 : S64x8.ShapeCasts S64x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S1000x8 : S1x8.Broadcasts S1000x8
  inb_S1000x8_S1000x8_0_0 : ∀ a, (![0, 0] : Fin 2 → Nat) a + S1000x8.size a ≤ S1000x8.size a
  h_S1000x8 : 0 < S1000x8.numel
  bcast_S50000x64_S1x50000x64_1_2 : S50000x64.BroadcastsInDim S1x50000x64 (![1, 2] : Fin 2 → Fin S1x50000x64.rank)
  dot_S1000x64_S64x100_S1000x100_1_0_0_1_n_n_wf : DotDims.WF S1000x64 S64x100 S1000x100 [1] [0] [0] [1] [] []
  gather_S50000x100_S800000x1_S800000x100_1_0_n_n_0_1_1100_wf : GatherDims.WF S50000x100 S800000x1 S800000x100 [1] [0] [] [0] [] 1 ![1, 100]
  scatter_S50000x100_S800000x1_S800000x100_1_0_0_1_wf : ScatterDims.WF S50000x100 S800000x1 S800000x100 [1] [0] [0] 1
  scatter_S50000_S800000x1_S800000_n_0_0_1_wf : ScatterDims.WF S50000 S800000x1 S800000 [] [0] [0] 1
  dot_S1000x100_S100x300_S1000x300_1_0_0_1_n_n_wf : DotDims.WF S1000x100 S100x300 S1000x300 [1] [0] [0] [1] [] []
  dot_S1000x100_S100x256_S1000x256_1_0_0_1_n_n_wf : DotDims.WF S1000x100 S100x256 S1000x256 [1] [0] [0] [1] [] []
  dot_S1000x64_S64x256_S1000x256_1_0_0_1_n_n_wf : DotDims.WF S1000x64 S64x256 S1000x256 [1] [0] [0] [1] [] []
  dot_S1000x64_S64x8_S1000x8_1_0_0_1_n_n_wf : DotDims.WF S1000x64 S64x8 S1000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x64.size a ≤ S50000x64.size a
  hwx0_0 : ∀ i : grid0.Coords, EltTy.bits .f32 = 32 ∨ (Rect.block (s := S50000x64) S1000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x100.size a ≤ S64x100.size a
  hwx0_1 : ∀ i : grid0.Coords, EltTy.bits .f32 = 32 ∨ (Rect.block (s := S64x100) S64x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x100.size a ≤ S50000x100.size a
  hwx0_2 : ∀ i : grid0.Coords, EltTy.bits .f32 = 32 ∨ (Rect.block (s := S50000x100) S1000x100.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x100.size a ≤ S50000x100.size a
  hwx1_0 : ∀ i : grid1.Coords, EltTy.bits .f32 = 32 ∨ (Rect.block (s := S50000x100) S1000x100.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x100.size a ≤ S50000x100.size a
  hwx1_1 : ∀ i : grid1.Coords, EltTy.bits .f32 = 32 ∨ (Rect.block (s := S50000x100) S1000x100.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x64.size a ≤ S50000x64.size a
  hwx1_2 : ∀ i : grid1.Coords, EltTy.bits .f32 = 32 ∨ (Rect.block (s := S50000x64) S1000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x64.size a ≤ S50000x64.size a
  hwx1_3 : ∀ i : grid1.Coords, EltTy.bits .f32 = 32 ∨ (Rect.block (s := S50000x64) S1000x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S100x300.size a ≤ S100x300.size a
  hwx1_4 : ∀ i : grid1.Coords, EltTy.bits .f32 = 32 ∨ (Rect.block (s := S100x300) S100x300.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S100x300.size a ≤ S100x300.size a
  hwx1_5 : ∀ i : grid1.Coords, EltTy.bits .f32 = 32 ∨ (Rect.block (s := S100x300) S100x300.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x300.size a ≤ S1x300.size a
  hwx1_6 : ∀ i : grid1.Coords, EltTy.bits .f32 = 32 ∨ (Rect.block (s := S1x300) S1x300.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x300.size a ≤ S1x300.size a
  hwx1_7 : ∀ i : grid1.Coords, EltTy.bits .f32 = 32 ∨ (Rect.block (s := S1x300) S1x300.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S100x256.size a ≤ S100x256.size a
  hwx1_8 : ∀ i : grid1.Coords, EltTy.bits .f32 = 32 ∨ (Rect.block (s := S100x256) S100x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x256.size a ≤ S64x256.size a
  hwx1_9 : ∀ i : grid1.Coords, EltTy.bits .f32 = 32 ∨ (Rect.block (s := S64x256) S64x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x256.size a ≤ S1x256.size a
  hwx1_10 : ∀ i : grid1.Coords, EltTy.bits .f32 = 32 ∨ (Rect.block (s := S1x256) S1x256.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x256.size a ≤ S1x256.size a
  hwx1_11 : ∀ i : grid1.Coords, EltTy.bits .f32 = 32 ∨ (Rect.block (s := S1x256) S1x256.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S64x8.size a ≤ S64x8.size a
  hwx1_12 : ∀ i : grid1.Coords, EltTy.bits .f32 = 32 ∨ (Rect.block (s := S64x8) S64x8.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x8.size a ≤ S1x8.size a
  hwx1_13 : ∀ i : grid1.Coords, EltTy.bits .f32 = 32 ∨ (Rect.block (s := S1x8) S1x8.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S1000x64.size a ≤ S50000x64.size a
  hwx1_14 : ∀ i : grid1.Coords, EltTy.bits .f32 = 32 ∨ (Rect.block (s := S50000x64) S1000x64.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S1000x64.size a ≤ S50000x64.size a
  hwx1_15 : ∀ i : grid1.Coords, EltTy.bits .f32 = 32 ∨ (Rect.block (s := S50000x64) S1000x64.size (cc1_transform_15 i) (hinb1_15 i)).WholeWords (EltTy.packing .f32)
  hstage1_16 : ∀ j, (stage1_16 j).IsWhole
  nbuf1_16 : grid1.bufCount reads1_16 false = 2
  hreads1_16 : ∀ i i' : grid1.Coords, (∀ a, reads1_16 a = true → i a = i' a) → cc1_transform_16 i = cc1_transform_16 i'
  hinb1_16 : ∀ (i : grid1.Coords) a, (cc1_transform_16 i a + 1) * S1000x8.size a ≤ S50000x8.size a
  hwx1_16 : ∀ i : grid1.Coords, EltTy.bits .f32 = 32 ∨ (Rect.block (s := S50000x8) S1000x8.size (cc1_transform_16 i) (hinb1_16 i)).WholeWords (EltTy.packing .f32)

variable [Facts₀]

def dot_S1000x64_S64x100_S1000x100_1_0_0_1_n_n : DotDims S1000x64 S64x100 S1000x100 where
  lhsContracting := [1]
  rhsContracting := [0]
  lhsNonContracting := [0]
  rhsNonContracting := [1]
  lhsBatch := []
  rhsBatch := []
  wf := dot_S1000x64_S64x100_S1000x100_1_0_0_1_n_n_wf
def gather_S50000x100_S800000x1_S800000x100_1_0_n_n_0_1_1100 : GatherDims S50000x100 S800000x1 S800000x100 where
  offsetDims := [1]
  collapsedSliceDims := [0]
  operandBatchingDims := []
  startIndicesBatchingDims := []
  startIndexMap := [0]
  indexVectorDim := 1
  sliceSizes := ![1, 100]
  wf := gather_S50000x100_S800000x1_S800000x100_1_0_n_n_0_1_1100_wf
def scatter_S50000x100_S800000x1_S800000x100_1_0_0_1 : ScatterDims S50000x100 S800000x1 S800000x100 where
  updateWindowDims := [1]
  insertedWindowDims := [0]
  scatterDimsToOperandDims := [0]
  indexVectorDim := 1
  wf := scatter_S50000x100_S800000x1_S800000x100_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S1000x100_S100x300_S1000x300_1_0_0_1_n_n : DotDims S1000x100 S100x300 S1000x300 where
  lhsContracting := [1]
  rhsContracting := [0]
  lhsNonContracting := [0]
  rhsNonContracting := [1]
  lhsBatch := []
  rhsBatch := []
  wf := dot_S1000x100_S100x300_S1000x300_1_0_0_1_n_n_wf
def dot_S1000x100_S100x256_S1000x256_1_0_0_1_n_n : DotDims S1000x100 S100x256 S1000x256 where
  lhsContracting := [1]
  rhsContracting := [0]
  lhsNonContracting := [0]
  rhsNonContracting := [1]
  lhsBatch := []
  rhsBatch := []
  wf := dot_S1000x100_S100x256_S1000x256_1_0_0_1_n_n_wf
def dot_S1000x64_S64x256_S1000x256_1_0_0_1_n_n : DotDims S1000x64 S64x256 S1000x256 where
  lhsContracting := [1]
  rhsContracting := [0]
  lhsNonContracting := [0]
  rhsNonContracting := [1]
  lhsBatch := []
  rhsBatch := []
  wf := dot_S1000x64_S64x256_S1000x256_1_0_0_1_n_n_wf
def dot_S1000x64_S64x8_S1000x8_1_0_0_1_n_n : DotDims S1000x64 S64x8 S1000x8 where
  lhsContracting := [1]
  rhsContracting := [0]
  lhsNonContracting := [0]
  rhsNonContracting := [1]
  lhsBatch := []
  rhsBatch := []
  wf := dot_S1000x64_S64x8_S1000x8_1_0_0_1_n_n_wf

abbrev win0_0 : Pipeline.Window sig grid0 :=
  Pipeline.Window.ofSpec (Memref.whole main_arg0) S1000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S64x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1000x100.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S1000x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1000x100.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v33) S100x300.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S100x300.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S1x300.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36) S1x300.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v37) S100x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v38) S64x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v39) S1x256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v40) S1x256.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v41) S64x8.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v42) S1x8.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v43_0) S1000x64.size cc1_transform_14 reads1_14 true false 2 stage1_14 sem1_14
    hrank1 hreads1_14 hinb1_14 nbuf1_14 (Memref.isWhole_whole _) hwx1_14 hstage1_14

abbrev win1_15 : Pipeline.Window sig grid1 :=
  Pipeline.Window.ofSpec (Memref.whole main_v43_1) S1000x64.size cc1_transform_15 reads1_15 true false 2 stage1_15 sem1_15
    hrank1 hreads1_15 hinb1_15 nbuf1_15 (Memref.isWhole_whole _) hwx1_15 hstage1_15

abbrev win1_16 : Pipeline.Window sig grid1 :=
  Pipeline.Window.ofSpec (Memref.whole main_v43_2) S1000x8.size cc1_transform_16 reads1_16 true false 2 stage1_16 sem1_16
    hrank1 hreads1_16 hinb1_16 nbuf1_16 (Memref.isWhole_whole _) hwx1_16 hstage1_16

abbrev win1 : Fin 17 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | ⟨_ + 17, h⟩ => absurd h (Nat.not_lt.2 (Nat.le_add_left _ _))
abbrev spec1 : Fin 17 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S1x50000x64 : Shape := ⟨3, ![1, 50000, 64]⟩
abbrev S1x100x100 : Shape := ⟨3, ![1, 100, 100]⟩
abbrev S300x100 : Shape := ⟨2, ![300, 100]⟩
abbrev S300 : Shape := ⟨1, ![300]⟩
abbrev S256x100 : Shape := ⟨2, ![256, 100]⟩
abbrev S256x64 : Shape := ⟨2, ![256, 64]⟩
abbrev S256 : Shape := ⟨1, ![256]⟩
abbrev S8x64 : Shape := ⟨2, ![8, 64]⟩
abbrev S8 : Shape := ⟨1, ![8]⟩
abbrev S1x800000 : Shape := ⟨2, ![1, 800000]⟩
abbrev S_ : Shape := ⟨0, ![]⟩
abbrev S50000x100 : Shape := ⟨2, ![50000, 100]⟩
abbrev S100x100 : Shape := ⟨2, ![100, 100]⟩
abbrev S800000x1 : Shape := ⟨2, ![800000, 1]⟩
abbrev S800000x100 : Shape := ⟨2, ![800000, 100]⟩
abbrev S50000 : Shape := ⟨1, ![50000]⟩
abbrev S50000x1 : Shape := ⟨2, ![50000, 1]⟩
abbrev S100x300 : Shape := ⟨2, ![100, 300]⟩
abbrev S50000x300 : Shape := ⟨2, ![50000, 300]⟩
abbrev S1x300 : Shape := ⟨2, ![1, 300]⟩
abbrev S100x256 : Shape := ⟨2, ![100, 256]⟩
abbrev S50000x256 : Shape := ⟨2, ![50000, 256]⟩
abbrev S1x256 : Shape := ⟨2, ![1, 256]⟩
abbrev S64x256 : Shape := ⟨2, ![64, 256]⟩
abbrev S64x8 : Shape := ⟨2, ![64, 8]⟩
abbrev S50000x8 : Shape := ⟨2, ![50000, 8]⟩
abbrev S1x8 : Shape := ⟨2, ![1, 8]⟩

abbrev nBuf : Space → Nat
  | .hbm => 153
  | .vmem => 0
  | .smem => 0
  | _ => 0

abbrev hbmTy0_0 (i : Nat) : BufTy := match i % 128 with
  | 0 => ⟨S50000x64, .f32⟩
  | 1 => ⟨S2x800000, .i32⟩
  | 2 => ⟨S800000, .f32⟩
  | 3 => ⟨S1x50000x64, .f32⟩
  | 4 => ⟨S1x50000x64, .f32⟩
  | 5 => ⟨S1x100x100, .f32⟩
  | 6 => ⟨S300x100, .f32⟩
  | 7 => ⟨S300x100, .f32⟩
  | 8 => ⟨S300, .f32⟩
  | 9 => ⟨S300, .f32⟩
  | 10 => ⟨S256x100, .f32⟩
  | 11 => ⟨S256x64, .f32⟩
  | 12 => ⟨S256, .f32⟩
  | 13 => ⟨S256, .f32⟩
  | 14 => ⟨S8x64, .f32⟩
  | 15 => ⟨S8, .f32⟩
  | 16 => ⟨S1x800000, .i32⟩
  | 17 => ⟨S800000, .i32⟩
  | 18 => ⟨S1x800000, .i32⟩
  | 19 => ⟨S800000, .i32⟩
  | 20 => ⟨S_, .i32⟩
  | 21 => ⟨S_, .f32⟩
  | 22 => ⟨S50000x100, .f32⟩
  | 23 => ⟨S100x100, .f32⟩
  | 24 => ⟨S50000x100, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x100, .f32⟩
  | 34 => ⟨S800000x1, .f32⟩
  | 35 => ⟨S800000x100, .f32⟩
  | 36 => ⟨S800000x100, .f32⟩
  | 37 => ⟨S_, .f32⟩
  | 38 => ⟨S50000x100, .f32⟩
  | 39 => ⟨S800000x1, .i32⟩
  | 40 => ⟨S50000x100, .f32⟩
  | 41 => ⟨S_, .f32⟩
  | 42 => ⟨S800000, .f32⟩
  | 43 => ⟨S_, .f32⟩
  | 44 => ⟨S50000, .f32⟩
  | 45 => ⟨S800000x1, .i32⟩
  | 46 => ⟨S50000, .f32⟩
  | 47 => ⟨S_, .f32⟩
  | 48 => ⟨S50000, .f32⟩
  | 49 => ⟨S50000, .f32⟩
  | 50 => ⟨S50000x1, .f32⟩
  | 51 => ⟨S50000x100, .f32⟩
  | 52 => ⟨S50000x100, .f32⟩
  | 53 => ⟨S100x300, .f32⟩
  | 54 => ⟨S50000x300, .f32⟩
  | 55 => ⟨S1x300, .f32⟩
  | 56 => ⟨S50000x300, .f32⟩
  | 57 => ⟨S50000x300, .f32⟩
  | 58 => ⟨S100x300, .f32⟩
  | 59 => ⟨S50000x300, .f32⟩
  | 60 => ⟨S1x300, .f32⟩
  | 61 => ⟨S50000x300, .f32⟩
  | 62 => ⟨S50000x300, .f32⟩
  | 63 => ⟨S50000x100, .f32⟩
  | 64 => ⟨S50000x100, .f32⟩
  | 65 => ⟨S50000x100, .f32⟩
  | 66 => ⟨S50000x100, .f32⟩
  | 67 => ⟨S50000x100, .f32⟩
  | 68 => ⟨S50000x100, .f32⟩
  | 69 => ⟨S50000x100, .f32⟩
  | 70 => ⟨S50000x100, .f32⟩
  | 71 => ⟨S50000x100, .f32⟩
  | 72 => ⟨S_, .f32⟩
  | 73 => ⟨S50000x100, .f32⟩
  | 74 => ⟨S50000x100, .f32⟩
  | 75 => ⟨S_, .f32⟩
  | 76 => ⟨S50000x100, .f32⟩
  | 77 => ⟨S50000x100, .f32⟩
  | 78 => ⟨S50000x100, .f32⟩
  | 79 => ⟨S50000x100, .f32⟩
  | 80 => ⟨S50000x100, .f32⟩
  | 81 => ⟨S_, .f32⟩
  | 82 => ⟨S50000x100, .f32⟩
  | 83 => ⟨S50000x100, .f32⟩
  | 84 => ⟨S_, .f32⟩
  | 85 => ⟨S50000x100, .f32⟩
  | 86 => ⟨S50000x100, .f32⟩
  | 87 => ⟨S50000x100, .f32⟩
  | 88 => ⟨S50000x100, .f32⟩
  | 89 => ⟨S50000x100, .f32⟩
  | 90 => ⟨S_, .f32⟩
  | 91 => ⟨S50000x100, .f32⟩
  | 92 => ⟨S50000x100, .f32⟩
  | 93 => ⟨S50000x100, .f32⟩
  | 94 => ⟨S50000x100, .f32⟩
  | 95 => ⟨S50000x100, .f32⟩
  | 96 => ⟨S100x256, .f32⟩
  | 97 => ⟨S50000x256, .f32⟩
  | 98 => ⟨S1x256, .f32⟩
  | 99 => ⟨S50000x256, .f32⟩
  | 100 => ⟨S50000x256, .f32⟩
  | 101 => ⟨S50000x64, .f32⟩
  | 102 => ⟨S64x256, .f32⟩
  | 103 => ⟨S50000x256, .f32⟩
  | 104 => ⟨S50000x256, .f32⟩
  | 105 => ⟨S1x256, .f32⟩
  | 106 => ⟨S50000x256, .f32⟩
  | 107 => ⟨S50000x256, .f32⟩
  | 108 => ⟨S50000x64, .f32⟩
  | 109 => ⟨S50000x64, .f32⟩
  | 110 => ⟨S50000x64, .f32⟩
  | 111 => ⟨S50000x64, .f32⟩
  | 112 => ⟨S50000x64, .f32⟩
  | 113 => ⟨S50000x64, .f32⟩
  | 114 => ⟨S_, .f32⟩
  | 115 => ⟨S50000x64, .f32⟩
  | 116 => ⟨S50000x64, .f32⟩
  | 117 => ⟨S_, .f32⟩
  | 118 => ⟨S50000x64, .f32⟩
  | 119 => ⟨S50000x64, .f32⟩
  | 120 => ⟨S50000x64, .f32⟩
  | 121 => ⟨S50000x64, .f32⟩
  | 122 => ⟨S_, .f32⟩
  | 123 => ⟨S50000x64, .f32⟩
  | 124 => ⟨S50000x64, .f32⟩
  | 125 => ⟨S_, .f32⟩
  | 126 => ⟨S50000x64, .f32⟩
  | 127 => ⟨S50000x64, .f32⟩
  | _ => ⟨S50000x64, .f32⟩

abbrev hbmTy0_1 (i : Nat) : BufTy := match i % 128 with
  | 0 => ⟨S50000x64, .f32⟩
  | 1 => ⟨S50000x64, .f32⟩
  | 2 => ⟨S50000x64, .f32⟩
  | 3 => ⟨S_, .f32⟩
  | 4 => ⟨S50000x64, .f32⟩
  | 5 => ⟨S50000x64, .f32⟩
  | 6 => ⟨S_, .f32⟩
  | 7 => ⟨S50000x64, .f32⟩
  | 8 => ⟨S50000x64, .f32⟩
  | 9 => ⟨S50000x64, .f32⟩
  | 10 => ⟨S50000x64, .f32⟩
  | 11 => ⟨S50000x64, .f32⟩
  | 12 => ⟨S50000x64, .f32⟩
  | 13 => ⟨S50000x64, .f32⟩
  | 14 => ⟨S50000x64, .f32⟩
  | 15 => ⟨S_, .f32⟩
  | 16 => ⟨S50000x64, .f32⟩
  | 17 => ⟨S50000x64, .f32⟩
  | 18 => ⟨S64x8, .f32⟩
  | 19 => ⟨S50000x8, .f32⟩
  | 20 => ⟨S1x8, .f32⟩
  | 21 => ⟨S50000x8, .f32⟩
  | 22 => ⟨S50000x8, .f32⟩
  | 23 => ⟨S1x50000x64, .f32⟩
  | 24 => ⟨S1x50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_call0_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_0 : Ref sig .tc := ⟨.hbm, 25, rfl⟩
abbrev main_v7 : Ref sig .tc := ⟨.hbm, 26, rfl⟩
abbrev main_v8 : Ref sig .tc := ⟨.hbm, 27, rfl⟩
abbrev main_c_1 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_2 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_5 : Ref sig .tc := ⟨.hbm, 72, rfl⟩
abbrev main_v48 : Ref sig .tc := ⟨.hbm, 73, rfl⟩
abbrev main_v49 : Ref sig .tc := ⟨.hbm, 74, rfl⟩
abbrev main_cst_6 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_7 : Ref sig .tc := ⟨.hbm, 81, rfl⟩
abbrev main_v55 : Ref sig .tc := ⟨.hbm, 82, rfl⟩
abbrev main_v56 : Ref sig .tc := ⟨.hbm, 83, rfl⟩
abbrev main_cst_8 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_9 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_10 : Ref sig .tc := ⟨.hbm, 114, rfl⟩
abbrev main_v85 : Ref sig .tc := ⟨.hbm, 115, rfl⟩
abbrev main_v86 : Ref sig .tc := ⟨.hbm, 116, rfl⟩
abbrev main_cst_11 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_12 : Ref sig .tc := ⟨.hbm, 122, rfl⟩
abbrev main_v91 : Ref sig .tc := ⟨.hbm, 123, rfl⟩
abbrev main_v92 : Ref sig .tc := ⟨.hbm, 124, rfl⟩
abbrev main_cst_13 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_14 : Ref sig .tc := ⟨.hbm, 131, rfl⟩
abbrev main_v98 : Ref sig .tc := ⟨.hbm, 132, rfl⟩
abbrev main_v99 : Ref sig .tc := ⟨.hbm, 133, rfl⟩
abbrev main_cst_15 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_call1_cst : Ref sig .tc := ⟨.hbm, 143, rfl⟩
abbrev main_call1_v0 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  pads_S50000x64_S50000x100_000_0360 : S50000x64.Pads (![0, 0] : Fin 2 → Nat) ![0, 36] ![0, 0] S50000x100
  h_S_ : 0 < S_.numel
  shapeCasts_S1x100x100_S100x100 : S1x100x100.ShapeCasts S100x100
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x100_0_1 : S800000x1.BroadcastsInDim S800000x100 (![0, 1] : Fin 2 → Fin S800000x100.rank)
  bcast_S_S50000x100 : S_.BroadcastsInDim S50000x100 (![] : Fin 0 → Fin S50000x100.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x100_0_1 : S50000x1.BroadcastsInDim S50000x100 (![0, 1] : Fin 2 → Fin S50000x100.rank)
  transposes_S300x100_S100x300_1_0 : S300x100.Transposes [1, 0] S100x300
  bcast_S300_S1x300_1 : S300.BroadcastsInDim S1x300 (![1] : Fin 1 → Fin S1x300.rank)
  bcast_S1x300_S50000x300_0_1 : S1x300.BroadcastsInDim S50000x300 (![0, 1] : Fin 2 → Fin S50000x300.rank)
  slices_S50000x300_S50000x100_0_0 : S50000x300.Slices ![0, 0] S50000x100
  slices_S50000x300_S50000x100_0_100 : S50000x300.Slices ![0, 100] S50000x100
  slices_S50000x300_S50000x100_0_200 : S50000x300.Slices ![0, 200] S50000x100
  transposes_S256x100_S100x256_1_0 : S256x100.Transposes [1, 0] S100x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S1x50000x64_S50000x64 : S1x50000x64.ShapeCasts S50000x64
  transposes_S256x64_S64x256_1_0 : S256x64.Transposes [1, 0] S64x256
  slices_S50000x256_S50000x64_0_0 : S50000x256.Slices ![0, 0] S50000x64
  slices_S50000x256_S50000x64_0_64 : S50000x256.Slices ![0, 64] S50000x64
  slices_S50000x256_S50000x64_0_128 : S50000x256.Slices ![0, 128] S50000x64
  slices_S50000x256_S50000x64_0_192 : S50000x256.Slices ![0, 192] S50000x64
  bcast_S_S50000x64 : S_.BroadcastsInDim S50000x64 (![] : Fin 0 → Fin S50000x64.rank)
  transposes_S8x64_S64x8_1_0 : S8x64.Transposes [1, 0] S64x8
  bcast_S8_S1x8_1 : S8.BroadcastsInDim S1x8 (![1] : Fin 1 → Fin S1x8.rank)
  bcast_S1x8_S50000x8_0_1 : S1x8.BroadcastsInDim S50000x8 (![0, 1] : Fin 2 → Fin S50000x8.rank)
  bcast_S50000x64_S1x50000x64_1_2 : S50000x64.BroadcastsInDim S1x50000x64 (![1, 2] : Fin 2 → Fin S1x50000x64.rank)
  dot_S50000x100_S100x100_S50000x100_1_0_0_1_n_n_wf : DotDims.WF S50000x100 S100x100 S50000x100 [1] [0] [0] [1] [] []
  gather_S50000x100_S800000x1_S800000x100_1_0_n_n_0_1_1100_wf : GatherDims.WF S50000x100 S800000x1 S800000x100 [1] [0] [] [0] [] 1 ![1, 100]
  scatter_S50000x100_S800000x1_S800000x100_1_0_0_1_wf : ScatterDims.WF S50000x100 S800000x1 S800000x100 [1] [0] [0] 1
  scatter_S50000_S800000x1_S800000_n_0_0_1_wf : ScatterDims.WF S50000 S800000x1 S800000 [] [0] [0] 1
  dot_S50000x100_S100x300_S50000x300_1_0_0_1_n_n_wf : DotDims.WF S50000x100 S100x300 S50000x300 [1] [0] [0] [1] [] []
  dot_S50000x100_S100x256_S50000x256_1_0_0_1_n_n_wf : DotDims.WF S50000x100 S100x256 S50000x256 [1] [0] [0] [1] [] []
  dot_S50000x64_S64x256_S50000x256_1_0_0_1_n_n_wf : DotDims.WF S50000x64 S64x256 S50000x256 [1] [0] [0] [1] [] []
  dot_S50000x64_S64x8_S50000x8_1_0_0_1_n_n_wf : DotDims.WF S50000x64 S64x8 S50000x8 [1] [0] [0] [1] [] []

variable [Facts₀]

def dot_S50000x100_S100x100_S50000x100_1_0_0_1_n_n : DotDims S50000x100 S100x100 S50000x100 where
  lhsContracting := [1]
  rhsContracting := [0]
  lhsNonContracting := [0]
  rhsNonContracting := [1]
  lhsBatch := []
  rhsBatch := []
  wf := dot_S50000x100_S100x100_S50000x100_1_0_0_1_n_n_wf
def gather_S50000x100_S800000x1_S800000x100_1_0_n_n_0_1_1100 : GatherDims S50000x100 S800000x1 S800000x100 where
  offsetDims := [1]
  collapsedSliceDims := [0]
  operandBatchingDims := []
  startIndicesBatchingDims := []
  startIndexMap := [0]
  indexVectorDim := 1
  sliceSizes := ![1, 100]
  wf := gather_S50000x100_S800000x1_S800000x100_1_0_n_n_0_1_1100_wf
def scatter_S50000x100_S800000x1_S800000x100_1_0_0_1 : ScatterDims S50000x100 S800000x1 S800000x100 where
  updateWindowDims := [1]
  insertedWindowDims := [0]
  scatterDimsToOperandDims := [0]
  indexVectorDim := 1
  wf := scatter_S50000x100_S800000x1_S800000x100_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x100_S100x300_S50000x300_1_0_0_1_n_n : DotDims S50000x100 S100x300 S50000x300 where
  lhsContracting := [1]
  rhsContracting := [0]
  lhsNonContracting := [0]
  rhsNonContracting := [1]
  lhsBatch := []
  rhsBatch := []
  wf := dot_S50000x100_S100x300_S50000x300_1_0_0_1_n_n_wf
def dot_S50000x100_S100x256_S50000x256_1_0_0_1_n_n : DotDims S50000x100 S100x256 S50000x256 where
  lhsContracting := [1]
  rhsContracting := [0]
  lhsNonContracting := [0]
  rhsNonContracting := [1]
  lhsBatch := []
  rhsBatch := []
  wf := dot_S50000x100_S100x256_S50000x256_1_0_0_1_n_n_wf
def dot_S50000x64_S64x256_S50000x256_1_0_0_1_n_n : DotDims S50000x64 S64x256 S50000x256 where
  lhsContracting := [1]
  rhsContracting := [0]
  lhsNonContracting := [0]
  rhsNonContracting := [1]
  lhsBatch := []
  rhsBatch := []
  wf := dot_S50000x64_S64x256_S50000x256_1_0_0_1_n_n_wf
def dot_S50000x64_S64x8_S50000x8_1_0_0_1_n_n : DotDims S50000x64 S64x8 S50000x8 where
  lhsContracting := [1]
  rhsContracting := [0]
  lhsNonContracting := [0]
  rhsNonContracting := [1]
  lhsBatch := []
  rhsBatch := []
  wf := dot_S50000x64_S64x8_S50000x8_1_0_0_1_n_n_wf

class Facts : Prop extends Facts₀ where

variable [Facts]
-- ==== Proof.RowSpec.lean ====
/-
  One node of the graph cell as scalar functions of its rows, over the extended reals.

  A node's row of the padded features `xr` (100 entries) and of the neighbourhood mean `ar` (100 entries)
  go through a gated recurrent unit: two affine maps `gi`, `gh` into 300 entries, cut in three; the reset and
  update gates are logistic functions of the sums of the first and second thirds, the candidate is the
  hyperbolic tangent of `gi`'s last third plus the reset gate times `gh`'s last third, and the unit's result
  `conv` mixes the candidate with the padded features by the update gate. That row and the node's previous
  hidden row `hr` (64 entries) enter a long short-term memory step: four gates of 64 entries cut from one affine
  sum of 256, the new cell row `cell` from the forget and input gates and the previous cell row `cr`, the new
  hidden row `hid` from the output gate. The head `head` is an affine map of the rectified hidden row into 8.

  Every sum is written as it stands in both programs: a finite sum of products plus a bias, nothing rearranged,
  so neither program's term has to be reassociated to meet these. The words of 1.0 and 0.0 stay words.
-/
import Idealize.ShloMosaic.PureOps.Ideal
import Idealize.ShloMosaic.Lib.ValueIdx
import Idealize.ShloMosaic.PureOps.Ideal.Laws

noncomputable section

open Idealize.ShloMosaic Idealize.ShloMosaic.ValueIdx

namespace Cert.Cell

/-- A matrix of extended reals over the literal two-axis index type. -/
abbrev Mat (a b : Nat) : Type := (⟨2, ![a, b]⟩ : Shape).Idx → EReal

/-- Row `n` of a matrix. -/
abbrev row {a b : Nat} (M : Mat a b) (n : Fin a) : Fin b → EReal := fun k => M (ix2 n k)

/-- The word of 1.0 at the extended reals. -/
abbrev one : EReal := Ideal.ofBits .f32 0x3F800000#32
/-- The word of 0.0 at the extended reals. -/
abbrev zero : EReal := Ideal.ofBits .f32 0x00000000#32

/-- The word of 1.0 is the real number one: sign 0, exponent 127, mantissa 0. -/
theorem one_eq : one = 1 := by
  simp [one, Ideal.ofBits, Ideal.ieee]
  rw [← EReal.coe_mul, ← EReal.coe_one]
  congr 1
  norm_num

/-- The logistic function as both programs spell it: one over one plus the exponential of the negation, the ones
    as words. -/
theorem logistic_words (x : EReal) : Ideal.logistic x = Ideal.div one (one + Ideal.exp (-x)) := by
  rw [one_eq]; rfl

/-- The cell's parameters, each weight matrix laid out contraction axis first. -/
structure Wts where
  wih : Mat 100 300
  whh : Mat 100 300
  bih : Fin 300 → EReal
  bhh : Fin 300 → EReal
  lwih : Mat 100 256
  lwhh : Mat 64 256
  lbih : Fin 256 → EReal
  lbhh : Fin 256 → EReal
  lw : Mat 64 8
  lb : Fin 8 → EReal

/-- The three thirds of the recurrent unit's 300 entries. -/
abbrev third0 (j : Fin 100) : Fin 300 := ⟨j.val, by omega⟩
abbrev third1 (j : Fin 100) : Fin 300 := ⟨100 + j.val, by omega⟩
abbrev third2 (j : Fin 100) : Fin 300 := ⟨200 + j.val, by omega⟩
/-- The four quarters of the memory step's 256 entries. -/
abbrev quarter0 (j : Fin 64) : Fin 256 := ⟨j.val, by omega⟩
abbrev quarter1 (j : Fin 64) : Fin 256 := ⟨64 + j.val, by omega⟩
abbrev quarter2 (j : Fin 64) : Fin 256 := ⟨128 + j.val, by omega⟩
abbrev quarter3 (j : Fin 64) : Fin 256 := ⟨192 + j.val, by omega⟩

section
variable (W : Wts) (xr ar : Fin 100 → EReal) (hr cr : Fin 64 → EReal)

/-- The recurrent unit's affine map of the neighbourhood mean. -/
def gi (q : Fin 300) : EReal := (∑ k : Fin 100, ar k * W.wih (ix2 k q)) + W.bih q
/-- The recurrent unit's affine map of the padded features. -/
def gh (q : Fin 300) : EReal := (∑ k : Fin 100, xr k * W.whh (ix2 k q)) + W.bhh q
/-- The reset gate. -/
def reset (j : Fin 100) : EReal := Ideal.logistic (gi W ar (third0 j) + gh W xr (third0 j))
/-- The update gate. -/
def update (j : Fin 100) : EReal := Ideal.logistic (gi W ar (third1 j) + gh W xr (third1 j))
/-- The candidate. -/
def cand (j : Fin 100) : EReal := Ideal.tanh (gi W ar (third2 j) + reset W xr ar j * gh W xr (third2 j))
/-- The recurrent unit's result. -/
def conv (j : Fin 100) : EReal := (one - update W xr ar j) * cand W xr ar j + update W xr ar j * xr j
/-- The memory step's 256 pre-activations. -/
def gates (q : Fin 256) : EReal :=
  (((∑ k : Fin 100, conv W xr ar k * W.lwih (ix2 k q)) + W.lbih q) + ∑ k : Fin 64, hr k * W.lwhh (ix2 k q)) + W.lbhh q
/-- The new cell row. -/
def cell (j : Fin 64) : EReal :=
  Ideal.logistic (gates W xr ar hr (quarter1 j)) * cr j
    + Ideal.logistic (gates W xr ar hr (quarter0 j)) * Ideal.tanh (gates W xr ar hr (quarter2 j))
/-- The new hidden row. -/
def hid (j : Fin 64) : EReal := Ideal.logistic (gates W xr ar hr (quarter3 j)) * Ideal.tanh (cell W xr ar hr cr j)
/-- The head. -/
def head (q : Fin 8) : EReal := (∑ k : Fin 64, max (hid W xr ar hr cr k) zero * W.lw (ix2 k q)) + W.lb q

end

/-! ## The same, array by array: every node's row at once -/

section
variable (W : Wts) {R : Nat} (xp ag : Mat R 100) (h0 c0 : Mat R 64)

/-- The new cell rows of all `R` nodes. -/
def cellArr : Mat R 64 := fun i => cell W (row xp (i 0)) (row ag (i 0)) (row h0 (i 0)) (row c0 (i 0)) (i 1)
/-- The new hidden rows of all `R` nodes. -/
def hidArr : Mat R 64 := fun i => hid W (row xp (i 0)) (row ag (i 0)) (row h0 (i 0)) (row c0 (i 0)) (i 1)
/-- The heads of all `R` nodes. -/
def headArr : Mat R 8 := fun i => head W (row xp (i 0)) (row ag (i 0)) (row h0 (i 0)) (row c0 (i 0)) (i 1)

theorem cellArr_apply (n : Fin R) (j : Fin 64) :
    cellArr W xp ag h0 c0 (ix2 n j) = cell W (row xp n) (row ag n) (row h0 n) (row c0 n) j := rfl
theorem hidArr_apply (n : Fin R) (j : Fin 64) :
    hidArr W xp ag h0 c0 (ix2 n j) = hid W (row xp n) (row ag n) (row h0 n) (row c0 n) j := rfl
theorem headArr_apply (n : Fin R) (q : Fin 8) :
    headArr W xp ag h0 c0 (ix2 n q) = head W (row xp n) (row ag n) (row h0 n) (row c0 n) q := rfl

end

/-- The projection before the neighbourhood mean: a node's 64 features against the first 64 rows of the
    100 by 100 weight. -/
def projArr {R : Nat} (x : Mat R 64) (w : Mat 64 100) : Mat R 100 :=
  fun i => ∑ k : Fin 64, x (ix2 (i 0) k) * w (ix2 k (i 1))

theorem projArr_apply {R : Nat} (x : Mat R 64) (w : Mat 64 100) (n : Fin R) (q : Fin 100) :
    projArr x w (ix2 n q) = ∑ k : Fin 64, x (ix2 n k) * w (ix2 k q) := rfl

end Cert.Cell

end
-- ==== Proof.Spec.lean ====
/-
  What both programs compute, as functions of the argument arrays.

  `aggOf` is the neighbourhood mean of a projected feature array: every edge gathers its source node's row
  (a negative source index counted from the end), scales it by the edge's weight, the rows are added up at the
  edges' destination nodes, and each node's sum is divided by the larger of its edge count and one. Both
  programs apply exactly these host operations, so it is kept as one function and never opened.

  The rest names the arrays the cell's rows are read from: the features padded to 100 columns with zeros, the
  previous hidden and cell rows without their leading unit axis, the first 64 rows of the projection weight,
  and the cell's parameters, each weight read transposed (contraction axis first).
-/
import proofs.«148086_j54443005444660_1_alg».proof.KernelIdeal
import proofs.«148086_j54443005444660_1_alg».proof.Proof.Gen.KernelIdeal
import proofs.«148086_j54443005444660_1_alg».proof.Proof.RowSpec

noncomputable section

open Idealize.ShloMosaic Idealize.ShloMosaic.ValueIdx

namespace Cert.Spec

open Cert.KernelIdeal Cert.KernelIdeal.Facts₀ Cert.Cell

section Chain
variable {F : FTy → Type} [FloatOps F]

/-- The source node of every edge, a negative index counted from the end, as a column. -/
def srcCol (ei : (⟨S2x800000, .i32⟩ : BufTy).Contents (Elt F)) : (⟨S800000x1, .i32⟩ : BufTy).Contents (Elt F) :=
  let s : (⟨S800000, .i32⟩ : BufTy).Contents (Elt F) :=
    shapeCast _ (extractStridedSlice S1x800000 ![0, 0] ei slices_S2x800000_S1x800000_0_0) shapeCasts_S1x800000_S800000
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The destination node of every edge, as a column. -/
def dstCol (ei : (⟨S2x800000, .i32⟩ : BufTy).Contents (Elt F)) : (⟨S800000x1, .i32⟩ : BufTy).Contents (Elt F) :=
  broadcastInDim S800000x1 ![0] bcast_S800000_S800000x1_0
    (shapeCast _ (extractStridedSlice S1x800000 ![1, 0] ei slices_S2x800000_S1x800000_1_0) shapeCasts_S1x800000_S800000)

/-- The neighbourhood mean of the projected features `mm` over the edges `ei` with weights `ew`. -/
def aggOf (mm : (⟨S50000x100, .f32⟩ : BufTy).Contents (Elt F)) (ei : (⟨S2x800000, .i32⟩ : BufTy).Contents (Elt F))
    (ew : (⟨S800000, .f32⟩ : BufTy).Contents (Elt F)) : (⟨S50000x100, .f32⟩ : BufTy).Contents (Elt F) :=
  Host.divf
    (Host.scatterAdd scatter_S50000x100_S800000x1_S800000x100_1_0_0_1
      (broadcastInDim S50000x100 ![] bcast_S_S50000x100 (constant S_ .f32 0x00000000#32))
      (dstCol ei)
      (mulf (Host.gather gather_S50000x100_S800000x1_S800000x100_1_0_n_n_0_1_1100 mm (srcCol ei))
        (broadcastInDim S800000x100 ![0, 1] bcast_S800000x1_S800000x100_0_1
          (broadcastInDim S800000x1 ![0] bcast_S800000_S800000x1_0 ew))))
    (broadcastInDim S50000x100 ![0, 1] bcast_S50000x1_S50000x100_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (dstCol ei)
            (broadcastInDim S800000 ![] bcast_S_S800000 (constant S_ .f32 0x3F800000#32)))
          (broadcastInDim S50000 ![] bcast_S_S50000 (constant S_ .f32 0x3F800000#32)))))

end Chain

/-! ## The arrays the rows are read from, at the extended reals -/

/-- The features padded with 36 zero columns. -/
def padArr (a0 : (⟨S50000x64, .f32⟩ : BufTy).Contents (Elt Ideal)) : Mat 50000 100 :=
  fun i => if h : (i 1).val < 64 then a0 (ix2 (i 0) ⟨(i 1).val, h⟩) else 0

/-- A [1, 50000, 64] array without its unit axis. -/
def dropUnit (a : (⟨S1x50000x64, .f32⟩ : BufTy).Contents (Elt Ideal)) : Mat 50000 64 :=
  fun i => a (ix3 (0 : Fin 1) (i 0) (i 1))

/-- The first 64 rows of the [1, 100, 100] projection weight. -/
def wTopArr (a5 : (⟨S1x100x100, .f32⟩ : BufTy).Contents (Elt Ideal)) : Mat 64 100 :=
  fun i => a5 (ix3 (0 : Fin 1) (⟨(i 0).val, Nat.lt_trans (idx2_lt0 i) (by decide)⟩ : Fin 100) (i 1))

/-- The cell's parameters off the argument arrays: each weight transposed, each bias as it is. -/
def argW (a6 a7 : (⟨S300x100, .f32⟩ : BufTy).Contents (Elt Ideal)) (a8 a9 : (⟨S300, .f32⟩ : BufTy).Contents (Elt Ideal))
    (a10 : (⟨S256x100, .f32⟩ : BufTy).Contents (Elt Ideal)) (a11 : (⟨S256x64, .f32⟩ : BufTy).Contents (Elt Ideal))
    (a12 a13 : (⟨S256, .f32⟩ : BufTy).Contents (Elt Ideal)) (a14 : (⟨S8x64, .f32⟩ : BufTy).Contents (Elt Ideal))
    (a15 : (⟨S8, .f32⟩ : BufTy).Contents (Elt Ideal)) : Wts where
  wih := fun i => a6 (ix2 (i 1) (i 0))
  whh := fun i => a7 (ix2 (i 1) (i 0))
  bih := fun q => a8 (ix1 q)
  bhh := fun q => a9 (ix1 q)
  lwih := fun i => a10 (ix2 (i 1) (i 0))
  lwhh := fun i => a11 (ix2 (i 1) (i 0))
  lbih := fun q => a12 (ix1 q)
  lbhh := fun q => a13 (ix1 q)
  lw := fun i => a14 (ix2 (i 1) (i 0))
  lb := fun q => a15 (ix1 q)

/-- The cell's parameters as its kernel finds them staged: the weights already contraction axis first, each bias a
    one-row array. -/
def blkW (w4 w5 : (⟨S100x300, .f32⟩ : BufTy).Contents (Elt Ideal)) (b6 b7 : (⟨S1x300, .f32⟩ : BufTy).Contents (Elt Ideal))
    (w8 : (⟨S100x256, .f32⟩ : BufTy).Contents (Elt Ideal)) (w9 : (⟨S64x256, .f32⟩ : BufTy).Contents (Elt Ideal))
    (b10 b11 : (⟨S1x256, .f32⟩ : BufTy).Contents (Elt Ideal)) (w12 : (⟨S64x8, .f32⟩ : BufTy).Contents (Elt Ideal))
    (b13 : (⟨S1x8, .f32⟩ : BufTy).Contents (Elt Ideal)) : Wts where
  wih := w4
  whh := w5
  bih := fun q => b6 (ix2 (0 : Fin 1) q)
  bhh := fun q => b7 (ix2 (0 : Fin 1) q)
  lwih := w8
  lwhh := w9
  lbih := fun q => b10 (ix2 (0 : Fin 1) q)
  lbhh := fun q => b11 (ix2 (0 : Fin 1) q)
  lw := w12
  lb := fun q => b13 (ix2 (0 : Fin 1) q)

/-- The neighbourhood mean both programs feed the cell: `aggOf` of the projection of the features. -/
def aggArr (a0 : (⟨S50000x64, .f32⟩ : BufTy).Contents (Elt Ideal)) (a1 : (⟨S2x800000, .i32⟩ : BufTy).Contents (Elt Ideal))
    (a2 : (⟨S800000, .f32⟩ : BufTy).Contents (Elt Ideal)) (a5 : (⟨S1x100x100, .f32⟩ : BufTy).Contents (Elt Ideal)) : Mat 50000 100 :=
  aggOf (F := Ideal) (projArr a0 (wTopArr a5)) a1 a2

/-! ## The three results, as functions of the sixteen argument arrays -/

section Results
variable (a0 : (⟨S50000x64, .f32⟩ : BufTy).Contents (Elt Ideal)) (a1 : (⟨S2x800000, .i32⟩ : BufTy).Contents (Elt Ideal))
    (a2 : (⟨S800000, .f32⟩ : BufTy).Contents (Elt Ideal)) (a3 a4 : (⟨S1x50000x64, .f32⟩ : BufTy).Contents (Elt Ideal))
    (a5 : (⟨S1x100x100, .f32⟩ : BufTy).Contents (Elt Ideal)) (a6 a7 : (⟨S300x100, .f32⟩ : BufTy).Contents (Elt Ideal))
    (a8 a9 : (⟨S300, .f32⟩ : BufTy).Contents (Elt Ideal)) (a10 : (⟨S256x100, .f32⟩ : BufTy).Contents (Elt Ideal))
    (a11 : (⟨S256x64, .f32⟩ : BufTy).Contents (Elt Ideal)) (a12 a13 : (⟨S256, .f32⟩ : BufTy).Contents (Elt Ideal))
    (a14 : (⟨S8x64, .f32⟩ : BufTy).Contents (Elt Ideal)) (a15 : (⟨S8, .f32⟩ : BufTy).Contents (Elt Ideal))

/-- The heads of all nodes. -/
def headRes : Mat 50000 8 :=
  headArr (argW a6 a7 a8 a9 a10 a11 a12 a13 a14 a15) (padArr a0) (aggArr a0 a1 a2 a5) (dropUnit a3) (dropUnit a4)
/-- The new hidden rows of all nodes. -/
def hidRes : Mat 50000 64 :=
  hidArr (argW a6 a7 a8 a9 a10 a11 a12 a13 a14 a15) (padArr a0) (aggArr a0 a1 a2 a5) (dropUnit a3) (dropUnit a4)
/-- The new cell rows of all nodes. -/
def cellRes : Mat 50000 64 :=
  cellArr (argW a6 a7 a8 a9 a10 a11 a12 a13 a14 a15) (padArr a0) (aggArr a0 a1 a2 a5) (dropUnit a3) (dropUnit a4)

end Results

end Cert.Spec

end
-- ==== Proof.KDots.lean ====
/-
  The kernel's five matrix products read at an output index: with a zero accumulator each is the plain sum, over
  the contraction index, of the left operand's row entry times the right operand's column entry.
-/
import proofs.«148086_j54443005444660_1_alg».proof.KernelIdeal
import proofs.«148086_j54443005444660_1_alg».proof.Proof.Gen.KernelIdeal
import Idealize.ShloMosaic.PureOps.Ideal.Laws
import Idealize.ShloMosaic.Lib.ValueIdx

noncomputable section

open Idealize.ShloMosaic Idealize.ShloMosaic.TcCoe Idealize.ShloMosaic.ValueIdx Idealize.SL.Sem

namespace Cert.KernelIdeal.Dots

open Cert.KernelIdeal

variable {φ₁ φ₂ : FTy}

/-! Each record contracts the left operand's axis 1 with the right operand's axis 0 and has no batch axis. For each,
    four facts say which coordinate of the output index and of the contraction index each operand axis reads; the
    product at (p, q) is then re-indexed along the contraction shape's single axis. -/

/-! ### The projection's product -/

theorem lhs_proj_0 (i : S1000x100.Idx) (q : dot_S1000x64_S64x100_S1000x100_1_0_0_1_n_n.contr.Idx) :
    (dot_S1000x64_S64x100_S1000x100_1_0_0_1_n_n.lhsIdx i q 0).val = (i 0).val := by
  unfold DotDims.lhsIdx
  rw [dif_neg (show ¬(0 : Fin S1000x64.rank) ∈ dot_S1000x64_S64x100_S1000x100_1_0_0_1_n_n.lhsBatch by decide), dif_pos (show (0 : Fin S1000x64.rank) ∈ dot_S1000x64_S64x100_S1000x100_1_0_0_1_n_n.lhsNonContracting by decide)]
  rfl
theorem lhs_proj_1 (i : S1000x100.Idx) (q : dot_S1000x64_S64x100_S1000x100_1_0_0_1_n_n.contr.Idx) :
    (dot_S1000x64_S64x100_S1000x100_1_0_0_1_n_n.lhsIdx i q 1).val = (q ⟨0, by decide⟩).val :=
  dot_S1000x64_S64x100_S1000x100_1_0_0_1_n_n.lhsIdx_val_of_single rfl i q
theorem rhs_proj_0 (i : S1000x100.Idx) (q : dot_S1000x64_S64x100_S1000x100_1_0_0_1_n_n.contr.Idx) :
    (dot_S1000x64_S64x100_S1000x100_1_0_0_1_n_n.rhsIdx i q 0).val = (q ⟨0, by decide⟩).val :=
  dot_S1000x64_S64x100_S1000x100_1_0_0_1_n_n.rhsIdx_val_of_single rfl i q
theorem rhs_proj_1 (i : S1000x100.Idx) (q : dot_S1000x64_S64x100_S1000x100_1_0_0_1_n_n.contr.Idx) :
    (dot_S1000x64_S64x100_S1000x100_1_0_0_1_n_n.rhsIdx i q 1).val = (i 1).val := by
  unfold DotDims.rhsIdx
  rw [dif_neg (show ¬(1 : Fin S64x100.rank) ∈ dot_S1000x64_S64x100_S1000x100_1_0_0_1_n_n.rhsBatch by decide), dif_pos (show (1 : Fin S64x100.rank) ∈ dot_S1000x64_S64x100_S1000x100_1_0_0_1_n_n.rhsNonContracting by decide)]
  rfl

/-- The projection's product: 1000 by 64 times 64 by 100. -/
theorem mm_proj (l : FVec Ideal S1000x64 φ₁) (r : FVec Ideal S64x100 φ₂) (p : Fin 1000) (q : Fin 100) :
    matmul dot_S1000x64_S64x100_S1000x100_1_0_0_1_n_n none l r (constant S1000x100 .f32 0x00000000#32) (ix2 p q)
      = ∑ k : Fin 64, l (ix2 p k) * r (ix2 k q) := by
  simp only [matmul]
  rw [Ideal.matmul_constant_zero_apply, ← Equiv.sum_comp (ValueIdx.contrEquiv1 dot_S1000x64_S64x100_S1000x100_1_0_0_1_n_n 64 rfl rfl).symm]
  refine Finset.sum_congr rfl fun k _ => ?_
  have hk := ValueIdx.contrEquiv1_symm_val dot_S1000x64_S64x100_S1000x100_1_0_0_1_n_n 64 rfl rfl k
  -- the left operand's index at (p, q) and contraction coordinate k is (p, k)
  have el : dot_S1000x64_S64x100_S1000x100_1_0_0_1_n_n.lhsIdx (ix2 p q) ((ValueIdx.contrEquiv1 dot_S1000x64_S64x100_S1000x100_1_0_0_1_n_n 64 rfl rfl).symm k) = ix2 p k := funext fun a => Fin.ext (by
    match a with
    | ⟨0, _⟩ => exact lhs_proj_0 _ _
    | ⟨1, _⟩ => exact (lhs_proj_1 _ _).trans hk)
  -- the right operand's is (k, q)
  have er : dot_S1000x64_S64x100_S1000x100_1_0_0_1_n_n.rhsIdx (ix2 p q) ((ValueIdx.contrEquiv1 dot_S1000x64_S64x100_S1000x100_1_0_0_1_n_n 64 rfl rfl).symm k) = ix2 k q := funext fun a => Fin.ext (by
    match a with
    | ⟨0, _⟩ => exact (rhs_proj_0 _ _).trans hk
    | ⟨1, _⟩ => exact rhs_proj_1 _ _)
  rw [el, er]

/-! ### The recurrent unit's two products -/

theorem lhs_gru_0 (i : S1000x300.Idx) (q : dot_S1000x100_S100x300_S1000x300_1_0_0_1_n_n.contr.Idx) :
    (dot_S1000x100_S100x300_S1000x300_1_0_0_1_n_n.lhsIdx i q 0).val = (i 0).val := by
  unfold DotDims.lhsIdx
  rw [dif_neg (show ¬(0 : Fin S1000x100.rank) ∈ dot_S1000x100_S100x300_S1000x300_1_0_0_1_n_n.lhsBatch by decide), dif_pos (show (0 : Fin S1000x100.rank) ∈ dot_S1000x100_S100x300_S1000x300_1_0_0_1_n_n.lhsNonContracting by decide)]
  rfl
theorem lhs_gru_1 (i : S1000x300.Idx) (q : dot_S1000x100_S100x300_S1000x300_1_0_0_1_n_n.contr.Idx) :
    (dot_S1000x100_S100x300_S1000x300_1_0_0_1_n_n.lhsIdx i q 1).val = (q ⟨0, by decide⟩).val :=
  dot_S1000x100_S100x300_S1000x300_1_0_0_1_n_n.lhsIdx_val_of_single rfl i q
theorem rhs_gru_0 (i : S1000x300.Idx) (q : dot_S1000x100_S100x300_S1000x300_1_0_0_1_n_n.contr.Idx) :
    (dot_S1000x100_S100x300_S1000x300_1_0_0_1_n_n.rhsIdx i q 0).val = (q ⟨0, by decide⟩).val :=
  dot_S1000x100_S100x300_S1000x300_1_0_0_1_n_n.rhsIdx_val_of_single rfl i q
theorem rhs_gru_1 (i : S1000x300.Idx) (q : dot_S1000x100_S100x300_S1000x300_1_0_0_1_n_n.contr.Idx) :
    (dot_S1000x100_S100x300_S1000x300_1_0_0_1_n_n.rhsIdx i q 1).val = (i 1).val := by
  unfold DotDims.rhsIdx
  rw [dif_neg (show ¬(1 : Fin S100x300.rank) ∈ dot_S1000x100_S100x300_S1000x300_1_0_0_1_n_n.rhsBatch by decide), dif_pos (show (1 : Fin S100x300.rank) ∈ dot_S1000x100_S100x300_S1000x300_1_0_0_1_n_n.rhsNonContracting by decide)]
  rfl

/-- The recurrent unit's two products: 1000 by 100 times 100 by 300. -/
theorem mm_gru (l : FVec Ideal S1000x100 φ₁) (r : FVec Ideal S100x300 φ₂) (p : Fin 1000) (q : Fin 300) :
    matmul dot_S1000x100_S100x300_S1000x300_1_0_0_1_n_n none l r (constant S1000x300 .f32 0x00000000#32) (ix2 p q)
      = ∑ k : Fin 100, l (ix2 p k) * r (ix2 k q) := by
  simp only [matmul]
  rw [Ideal.matmul_constant_zero_apply, ← Equiv.sum_comp (ValueIdx.contrEquiv1 dot_S1000x100_S100x300_S1000x300_1_0_0_1_n_n 100 rfl rfl).symm]
  refine Finset.sum_congr rfl fun k _ => ?_
  have hk := ValueIdx.contrEquiv1_symm_val dot_S1000x100_S100x300_S1000x300_1_0_0_1_n_n 100 rfl rfl k
  -- the left operand's index at (p, q) and contraction coordinate k is (p, k)
  have el : dot_S1000x100_S100x300_S1000x300_1_0_0_1_n_n.lhsIdx (ix2 p q) ((ValueIdx.contrEquiv1 dot_S1000x100_S100x300_S1000x300_1_0_0_1_n_n 100 rfl rfl).symm k) = ix2 p k := funext fun a => Fin.ext (by
    match a with
    | ⟨0, _⟩ => exact lhs_gru_0 _ _
    | ⟨1, _⟩ => exact (lhs_gru_1 _ _).trans hk)
  -- the right operand's is (k, q)
  have er : dot_S1000x100_S100x300_S1000x300_1_0_0_1_n_n.rhsIdx (ix2 p q) ((ValueIdx.contrEquiv1 dot_S1000x100_S100x300_S1000x300_1_0_0_1_n_n 100 rfl rfl).symm k) = ix2 k q := funext fun a => Fin.ext (by
    match a with
    | ⟨0, _⟩ => exact (rhs_gru_0 _ _).trans hk
    | ⟨1, _⟩ => exact rhs_gru_1 _ _)
  rw [el, er]

/-! ### The memory step's product with the unit's result -/

theorem lhs_lstm_x_0 (i : S1000x256.Idx) (q : dot_S1000x100_S100x256_S1000x256_1_0_0_1_n_n.contr.Idx) :
    (dot_S1000x100_S100x256_S1000x256_1_0_0_1_n_n.lhsIdx i q 0).val = (i 0).val := by
  unfold DotDims.lhsIdx
  rw [dif_neg (show ¬(0 : Fin S1000x100.rank) ∈ dot_S1000x100_S100x256_S1000x256_1_0_0_1_n_n.lhsBatch by decide), dif_pos (show (0 : Fin S1000x100.rank) ∈ dot_S1000x100_S100x256_S1000x256_1_0_0_1_n_n.lhsNonContracting by decide)]
  rfl
theorem lhs_lstm_x_1 (i : S1000x256.Idx) (q : dot_S1000x100_S100x256_S1000x256_1_0_0_1_n_n.contr.Idx) :
    (dot_S1000x100_S100x256_S1000x256_1_0_0_1_n_n.lhsIdx i q 1).val = (q ⟨0, by decide⟩).val :=
  dot_S1000x100_S100x256_S1000x256_1_0_0_1_n_n.lhsIdx_val_of_single rfl i q
theorem rhs_lstm_x_0 (i : S1000x256.Idx) (q : dot_S1000x100_S100x256_S1000x256_1_0_0_1_n_n.contr.Idx) :
    (dot_S1000x100_S100x256_S1000x256_1_0_0_1_n_n.rhsIdx i q 0).val = (q ⟨0, by decide⟩).val :=
  dot_S1000x100_S100x256_S1000x256_1_0_0_1_n_n.rhsIdx_val_of_single rfl i q
theorem rhs_lstm_x_1 (i : S1000x256.Idx) (q : dot_S1000x100_S100x256_S1000x256_1_0_0_1_n_n.contr.Idx) :
    (dot_S1000x100_S100x256_S1000x256_1_0_0_1_n_n.rhsIdx i q 1).val = (i 1).val := by
  unfold DotDims.rhsIdx
  rw [dif_neg (show ¬(1 : Fin S100x256.rank) ∈ dot_S1000x100_S100x256_S1000x256_1_0_0_1_n_n.rhsBatch by decide), dif_pos (show (1 : Fin S100x256.rank) ∈ dot_S1000x100_S100x256_S1000x256_1_0_0_1_n_n.rhsNonContracting by decide)]
  rfl

/-- The memory step's product with the unit's result: 1000 by 100 times 100 by 256. -/
theorem mm_lstm_x (l : FVec Ideal S1000x100 φ₁) (r : FVec Ideal S100x256 φ₂) (p : Fin 1000) (q : Fin 256) :
    matmul dot_S1000x100_S100x256_S1000x256_1_0_0_1_n_n none l r (constant S1000x256 .f32 0x00000000#32) (ix2 p q)
      = ∑ k : Fin 100, l (ix2 p k) * r (ix2 k q) := by
  simp only [matmul]
  rw [Ideal.matmul_constant_zero_apply, ← Equiv.sum_comp (ValueIdx.contrEquiv1 dot_S1000x100_S100x256_S1000x256_1_0_0_1_n_n 100 rfl rfl).symm]
  refine Finset.sum_congr rfl fun k _ => ?_
  have hk := ValueIdx.contrEquiv1_symm_val dot_S1000x100_S100x256_S1000x256_1_0_0_1_n_n 100 rfl rfl k
  -- the left operand's index at (p, q) and contraction coordinate k is (p, k)
  have el : dot_S1000x100_S100x256_S1000x256_1_0_0_1_n_n.lhsIdx (ix2 p q) ((ValueIdx.contrEquiv1 dot_S1000x100_S100x256_S1000x256_1_0_0_1_n_n 100 rfl rfl).symm k) = ix2 p k := funext fun a => Fin.ext (by
    match a with
    | ⟨0, _⟩ => exact lhs_lstm_x_0 _ _
    | ⟨1, _⟩ => exact (lhs_lstm_x_1 _ _).trans hk)
  -- the right operand's is (k, q)
  have er : dot_S1000x100_S100x256_S1000x256_1_0_0_1_n_n.rhsIdx (ix2 p q) ((ValueIdx.contrEquiv1 dot_S1000x100_S100x256_S1000x256_1_0_0_1_n_n 100 rfl rfl).symm k) = ix2 k q := funext fun a => Fin.ext (by
    match a with
    | ⟨0, _⟩ => exact (rhs_lstm_x_0 _ _).trans hk
    | ⟨1, _⟩ => exact rhs_lstm_x_1 _ _)
  rw [el, er]

/-! ### The memory step's product with the previous hidden rows -/

theorem lhs_lstm_h_0 (i : S1000x256.Idx) (q : dot_S1000x64_S64x256_S1000x256_1_0_0_1_n_n.contr.Idx) :
    (dot_S1000x64_S64x256_S1000x256_1_0_0_1_n_n.lhsIdx i q 0).val = (i 0).val := by
  unfold DotDims.lhsIdx
  rw [dif_neg (show ¬(0 : Fin S1000x64.rank) ∈ dot_S1000x64_S64x256_S1000x256_1_0_0_1_n_n.lhsBatch by decide), dif_pos (show (0 : Fin S1000x64.rank) ∈ dot_S1000x64_S64x256_S1000x256_1_0_0_1_n_n.lhsNonContracting by decide)]
  rfl
theorem lhs_lstm_h_1 (i : S1000x256.Idx) (q : dot_S1000x64_S64x256_S1000x256_1_0_0_1_n_n.contr.Idx) :
    (dot_S1000x64_S64x256_S1000x256_1_0_0_1_n_n.lhsIdx i q 1).val = (q ⟨0, by decide⟩).val :=
  dot_S1000x64_S64x256_S1000x256_1_0_0_1_n_n.lhsIdx_val_of_single rfl i q
theorem rhs_lstm_h_0 (i : S1000x256.Idx) (q : dot_S1000x64_S64x256_S1000x256_1_0_0_1_n_n.contr.Idx) :
    (dot_S1000x64_S64x256_S1000x256_1_0_0_1_n_n.rhsIdx i q 0).val = (q ⟨0, by decide⟩).val :=
  dot_S1000x64_S64x256_S1000x256_1_0_0_1_n_n.rhsIdx_val_of_single rfl i q
theorem rhs_lstm_h_1 (i : S1000x256.Idx) (q : dot_S1000x64_S64x256_S1000x256_1_0_0_1_n_n.contr.Idx) :
    (dot_S1000x64_S64x256_S1000x256_1_0_0_1_n_n.rhsIdx i q 1).val = (i 1).val := by
  unfold DotDims.rhsIdx
  rw [dif_neg (show ¬(1 : Fin S64x256.rank) ∈ dot_S1000x64_S64x256_S1000x256_1_0_0_1_n_n.rhsBatch by decide), dif_pos (show (1 : Fin S64x256.rank) ∈ dot_S1000x64_S64x256_S1000x256_1_0_0_1_n_n.rhsNonContracting by decide)]
  rfl

/-- The memory step's product with the previous hidden rows: 1000 by 64 times 64 by 256. -/
theorem mm_lstm_h (l : FVec Ideal S1000x64 φ₁) (r : FVec Ideal S64x256 φ₂) (p : Fin 1000) (q : Fin 256) :
    matmul dot_S1000x64_S64x256_S1000x256_1_0_0_1_n_n none l r (constant S1000x256 .f32 0x00000000#32) (ix2 p q)
      = ∑ k : Fin 64, l (ix2 p k) * r (ix2 k q) := by
  simp only [matmul]
  rw [Ideal.matmul_constant_zero_apply, ← Equiv.sum_comp (ValueIdx.contrEquiv1 dot_S1000x64_S64x256_S1000x256_1_0_0_1_n_n 64 rfl rfl).symm]
  refine Finset.sum_congr rfl fun k _ => ?_
  have hk := ValueIdx.contrEquiv1_symm_val dot_S1000x64_S64x256_S1000x256_1_0_0_1_n_n 64 rfl rfl k
  -- the left operand's index at (p, q) and contraction coordinate k is (p, k)
  have el : dot_S1000x64_S64x256_S1000x256_1_0_0_1_n_n.lhsIdx (ix2 p q) ((ValueIdx.contrEquiv1 dot_S1000x64_S64x256_S1000x256_1_0_0_1_n_n 64 rfl rfl).symm k) = ix2 p k := funext fun a => Fin.ext (by
    match a with
    | ⟨0, _⟩ => exact lhs_lstm_h_0 _ _
    | ⟨1, _⟩ => exact (lhs_lstm_h_1 _ _).trans hk)
  -- the right operand's is (k, q)
  have er : dot_S1000x64_S64x256_S1000x256_1_0_0_1_n_n.rhsIdx (ix2 p q) ((ValueIdx.contrEquiv1 dot_S1000x64_S64x256_S1000x256_1_0_0_1_n_n 64 rfl rfl).symm k) = ix2 k q := funext fun a => Fin.ext (by
    match a with
    | ⟨0, _⟩ => exact (rhs_lstm_h_0 _ _).trans hk
    | ⟨1, _⟩ => exact rhs_lstm_h_1 _ _)
  rw [el, er]

/-! ### The head's product -/

theorem lhs_head_0 (i : S1000x8.Idx) (q : dot_S1000x64_S64x8_S1000x8_1_0_0_1_n_n.contr.Idx) :
    (dot_S1000x64_S64x8_S1000x8_1_0_0_1_n_n.lhsIdx i q 0).val = (i 0).val := by
  unfold DotDims.lhsIdx
  rw [dif_neg (show ¬(0 : Fin S1000x64.rank) ∈ dot_S1000x64_S64x8_S1000x8_1_0_0_1_n_n.lhsBatch by decide), dif_pos (show (0 : Fin S1000x64.rank) ∈ dot_S1000x64_S64x8_S1000x8_1_0_0_1_n_n.lhsNonContracting by decide)]
  rfl
theorem lhs_head_1 (i : S1000x8.Idx) (q : dot_S1000x64_S64x8_S1000x8_1_0_0_1_n_n.contr.Idx) :
    (dot_S1000x64_S64x8_S1000x8_1_0_0_1_n_n.lhsIdx i q 1).val = (q ⟨0, by decide⟩).val :=
  dot_S1000x64_S64x8_S1000x8_1_0_0_1_n_n.lhsIdx_val_of_single rfl i q
theorem rhs_head_0 (i : S1000x8.Idx) (q : dot_S1000x64_S64x8_S1000x8_1_0_0_1_n_n.contr.Idx) :
    (dot_S1000x64_S64x8_S1000x8_1_0_0_1_n_n.rhsIdx i q 0).val = (q ⟨0, by decide⟩).val :=
  dot_S1000x64_S64x8_S1000x8_1_0_0_1_n_n.rhsIdx_val_of_single rfl i q
theorem rhs_head_1 (i : S1000x8.Idx) (q : dot_S1000x64_S64x8_S1000x8_1_0_0_1_n_n.contr.Idx) :
    (dot_S1000x64_S64x8_S1000x8_1_0_0_1_n_n.rhsIdx i q 1).val = (i 1).val := by
  unfold DotDims.rhsIdx
  rw [dif_neg (show ¬(1 : Fin S64x8.rank) ∈ dot_S1000x64_S64x8_S1000x8_1_0_0_1_n_n.rhsBatch by decide), dif_pos (show (1 : Fin S64x8.rank) ∈ dot_S1000x64_S64x8_S1000x8_1_0_0_1_n_n.rhsNonContracting by decide)]
  rfl

/-- The head's product: 1000 by 64 times 64 by 8. -/
theorem mm_head (l : FVec Ideal S1000x64 φ₁) (r : FVec Ideal S64x8 φ₂) (p : Fin 1000) (q : Fin 8) :
    matmul dot_S1000x64_S64x8_S1000x8_1_0_0_1_n_n none l r (constant S1000x8 .f32 0x00000000#32) (ix2 p q)
      = ∑ k : Fin 64, l (ix2 p k) * r (ix2 k q) := by
  simp only [matmul]
  rw [Ideal.matmul_constant_zero_apply, ← Equiv.sum_comp (ValueIdx.contrEquiv1 dot_S1000x64_S64x8_S1000x8_1_0_0_1_n_n 64 rfl rfl).symm]
  refine Finset.sum_congr rfl fun k _ => ?_
  have hk := ValueIdx.contrEquiv1_symm_val dot_S1000x64_S64x8_S1000x8_1_0_0_1_n_n 64 rfl rfl k
  -- the left operand's index at (p, q) and contraction coordinate k is (p, k)
  have el : dot_S1000x64_S64x8_S1000x8_1_0_0_1_n_n.lhsIdx (ix2 p q) ((ValueIdx.contrEquiv1 dot_S1000x64_S64x8_S1000x8_1_0_0_1_n_n 64 rfl rfl).symm k) = ix2 p k := funext fun a => Fin.ext (by
    match a with
    | ⟨0, _⟩ => exact lhs_head_0 _ _
    | ⟨1, _⟩ => exact (lhs_head_1 _ _).trans hk)
  -- the right operand's is (k, q)
  have er : dot_S1000x64_S64x8_S1000x8_1_0_0_1_n_n.rhsIdx (ix2 p q) ((ValueIdx.contrEquiv1 dot_S1000x64_S64x8_S1000x8_1_0_0_1_n_n 64 rfl rfl).symm k) = ix2 k q := funext fun a => Fin.ext (by
    match a with
    | ⟨0, _⟩ => exact (rhs_head_0 _ _).trans hk
    | ⟨1, _⟩ => exact rhs_head_1 _ _)
  rw [el, er]

end Cert.KernelIdeal.Dots

end
-- ==== Proof.KCellGru.lean ====
/-
  The recurrent unit inside the cell's kernel, read at an entry of a block of 1000 nodes: the two affine maps, the
  update gate and the candidate are the row functions of `Cert.Cell` of the node's rows of the two row blocks.
  The conversions to the narrow float format are the identity at the extended reals; the slices of the 300
  entries pick the thirds.
-/
import proofs.«148086_j54443005444660_1_alg».proof.Proof.Gen.KernelIdeal.Skeleton
import proofs.«148086_j54443005444660_1_alg».proof.Proof.Spec
import proofs.«148086_j54443005444660_1_alg».proof.Proof.KDots
import Idealize.ShloMosaic.Lib.Pipeline.Value

noncomputable section

open Idealize.ShloMosaic Idealize.ShloMosaic.TcCoe Idealize.ShloMosaic.ValueIdx Idealize.SL.Sem

namespace Cert.KernelIdeal.CellPay

open Cert.KernelIdeal Cert.KernelIdeal.Gen Cert.Cell

variable (x0 x1 : Vec Ideal S1000x100 .f32) (x2 x3 : Vec Ideal S1000x64 .f32) (x4 x5 : Vec Ideal S100x300 .f32)
  (x6 x7 : Vec Ideal S1x300 .f32) (x8 : Vec Ideal S100x256 .f32) (x9 : Vec Ideal S64x256 .f32) (x10 x11 : Vec Ideal S1x256 .f32)
  (x12 : Vec Ideal S64x8 .f32) (x13 : Vec Ideal S1x8 .f32)

/-- The parameters as staged blocks (`Cert.Spec.blkW` of the ten parameter blocks). -/
local notation "𝒲" => Cert.Spec.blkW x4 x5 x6 x7 x8 x9 x10 x11 x12 x13

/-- A slice of the 300 columns at column offset `o`, read at row `p` and column `j`, reads the array at row `p` and column
    `t` whenever `t = o + j`: the coordinate condition of the slice, axis by axis. -/
private theorem slice_hk (o : Nat) (p : Fin 1000) (j : Fin 100) (t : Fin 300) (ht : t.val = o + j.val) :
    ∀ a : Fin S1000x300.rank, ((ix2 p t : S1000x300.Idx) a).val = (![0, o] : Fin 2 → Nat) a + ((ix2 p j : S1000x100.Idx) (a.cast rfl)).val := by
  intro a
  match a with
  | ⟨0, _⟩ => exact (Nat.zero_add _).symm
  | ⟨1, _⟩ => exact ht

/-- The affine map of the neighbourhood-mean block. -/
theorem pay_gi (p : Fin 1000) (q : Fin 300) :
    k1_pay5 (F := Ideal) x1 x4 x6 (ix2 p q) = gi 𝒲 (row x1 p) q := by
  unfold k1_pay5 gi
  refine congrArg₂ (· + ·) ?_ ?_
  · refine (Dots.mm_gru _ _ p q).trans ?_
    rw [shapeCast_self, shapeCast_self]
    rfl
  · rw [shapeCast_self]
    exact broadcastTo_apply _ _ _ (ix2 (0 : Fin 1) q) (fun a => by
      match a with
      | ⟨0, _⟩ => rfl
      | ⟨1, _⟩ => rfl)

/-- The affine map of the padded-feature block. -/
theorem pay_gh (p : Fin 1000) (q : Fin 300) :
    k1_pay6 (F := Ideal) x0 x5 x7 (ix2 p q) = gh 𝒲 (row x0 p) q := by
  unfold k1_pay6 k1_pay2 gh
  refine congrArg₂ (· + ·) ?_ ?_
  · refine (Dots.mm_gru _ _ p q).trans ?_
    rw [shapeCast_self, shapeCast_self]
    rfl
  · rw [shapeCast_self]
    exact broadcastTo_apply _ _ _ (ix2 (0 : Fin 1) q) (fun a => by
      match a with
      | ⟨0, _⟩ => rfl
      | ⟨1, _⟩ => rfl)

/-- The update gate. -/
theorem pay_update (p : Fin 1000) (j : Fin 100) :
    k1_pay7 (F := Ideal) x0 x1 x4 x6 x5 x7 (ix2 p j) = update 𝒲 (row x0 p) (row x1 p) j := by
  unfold k1_pay7 update
  refine congrArg Ideal.logistic ?_
  refine congrArg₂ (· + ·) ?_ ?_
  · exact (extractStridedSlice_apply _ _ _ (ix2 p j) (ix2 p (third1 j)) (slice_hk 100 p j (third1 j) rfl)).trans
      (pay_gi x1 x4 x5 x6 x7 x8 x9 x10 x11 x12 x13 p (third1 j))
  · exact (extractStridedSlice_apply _ _ _ (ix2 p j) (ix2 p (third1 j)) (slice_hk 100 p j (third1 j) rfl)).trans
      (pay_gh x0 x4 x5 x6 x7 x8 x9 x10 x11 x12 x13 p (third1 j))

/-- The candidate. -/
theorem pay_cand (p : Fin 1000) (j : Fin 100) :
    k1_pay8 (F := Ideal) x0 x1 x4 x6 x5 x7 (ix2 p j) = cand 𝒲 (row x0 p) (row x1 p) j := by
  unfold k1_pay8 cand reset
  refine congrArg Ideal.tanh ?_
  refine congrArg₂ (· + ·) ?_ ?_
  · exact (extractStridedSlice_apply _ _ _ (ix2 p j) (ix2 p (third2 j)) (slice_hk 200 p j (third2 j) rfl)).trans
      (pay_gi x1 x4 x5 x6 x7 x8 x9 x10 x11 x12 x13 p (third2 j))
  · refine congrArg₂ (· * ·) ?_ ?_
    · refine congrArg Ideal.logistic ?_
      refine congrArg₂ (· + ·) ?_ ?_
      · exact (extractStridedSlice_apply _ _ _ (ix2 p j) (ix2 p (third0 j)) (slice_hk 0 p j (third0 j) (Nat.zero_add _).symm)).trans
          (pay_gi x1 x4 x5 x6 x7 x8 x9 x10 x11 x12 x13 p (third0 j))
      · exact (extractStridedSlice_apply _ _ _ (ix2 p j) (ix2 p (third0 j)) (slice_hk 0 p j (third0 j) (Nat.zero_add _).symm)).trans
          (pay_gh x0 x4 x5 x6 x7 x8 x9 x10 x11 x12 x13 p (third0 j))
    · exact (extractStridedSlice_apply _ _ _ (ix2 p j) (ix2 p (third2 j)) (slice_hk 200 p j (third2 j) rfl)).trans
        (pay_gh x0 x4 x5 x6 x7 x8 x9 x10 x11 x12 x13 p (third2 j))

end Cert.KernelIdeal.CellPay

end
-- ==== Proof.KCellLstm.lean ====
/-
  The memory step and the head inside the cell's kernel, read at an entry of a block of 1000 nodes: the 256
  pre-activations, the new cell row, the new hidden row and the head are the row functions of `Cert.Cell` of the
  node's rows of the four row blocks. The recurrent unit's result enters through its update gate and candidate.
-/
import proofs.«148086_j54443005444660_1_alg».proof.Proof.Gen.KernelIdeal.Skeleton
import proofs.«148086_j54443005444660_1_alg».proof.Proof.Spec
import proofs.«148086_j54443005444660_1_alg».proof.Proof.KDots
import proofs.«148086_j54443005444660_1_alg».proof.Proof.KCellGru
import Idealize.ShloMosaic.Lib.Pipeline.Value

noncomputable section

open Idealize.ShloMosaic Idealize.ShloMosaic.TcCoe Idealize.ShloMosaic.ValueIdx Idealize.SL.Sem

namespace Cert.KernelIdeal.CellPay

open Cert.KernelIdeal Cert.KernelIdeal.Gen Cert.Cell

variable (x0 x1 : Vec Ideal S1000x100 .f32) (x2 x3 : Vec Ideal S1000x64 .f32) (x4 x5 : Vec Ideal S100x300 .f32)
  (x6 x7 : Vec Ideal S1x300 .f32) (x8 : Vec Ideal S100x256 .f32) (x9 : Vec Ideal S64x256 .f32) (x10 x11 : Vec Ideal S1x256 .f32)
  (x12 : Vec Ideal S64x8 .f32) (x13 : Vec Ideal S1x8 .f32)

/-- The parameters as staged blocks (`Cert.Spec.blkW` of the ten parameter blocks). -/
local notation "𝒲" => Cert.Spec.blkW x4 x5 x6 x7 x8 x9 x10 x11 x12 x13

/-- The recurrent unit's result at an entry. -/
private theorem conv_entry (p : Fin 1000) (k : Fin 100) :
    addf (mulf (subf (k1_pay9 (F := Ideal)) (k1_pay7 (F := Ideal) x0 x1 x4 x6 x5 x7)) (k1_pay8 (F := Ideal) x0 x1 x4 x6 x5 x7))
        (mulf (k1_pay7 (F := Ideal) x0 x1 x4 x6 x5 x7) (k1_pay2 x0)) (ix2 p k)
      = conv 𝒲 (row x0 p) (row x1 p) k := by
  refine (addf_apply _ _ _).trans ?_
  refine congrArg₂ (· + ·) ?_ ?_
  · refine (mulf_apply _ _ _).trans ?_
    refine congrArg₂ (· * ·) ?_ (pay_cand x0 x1 x4 x5 x6 x7 x8 x9 x10 x11 x12 x13 p k)
    refine (subf_apply _ _ _).trans ?_
    exact congrArg (fun t => one - t) (pay_update x0 x1 x4 x5 x6 x7 x8 x9 x10 x11 x12 x13 p k)
  · refine (mulf_apply _ _ _).trans ?_
    exact congrArg₂ (· * ·) (pay_update x0 x1 x4 x5 x6 x7 x8 x9 x10 x11 x12 x13 p k)
      (congrFun (shapeCast_self x0 _) (ix2 p k))

/-- A one-row bias broadcast over the 1000 rows, read at an entry. -/
private theorem bias_entry (b : Vec Ideal S1x256 .f32) (p : Fin 1000) (q : Fin 256) :
    broadcastTo S1000x256 (shapeCast S1x256 b shapeCasts_S1x256_S1x256) broadcasts_S1x256_S1000x256 (ix2 p q)
      = b (ix2 (0 : Fin 1) q) := by
  refine (broadcastTo_apply _ _ (ix2 p q) (ix2 (0 : Fin 1) q) fun a => ?_).trans
    (congrFun (shapeCast_self b _) _)
  match a with
  | ⟨0, _⟩ => rfl
  | ⟨1, _⟩ => rfl

/-- The 256 pre-activations of the memory step. -/
theorem pay_gates (p : Fin 1000) (q : Fin 256) :
    k1_pay10 (F := Ideal) (k1_pay2 x0) (k1_pay3 x2) (k1_pay7 x0 x1 x4 x6 x5 x7) (k1_pay8 x0 x1 x4 x6 x5 x7) (k1_pay9 (F := Ideal)) x8 x10 x9 x11 (ix2 p q)
      = gates 𝒲 (row x0 p) (row x1 p) (row x2 p) q := by
  unfold k1_pay10 gates
  refine (addf_apply _ _ _).trans ?_
  refine congrArg₂ (· + ·) ?_ (bias_entry x11 p q)
  refine (addf_apply _ _ _).trans ?_
  refine congrArg₂ (· + ·) ?_ ?_
  · refine (addf_apply _ _ _).trans ?_
    refine congrArg₂ (· + ·) ?_ (bias_entry x10 p q)
    refine (Dots.mm_lstm_x _ _ p q).trans ?_
    refine Finset.sum_congr rfl fun k _ => ?_
    exact congrArg₂ (· * ·) (conv_entry x0 x1 x4 x5 x6 x7 x8 x9 x10 x11 x12 x13 p k)
      (congrFun (shapeCast_self x8 _) (ix2 k q))
  · refine (Dots.mm_lstm_h _ _ p q).trans ?_
    refine Finset.sum_congr rfl fun k _ => ?_
    exact congrArg₂ (· * ·) (congrFun (shapeCast_self x2 _) (ix2 p k))
      (congrFun (shapeCast_self x9 _) (ix2 k q))

/-- A block of 64 columns of a 1000 by 256 array, read at an entry. -/
private theorem slice_entry (G : FVec Ideal S1000x256 .f32) (off : Nat) (qq : Fin 64 → Fin 256)
    (hq : ∀ j, (qq j).val = off + j.val) (h : S1000x256.Slices ![0, off] S1000x64) (p : Fin 1000) (j : Fin 64) :
    extractStridedSlice S1000x64 ![0, off] G h (ix2 p j) = G (ix2 p (qq j)) := by
  refine extractStridedSlice_apply _ _ h (ix2 p j) (ix2 p (qq j)) fun a => ?_
  match a with
  | ⟨0, _⟩ => exact (Nat.zero_add _).symm
  | ⟨1, _⟩ => exact hq j

/-- A quarter of the 256 pre-activations, read at an entry. -/
private theorem gate_entry (off : Nat) (qq : Fin 64 → Fin 256) (hq : ∀ j, (qq j).val = off + j.val)
    (h : S1000x256.Slices ![0, off] S1000x64) (p : Fin 1000) (j : Fin 64) :
    extractStridedSlice S1000x64 ![0, off]
        (k1_pay10 (F := Ideal) (k1_pay2 x0) (k1_pay3 x2) (k1_pay7 x0 x1 x4 x6 x5 x7) (k1_pay8 x0 x1 x4 x6 x5 x7) (k1_pay9 (F := Ideal)) x8 x10 x9 x11)
        h (ix2 p j)
      = gates 𝒲 (row x0 p) (row x1 p) (row x2 p) (qq j) :=
  (slice_entry _ off qq hq h p j).trans (pay_gates x0 x1 x2 x4 x5 x6 x7 x8 x9 x10 x11 x12 x13 p (qq j))

/-- The logistic function of an array, lane by lane. -/
private theorem logistic_entry {s : Shape} {φ : FTy} (a : FVec Ideal s φ) (i : s.Idx) : logistic a i = Ideal.logistic (a i) := rfl
/-- The hyperbolic tangent of an array, lane by lane. -/
private theorem tanh_entry {s : Shape} {φ : FTy} (a : FVec Ideal s φ) (i : s.Idx) : tanh a i = Ideal.tanh (a i) := rfl

/-- The new cell row at an entry. -/
private theorem pay_cell_entry (p : Fin 1000) (j : Fin 64) :
    k1_pay11 (F := Ideal) (k1_pay2 x0) (k1_pay3 x2) (k1_pay4 x3) (k1_pay7 x0 x1 x4 x6 x5 x7) (k1_pay8 x0 x1 x4 x6 x5 x7) (k1_pay9 (F := Ideal)) x8 x10 x9 x11 (ix2 p j)
      = cell 𝒲 (row x0 p) (row x1 p) (row x2 p) (row x3 p) j := by
  unfold k1_pay11 cell
  refine (addf_apply _ _ _).trans ?_
  refine congrArg₂ (· + ·) ?_ ?_
  · refine (mulf_apply _ _ _).trans ?_
    refine congrArg₂ (· * ·) ?_ (congrFun (shapeCast_self x3 _) (ix2 p j))
    refine (logistic_entry _ _).trans ?_
    exact congrArg Ideal.logistic
      (gate_entry x0 x1 x2 x4 x5 x6 x7 x8 x9 x10 x11 x12 x13 64 quarter1 (fun _ => rfl) slices_S1000x256_o0_64_S1000x64 p j)
  · refine (mulf_apply _ _ _).trans ?_
    refine congrArg₂ (· * ·) ?_ ?_
    · refine (logistic_entry _ _).trans ?_
      exact congrArg Ideal.logistic
        (gate_entry x0 x1 x2 x4 x5 x6 x7 x8 x9 x10 x11 x12 x13 0 quarter0 (fun _ => (Nat.zero_add _).symm) slices_S1000x256_o0_0_S1000x64 p j)
    · refine (tanh_entry _ _).trans ?_
      exact congrArg Ideal.tanh
        (gate_entry x0 x1 x2 x4 x5 x6 x7 x8 x9 x10 x11 x12 x13 128 quarter2 (fun _ => rfl) slices_S1000x256_o0_128_S1000x64 p j)

/-- The new hidden row at an entry. -/
private theorem pay_hid_entry (p : Fin 1000) (j : Fin 64) :
    k1_pay12 (F := Ideal) (k1_pay2 x0) (k1_pay3 x2) (k1_pay4 x3) (k1_pay7 x0 x1 x4 x6 x5 x7) (k1_pay8 x0 x1 x4 x6 x5 x7) (k1_pay9 (F := Ideal)) x8 x10 x9 x11 (ix2 p j)
      = hid 𝒲 (row x0 p) (row x1 p) (row x2 p) (row x3 p) j := by
  unfold k1_pay12 hid
  refine (mulf_apply _ _ _).trans ?_
  refine congrArg₂ (· * ·) ?_ ?_
  · refine (logistic_entry _ _).trans ?_
    exact congrArg Ideal.logistic
      (gate_entry x0 x1 x2 x4 x5 x6 x7 x8 x9 x10 x11 x12 x13 192 quarter3 (fun _ => rfl) slices_S1000x256_o0_192_S1000x64 p j)
  · refine (tanh_entry _ _).trans ?_
    exact congrArg Ideal.tanh (pay_cell_entry x0 x1 x2 x3 x4 x5 x6 x7 x8 x9 x10 x11 x12 x13 p j)

/-- The rectified hidden row, as the head's left operand, at an entry. -/
private theorem relu_entry (p : Fin 1000) (k : Fin 64) :
    k1_pay13 (F := Ideal) (k1_pay2 x0) (k1_pay3 x2) (k1_pay4 x3) (k1_pay7 x0 x1 x4 x6 x5 x7) (k1_pay8 x0 x1 x4 x6 x5 x7) (k1_pay9 (F := Ideal)) x8 x10 x9 x11 (ix2 p k)
      = max (hid 𝒲 (row x0 p) (row x1 p) (row x2 p) (row x3 p) k) zero := by
  unfold k1_pay13
  refine (truncf_apply (ψ := .bf16) _ bitsLt_bf16_f32 (ix2 p k)).trans ?_
  refine (maximumf_apply _ _ _).trans ?_
  exact congrArg (fun t => max t zero) (pay_hid_entry x0 x1 x2 x3 x4 x5 x6 x7 x8 x9 x10 x11 x12 x13 p k)

/-- The head's one-row bias broadcast over the 1000 rows, read at an entry. -/
private theorem bias8_entry (b : Vec Ideal S1x8 .f32) (p : Fin 1000) (q : Fin 8) :
    broadcastTo S1000x8 (shapeCast S1x8 b shapeCasts_S1x8_S1x8) broadcasts_S1x8_S1000x8 (ix2 p q)
      = b (ix2 (0 : Fin 1) q) := by
  refine (broadcastTo_apply _ _ (ix2 p q) (ix2 (0 : Fin 1) q) fun a => ?_).trans
    (congrFun (shapeCast_self b _) _)
  match a with
  | ⟨0, _⟩ => rfl
  | ⟨1, _⟩ => rfl

/-- The head at an entry. -/
private theorem pay_head_entry (p : Fin 1000) (q : Fin 8) :
    k1_pay1 (F := Ideal) (k1_pay13 (F := Ideal) (k1_pay2 x0) (k1_pay3 x2) (k1_pay4 x3) (k1_pay7 x0 x1 x4 x6 x5 x7) (k1_pay8 x0 x1 x4 x6 x5 x7) (k1_pay9 (F := Ideal)) x8 x10 x9 x11) x12 x13 (ix2 p q)
      = head 𝒲 (row x0 p) (row x1 p) (row x2 p) (row x3 p) q := by
  unfold k1_pay1 head
  refine (addf_apply _ _ _).trans ?_
  refine congrArg₂ (· + ·) ?_ (bias8_entry x13 p q)
  refine (Dots.mm_head _ _ p q).trans ?_
  refine Finset.sum_congr rfl fun k _ => ?_
  exact congrArg₂ (· * ·) (relu_entry x0 x1 x2 x3 x4 x5 x6 x7 x8 x9 x10 x11 x12 x13 p k)
    (congrFun (shapeCast_self x12 _) (ix2 k q))

/-- The new cell rows of the block. -/
theorem pay_cell :
    k1_pay11 (F := Ideal) (k1_pay2 x0) (k1_pay3 x2) (k1_pay4 x3) (k1_pay7 x0 x1 x4 x6 x5 x7) (k1_pay8 x0 x1 x4 x6 x5 x7) (k1_pay9 (F := Ideal)) x8 x10 x9 x11 = cellArr 𝒲 x0 x1 x2 x3 := by
  funext i
  obtain ⟨p, j, rfl⟩ : ∃ (p : Fin 1000) (j : Fin 64), i = ix2 p j := ⟨i 0, i 1, eq_ix2 i⟩
  exact (pay_cell_entry x0 x1 x2 x3 x4 x5 x6 x7 x8 x9 x10 x11 x12 x13 p j).trans (cellArr_apply _ _ _ _ _ p j).symm

/-- The new hidden rows of the block. -/
theorem pay_hid :
    k1_pay12 (F := Ideal) (k1_pay2 x0) (k1_pay3 x2) (k1_pay4 x3) (k1_pay7 x0 x1 x4 x6 x5 x7) (k1_pay8 x0 x1 x4 x6 x5 x7) (k1_pay9 (F := Ideal)) x8 x10 x9 x11 = hidArr 𝒲 x0 x1 x2 x3 := by
  funext i
  obtain ⟨p, j, rfl⟩ : ∃ (p : Fin 1000) (j : Fin 64), i = ix2 p j := ⟨i 0, i 1, eq_ix2 i⟩
  exact (pay_hid_entry x0 x1 x2 x3 x4 x5 x6 x7 x8 x9 x10 x11 x12 x13 p j).trans (hidArr_apply _ _ _ _ _ p j).symm

/-- The heads of the block. -/
theorem pay_head :
    k1_pay1 (F := Ideal) (k1_pay13 (F := Ideal) (k1_pay2 x0) (k1_pay3 x2) (k1_pay4 x3) (k1_pay7 x0 x1 x4 x6 x5 x7) (k1_pay8 x0 x1 x4 x6 x5 x7) (k1_pay9 (F := Ideal)) x8 x10 x9 x11) x12 x13 = headArr 𝒲 x0 x1 x2 x3 := by
  funext i
  obtain ⟨p, q, rfl⟩ : ∃ (p : Fin 1000) (q : Fin 8), i = ix2 p q := ⟨i 0, i 1, eq_ix2 i⟩
  exact (pay_head_entry x0 x1 x2 x3 x4 x5 x6 x7 x8 x9 x10 x11 x12 x13 p q).trans (headArr_apply _ _ _ _ _ p q).symm

end Cert.KernelIdeal.CellPay

end
-- ==== Proof.KCell.lean ====
/-
  The cell region's three arrays after its run. Block `t` of each row window holds rows 1000 t … 1000 t + 999 of
  its array and every parameter window's block is its whole array, so what point `t` writes back is block `t` of
  one whole-array function of the arrays the region finds at its entry — the row functions of `Cert.Cell` applied
  node by node —, and the 50 blocks tile each output array.
-/
import proofs.«148086_j54443005444660_1_alg».proof.Proof.Gen.KernelIdeal.Frame
import proofs.«148086_j54443005444660_1_alg».proof.Proof.Spec
import proofs.«148086_j54443005444660_1_alg».proof.Proof.KCellLstm
import Idealize.ShloMosaic.Lib.Pipeline.Value

noncomputable section

open Idealize.ShloMosaic Idealize.ShloMosaic.TcCoe Idealize.ShloMosaic.ValueIdx Idealize.SL.Sem

namespace Cert.KernelIdeal.CellArr

open Cert.KernelIdeal Cert.KernelIdeal.Gen Cert.Cell Cert.Spec
open Idealize.ShloMosaic.Pipeline (Dat Cfg Window)

variable (V : (c : Dev nD) → (b : Ref sig .tc) → Buf (Elt Ideal) ((c : Thread nD τ).loc b))

/-- The cell's parameters off the arrays the region finds at its entry. -/
def entryW (c : Dev nD) : Wts := blkW (V c main_v33) (V c main_v34) (V c main_v35) (V c main_v36) (V c main_v37) (V c main_v38) (V c main_v39) (V c main_v40) (V c main_v41) (V c main_v42)

private theorem hz : (![0, 0] : Fin 2 → Nat) = fun _ => 0 := funext fun a => by fin_cases a <;> rfl

/-- The printed index maps of the row windows, decided over the grid: the block index at point `t` is (t, 0). -/
private theorem idx_row : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_14.index t (0 : Fin 2) = t.val ∧ win1_14.index t (1 : Fin 2) = 0)
    ∧ (win1_15.index t (0 : Fin 2) = t.val ∧ win1_15.index t (1 : Fin 2) = 0)
    ∧ (win1_16.index t (0 : Fin 2) = t.val ∧ win1_16.index t (1 : Fin 2) = 0) :=
  (by decide +kernel : ∀ t : Fin grid1.N, _)

/-- The printed index maps of the parameter windows, decided over the grid: the block index is (0, 0) at every point. -/
private theorem idx_par : ∀ t : Fin cfg1.N,
    (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = 0 ∧ win1_11.index t (1 : Fin 2) = 0)
    ∧ (win1_12.index t (0 : Fin 2) = 0 ∧ win1_12.index t (1 : Fin 2) = 0)
    ∧ (win1_13.index t (0 : Fin 2) = 0 ∧ win1_13.index t (1 : Fin 2) = 0) :=
  (by decide +kernel : ∀ t : Fin grid1.N, _)

/-- The grid has 50 points. -/
private theorem pt_lt (t : Fin cfg1.N) : t.val < 50 := Nat.lt_of_lt_of_eq t.isLt N_1

/-- Block `t` of window 0 is rows 1000 t … 1000 t + 999 of its array. -/
private theorem rd0 (c : Dev nD) (t : Fin cfg1.N) (y : S1000x100.Idx) (i : S50000x100.Idx)
    (h0 : (i 0).val = 1000 * t.val + (y 0).val) (h1 : (i 1).val = (y 1).val) :
    (iblk1 V c 0 t : Vec Ideal S1000x100 .f32) y = (V c main_v5 : Vec Ideal S50000x100 .f32) i := by
  unfold iblk1
  rw [View.read_apply]
  show V c main_v5 (((cfg1.win 0).blk t).view.emb y) = V c main_v5 i
  refine congrArg _ ?_
  funext a
  apply Fin.ext
  obtain ⟨⟨e0, e1⟩, -⟩ := idx_row t
  match a with
  | ⟨0, _⟩ => show win1_0.index t (0 : Fin 2) * 1000 + 1 * (y 0).val = (i 0).val; rw [e0, h0]; omega
  | ⟨1, _⟩ => show win1_0.index t (1 : Fin 2) * 100 + 1 * (y 1).val = (i 1).val; rw [e1, h1]; omega

/-- Block `t` of window 1 is rows 1000 t … 1000 t + 999 of its array. -/
private theorem rd1 (c : Dev nD) (t : Fin cfg1.N) (y : S1000x100.Idx) (i : S50000x100.Idx)
    (h0 : (i 0).val = 1000 * t.val + (y 0).val) (h1 : (i 1).val = (y 1).val) :
    (iblk1 V c 1 t : Vec Ideal S1000x100 .f32) y = (V c main_v30 : Vec Ideal S50000x100 .f32) i := by
  unfold iblk1
  rw [View.read_apply]
  show V c main_v30 (((cfg1.win 1).blk t).view.emb y) = V c main_v30 i
  refine congrArg _ ?_
  funext a
  apply Fin.ext
  obtain ⟨-, ⟨e0, e1⟩, -⟩ := idx_row t
  match a with
  | ⟨0, _⟩ => show win1_1.index t (0 : Fin 2) * 1000 + 1 * (y 0).val = (i 0).val; rw [e0, h0]; omega
  | ⟨1, _⟩ => show win1_1.index t (1 : Fin 2) * 100 + 1 * (y 1).val = (i 1).val; rw [e1, h1]; omega

/-- Block `t` of window 2 is rows 1000 t … 1000 t + 999 of its array. -/
private theorem rd2 (c : Dev nD) (t : Fin cfg1.N) (y : S1000x64.Idx) (i : S50000x64.Idx)
    (h0 : (i 0).val = 1000 * t.val + (y 0).val) (h1 : (i 1).val = (y 1).val) :
    (iblk1 V c 2 t : Vec Ideal S1000x64 .f32) y = (V c main_v31 : Vec Ideal S50000x64 .f32) i := by
  unfold iblk1
  rw [View.read_apply]
  show V c main_v31 (((cfg1.win 2).blk t).view.emb y) = V c main_v31 i
  refine congrArg _ ?_
  funext a
  apply Fin.ext
  obtain ⟨-, -, ⟨e0, e1⟩, -⟩ := idx_row t
  match a with
  | ⟨0, _⟩ => show win1_2.index t (0 : Fin 2) * 1000 + 1 * (y 0).val = (i 0).val; rw [e0, h0]; omega
  | ⟨1, _⟩ => show win1_2.index t (1 : Fin 2) * 64 + 1 * (y 1).val = (i 1).val; rw [e1, h1]; omega

/-- Block `t` of window 3 is rows 1000 t … 1000 t + 999 of its array. -/
private theorem rd3 (c : Dev nD) (t : Fin cfg1.N) (y : S1000x64.Idx) (i : S50000x64.Idx)
    (h0 : (i 0).val = 1000 * t.val + (y 0).val) (h1 : (i 1).val = (y 1).val) :
    (iblk1 V c 3 t : Vec Ideal S1000x64 .f32) y = (V c main_v32 : Vec Ideal S50000x64 .f32) i := by
  unfold iblk1
  rw [View.read_apply]
  show V c main_v32 (((cfg1.win 3).blk t).view.emb y) = V c main_v32 i
  refine congrArg _ ?_
  funext a
  apply Fin.ext
  obtain ⟨-, -, -, ⟨e0, e1⟩, -⟩ := idx_row t
  match a with
  | ⟨0, _⟩ => show win1_3.index t (0 : Fin 2) * 1000 + 1 * (y 0).val = (i 0).val; rw [e0, h0]; omega
  | ⟨1, _⟩ => show win1_3.index t (1 : Fin 2) * 64 + 1 * (y 1).val = (i 1).val; rw [e1, h1]; omega

/-- Window 4's block is its whole array. -/
private theorem rd4 (c : Dev nD) (t : Fin cfg1.N) :
    (iblk1 V c 4 t : Vec Ideal S100x300 .f32) = (V c main_v33 : Vec Ideal S100x300 .f32) := by
  funext y
  unfold iblk1
  rw [View.read_apply]
  show V c main_v33 (((cfg1.win 4).blk t).view.emb y) = V c main_v33 y
  refine congrArg _ ?_
  funext a
  apply Fin.ext
  obtain ⟨⟨e0, e1⟩, -⟩ := idx_par t
  match a with
  | ⟨0, _⟩ => show win1_4.index t (0 : Fin 2) * 100 + 1 * (y 0).val = (y 0).val; rw [e0]; omega
  | ⟨1, _⟩ => show win1_4.index t (1 : Fin 2) * 300 + 1 * (y 1).val = (y 1).val; rw [e1]; omega

/-- Window 5's block is its whole array. -/
private theorem rd5 (c : Dev nD) (t : Fin cfg1.N) :
    (iblk1 V c 5 t : Vec Ideal S100x300 .f32) = (V c main_v34 : Vec Ideal S100x300 .f32) := by
  funext y
  unfold iblk1
  rw [View.read_apply]
  show V c main_v34 (((cfg1.win 5).blk t).view.emb y) = V c main_v34 y
  refine congrArg _ ?_
  funext a
  apply Fin.ext
  obtain ⟨-, ⟨e0, e1⟩, -⟩ := idx_par t
  match a with
  | ⟨0, _⟩ => show win1_5.index t (0 : Fin 2) * 100 + 1 * (y 0).val = (y 0).val; rw [e0]; omega
  | ⟨1, _⟩ => show win1_5.index t (1 : Fin 2) * 300 + 1 * (y 1).val = (y 1).val; rw [e1]; omega

/-- Window 6's block is its whole array. -/
private theorem rd6 (c : Dev nD) (t : Fin cfg1.N) :
    (iblk1 V c 6 t : Vec Ideal S1x300 .f32) = (V c main_v35 : Vec Ideal S1x300 .f32) := by
  funext y
  unfold iblk1
  rw [View.read_apply]
  show V c main_v35 (((cfg1.win 6).blk t).view.emb y) = V c main_v35 y
  refine congrArg _ ?_
  funext a
  apply Fin.ext
  obtain ⟨-, -, ⟨e0, e1⟩, -⟩ := idx_par t
  match a with
  | ⟨0, _⟩ => show win1_6.index t (0 : Fin 2) * 1 + 1 * (y 0).val = (y 0).val; rw [e0]; omega
  | ⟨1, _⟩ => show win1_6.index t (1 : Fin 2) * 300 + 1 * (y 1).val = (y 1).val; rw [e1]; omega

/-- Window 7's block is its whole array. -/
private theorem rd7 (c : Dev nD) (t : Fin cfg1.N) :
    (iblk1 V c 7 t : Vec Ideal S1x300 .f32) = (V c main_v36 : Vec Ideal S1x300 .f32) := by
  funext y
  unfold iblk1
  rw [View.read_apply]
  show V c main_v36 (((cfg1.win 7).blk t).view.emb y) = V c main_v36 y
  refine congrArg _ ?_
  funext a
  apply Fin.ext
  obtain ⟨-, -, -, ⟨e0, e1⟩, -⟩ := idx_par t
  match a with
  | ⟨0, _⟩ => show win1_7.index t (0 : Fin 2) * 1 + 1 * (y 0).val = (y 0).val; rw [e0]; omega
  | ⟨1, _⟩ => show win1_7.index t (1 : Fin 2) * 300 + 1 * (y 1).val = (y 1).val; rw [e1]; omega

/-- Window 8's block is its whole array. -/
private theorem rd8 (c : Dev nD) (t : Fin cfg1.N) :
    (iblk1 V c 8 t : Vec Ideal S100x256 .f32) = (V c main_v37 : Vec Ideal S100x256 .f32) := by
  funext y
  unfold iblk1
  rw [View.read_apply]
  show V c main_v37 (((cfg1.win 8).blk t).view.emb y) = V c main_v37 y
  refine congrArg _ ?_
  funext a
  apply Fin.ext
  obtain ⟨-, -, -, -, ⟨e0, e1⟩, -⟩ := idx_par t
  match a with
  | ⟨0, _⟩ => show win1_8.index t (0 : Fin 2) * 100 + 1 * (y 0).val = (y 0).val; rw [e0]; omega
  | ⟨1, _⟩ => show win1_8.index t (1 : Fin 2) * 256 + 1 * (y 1).val = (y 1).val; rw [e1]; omega

/-- Window 9's block is its whole array. -/
private theorem rd9 (c : Dev nD) (t : Fin cfg1.N) :
    (iblk1 V c 9 t : Vec Ideal S64x256 .f32) = (V c main_v38 : Vec Ideal S64x256 .f32) := by
  funext y
  unfold iblk1
  rw [View.read_apply]
  show V c main_v38 (((cfg1.win 9).blk t).view.emb y) = V c main_v38 y
  refine congrArg _ ?_
  funext a
  apply Fin.ext
  obtain ⟨-, -, -, -, -, ⟨e0, e1⟩, -⟩ := idx_par t
  match a with
  | ⟨0, _⟩ => show win1_9.index t (0 : Fin 2) * 64 + 1 * (y 0).val = (y 0).val; rw [e0]; omega
  | ⟨1, _⟩ => show win1_9.index t (1 : Fin 2) * 256 + 1 * (y 1).val = (y 1).val; rw [e1]; omega

/-- Window 10's block is its whole array. -/
private theorem rd10 (c : Dev nD) (t : Fin cfg1.N) :
    (iblk1 V c 10 t : Vec Ideal S1x256 .f32) = (V c main_v39 : Vec Ideal S1x256 .f32) := by
  funext y
  unfold iblk1
  rw [View.read_apply]
  show V c main_v39 (((cfg1.win 10).blk t).view.emb y) = V c main_v39 y
  refine congrArg _ ?_
  funext a
  apply Fin.ext
  obtain ⟨-, -, -, -, -, -, ⟨e0, e1⟩, -⟩ := idx_par t
  match a with
  | ⟨0, _⟩ => show win1_10.index t (0 : Fin 2) * 1 + 1 * (y 0).val = (y 0).val; rw [e0]; omega
  | ⟨1, _⟩ => show win1_10.index t (1 : Fin 2) * 256 + 1 * (y 1).val = (y 1).val; rw [e1]; omega

/-- Window 11's block is its whole array. -/
private theorem rd11 (c : Dev nD) (t : Fin cfg1.N) :
    (iblk1 V c 11 t : Vec Ideal S1x256 .f32) = (V c main_v40 : Vec Ideal S1x256 .f32) := by
  funext y
  unfold iblk1
  rw [View.read_apply]
  show V c main_v40 (((cfg1.win 11).blk t).view.emb y) = V c main_v40 y
  refine congrArg _ ?_
  funext a
  apply Fin.ext
  obtain ⟨-, -, -, -, -, -, -, ⟨e0, e1⟩, -⟩ := idx_par t
  match a with
  | ⟨0, _⟩ => show win1_11.index t (0 : Fin 2) * 1 + 1 * (y 0).val = (y 0).val; rw [e0]; omega
  | ⟨1, _⟩ => show win1_11.index t (1 : Fin 2) * 256 + 1 * (y 1).val = (y 1).val; rw [e1]; omega

/-- Window 12's block is its whole array. -/
private theorem rd12 (c : Dev nD) (t : Fin cfg1.N) :
    (iblk1 V c 12 t : Vec Ideal S64x8 .f32) = (V c main_v41 : Vec Ideal S64x8 .f32) := by
  funext y
  unfold iblk1
  rw [View.read_apply]
  show V c main_v41 (((cfg1.win 12).blk t).view.emb y) = V c main_v41 y
  refine congrArg _ ?_
  funext a
  apply Fin.ext
  obtain ⟨-, -, -, -, -, -, -, -, ⟨e0, e1⟩, -⟩ := idx_par t
  match a with
  | ⟨0, _⟩ => show win1_12.index t (0 : Fin 2) * 64 + 1 * (y 0).val = (y 0).val; rw [e0]; omega
  | ⟨1, _⟩ => show win1_12.index t (1 : Fin 2) * 8 + 1 * (y 1).val = (y 1).val; rw [e1]; omega

/-- Window 13's block is its whole array. -/
private theorem rd13 (c : Dev nD) (t : Fin cfg1.N) :
    (iblk1 V c 13 t : Vec Ideal S1x8 .f32) = (V c main_v42 : Vec Ideal S1x8 .f32) := by
  funext y
  unfold iblk1
  rw [View.read_apply]
  show V c main_v42 (((cfg1.win 13).blk t).view.emb y) = V c main_v42 y
  refine congrArg _ ?_
  funext a
  apply Fin.ext
  obtain ⟨-, -, -, -, -, -, -, -, -, ⟨e0, e1⟩⟩ := idx_par t
  match a with
  | ⟨0, _⟩ => show win1_13.index t (0 : Fin 2) * 1 + 1 * (y 0).val = (y 0).val; rw [e0]; omega
  | ⟨1, _⟩ => show win1_13.index t (1 : Fin 2) * 8 + 1 * (y 1).val = (y 1).val; rw [e1]; omega

/-- The parameters off the ten parameter blocks at any point are the parameters off the arrays. -/
private theorem par_eq (c : Dev nD) (t : Fin cfg1.N) :
    blkW (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t)
      = entryW V c := by
  unfold entryW
  rw [rd4 V c t, rd5 V c t, rd6 V c t, rd7 V c t, rd8 V c t, rd9 V c t, rd10 V c t, rd11 V c t, rd12 V c t, rd13 V c t]

/-- A whole array read through block `t` of window 14: rows 1000 t … 1000 t + 999. -/
private theorem rdG14 (G : Vec Ideal S50000x64 .f32) (t : Fin cfg1.N) (y : S1000x64.Idx) (i : S50000x64.Idx)
    (h0 : (i 0).val = 1000 * t.val + (y 0).val) (h1 : (i 1).val = (y 1).val) :
    ((cfg1.win 14).blk t).view.read (Elt Ideal) G y = G i := by
  rw [View.read_apply]
  show G (((cfg1.win 14).blk t).view.emb y) = G i
  refine congrArg _ ?_
  funext a
  apply Fin.ext
  obtain ⟨-, -, -, -, ⟨e0, e1⟩, -⟩ := idx_row t
  match a with
  | ⟨0, _⟩ => show win1_14.index t (0 : Fin 2) * 1000 + 1 * (y 0).val = (i 0).val; rw [e0, h0]; omega
  | ⟨1, _⟩ => show win1_14.index t (1 : Fin 2) * 64 + 1 * (y 1).val = (i 1).val; rw [e1, h1]; omega

/-- The hidden rows read their four arrays only through the node's rows: where block row `p` of each is array row `n`,
    the block's row `p` is the arrays' row `n`. -/
private theorem hid_blk (W : Wts) (b0 b1 : Mat 1000 100) (b2 b3 : Mat 1000 64) (A0 A1 : Mat 50000 100) (A2 A3 : Mat 50000 64)
    (p : Fin 1000) (n : Fin 50000)
    (h0 : ∀ k : Fin 100, b0 (ix2 p k) = A0 (ix2 n k)) (h1 : ∀ k : Fin 100, b1 (ix2 p k) = A1 (ix2 n k))
    (h2 : ∀ k : Fin 64, b2 (ix2 p k) = A2 (ix2 n k)) (h3 : ∀ k : Fin 64, b3 (ix2 p k) = A3 (ix2 n k)) (q : Fin 64) :
    hidArr W b0 b1 b2 b3 (ix2 p q) = hidArr W A0 A1 A2 A3 (ix2 n q) := by
  show hid W (row b0 p) (row b1 p) (row b2 p) (row b3 p) q = hid W (row A0 n) (row A1 n) (row A2 n) (row A3 n) q
  rw [show row b0 p = row A0 n from funext h0, show row b1 p = row A1 n from funext h1,
    show row b2 p = row A2 n from funext h2, show row b3 p = row A3 n from funext h3]

/-- What point `t` writes back to window 14 is block `t` of the hidden rows of the arrays at entry. -/
private theorem flushed14_eq (c : Dev nD) (t : Fin cfg1.N) :
    (dat1 (F := Ideal) V c).flushed 14 t = ((cfg1.win 14).blk t).view.read (Elt Ideal)
      (hidArr (entryW V c) (V c main_v5) (V c main_v30) (V c main_v31) (V c main_v32) : Mat 50000 64) := by
  show (cfg1.win 14).cut (grid1.coords t) ((dat1 V c).after 14 t) = _
  rw [after1_14]
  unfold out1_14
  rw [View.canon_unit_zero hz]
  simp only [View.ld_unit_zero (S := S1000x100) hz, View.ld_unit_zero (S := S1000x64) hz, View.ld_unit_zero (S := S100x300) hz, View.ld_unit_zero (S := S1x300) hz, View.ld_unit_zero (S := S100x256) hz, View.ld_unit_zero (S := S64x256) hz, View.ld_unit_zero (S := S1x256) hz, View.ld_unit_zero (S := S64x8) hz, View.ld_unit_zero (S := S1x8) hz]
  rw [CellPay.pay_hid (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t),
    par_eq V c t]
  refine funext fun (j : S1000x64.Idx) => ?_
  obtain ⟨p, q, rfl⟩ : ∃ (p : Fin 1000) (q : Fin 64), j = ix2 p q := ⟨j 0, j 1, eq_ix2 j⟩
  have ht : t.val < 50 := pt_lt t
  have hn : 1000 * t.val + p.val < 50000 := by have := p.isLt; omega
  refine Eq.trans ?_ (rdG14 _ t (ix2 p q) (ix2 (⟨1000 * t.val + p.val, hn⟩ : Fin 50000) q) rfl rfl).symm
  show hidArr (entryW V c) (iblk1 V c 0 t) (iblk1 V c 1 t) (iblk1 V c 2 t) (iblk1 V c 3 t) (ix2 p q) = _
  exact hid_blk (entryW V c) (iblk1 V c 0 t) (iblk1 V c 1 t) (iblk1 V c 2 t) (iblk1 V c 3 t)
    (V c main_v5) (V c main_v30) (V c main_v31) (V c main_v32) p ⟨1000 * t.val + p.val, hn⟩
    (fun k => rd0 V c t (ix2 p k) (ix2 (⟨1000 * t.val + p.val, hn⟩ : Fin 50000) k) rfl rfl)
    (fun k => rd1 V c t (ix2 p k) (ix2 (⟨1000 * t.val + p.val, hn⟩ : Fin 50000) k) rfl rfl)
    (fun k => rd2 V c t (ix2 p k) (ix2 (⟨1000 * t.val + p.val, hn⟩ : Fin 50000) k) rfl rfl)
    (fun k => rd3 V c t (ix2 p k) (ix2 (⟨1000 * t.val + p.val, hn⟩ : Fin 50000) k) rfl rfl) q

/-- Every index of window 14's array is in the block of the point its row falls in, row / 1000. -/
private theorem cover14 (i : S50000x64.Idx) :
    ∃ t : Fin cfg1.N, (cfg1.win 14).flush t = true ∧ i ∈ ((cfg1.win 14).blk t).view.set := by
  have hi0 : (i 0).val < 50000 := (i 0).isLt
  have hi1 : (i 1).val < 64 := (i 1).isLt
  obtain ⟨t, ht⟩ : ∃ t : Fin cfg1.N, t.val = (i 0).val / 1000 :=
    ⟨⟨(i 0).val / 1000, by rw [show cfg1.N = 50 from N_1]; omega⟩, rfl⟩
  refine ⟨t, flush1_14 t, ?_⟩
  show i ∈ ((View.whole main_v43_0).slice (win1_14.rect t)).set
  rw [View.set_slice_whole, Rect.mem_set_unit]
  obtain ⟨-, -, -, -, ⟨e0, e1⟩, -⟩ := idx_row t
  intro a
  match a with
  | ⟨0, _⟩ => show win1_14.index t (0 : Fin 2) * 1000 ≤ (i 0).val ∧ (i 0).val < win1_14.index t (0 : Fin 2) * 1000 + 1000; rw [e0, ht]; omega
  | ⟨1, _⟩ => show win1_14.index t (1 : Fin 2) * 64 ≤ (i 1).val ∧ (i 1).val < win1_14.index t (1 : Fin 2) * 64 + 64; rw [e1]; omega

/-- The new hidden rows. -/
theorem arr_hid (c : Dev nD) :
    (dat1 (F := Ideal) V c).arrAt 14 cfg1.N
      = (hidArr (entryW V c) (V c main_v5) (V c main_v30) (V c main_v31) (V c main_v32) : Mat 50000 64) :=
  (dat1 (F := Ideal) V c).arrAt_eq_of_cover 14 _ (fun t _ => flushed14_eq V c t) cover14

/-- A whole array read through block `t` of window 15: rows 1000 t … 1000 t + 999. -/
private theorem rdG15 (G : Vec Ideal S50000x64 .f32) (t : Fin cfg1.N) (y : S1000x64.Idx) (i : S50000x64.Idx)
    (h0 : (i 0).val = 1000 * t.val + (y 0).val) (h1 : (i 1).val = (y 1).val) :
    ((cfg1.win 15).blk t).view.read (Elt Ideal) G y = G i := by
  rw [View.read_apply]
  show G (((cfg1.win 15).blk t).view.emb y) = G i
  refine congrArg _ ?_
  funext a
  apply Fin.ext
  obtain ⟨-, -, -, -, -, ⟨e0, e1⟩, -⟩ := idx_row t
  match a with
  | ⟨0, _⟩ => show win1_15.index t (0 : Fin 2) * 1000 + 1 * (y 0).val = (i 0).val; rw [e0, h0]; omega
  | ⟨1, _⟩ => show win1_15.index t (1 : Fin 2) * 64 + 1 * (y 1).val = (i 1).val; rw [e1, h1]; omega

/-- The cell rows read their four arrays only through the node's rows: where block row `p` of each is array row `n`,
    the block's row `p` is the arrays' row `n`. -/
private theorem cell_blk (W : Wts) (b0 b1 : Mat 1000 100) (b2 b3 : Mat 1000 64) (A0 A1 : Mat 50000 100) (A2 A3 : Mat 50000 64)
    (p : Fin 1000) (n : Fin 50000)
    (h0 : ∀ k : Fin 100, b0 (ix2 p k) = A0 (ix2 n k)) (h1 : ∀ k : Fin 100, b1 (ix2 p k) = A1 (ix2 n k))
    (h2 : ∀ k : Fin 64, b2 (ix2 p k) = A2 (ix2 n k)) (h3 : ∀ k : Fin 64, b3 (ix2 p k) = A3 (ix2 n k)) (q : Fin 64) :
    cellArr W b0 b1 b2 b3 (ix2 p q) = cellArr W A0 A1 A2 A3 (ix2 n q) := by
  show cell W (row b0 p) (row b1 p) (row b2 p) (row b3 p) q = cell W (row A0 n) (row A1 n) (row A2 n) (row A3 n) q
  rw [show row b0 p = row A0 n from funext h0, show row b1 p = row A1 n from funext h1,
    show row b2 p = row A2 n from funext h2, show row b3 p = row A3 n from funext h3]

/-- What point `t` writes back to window 15 is block `t` of the cell rows of the arrays at entry. -/
private theorem flushed15_eq (c : Dev nD) (t : Fin cfg1.N) :
    (dat1 (F := Ideal) V c).flushed 15 t = ((cfg1.win 15).blk t).view.read (Elt Ideal)
      (cellArr (entryW V c) (V c main_v5) (V c main_v30) (V c main_v31) (V c main_v32) : Mat 50000 64) := by
  show (cfg1.win 15).cut (grid1.coords t) ((dat1 V c).after 15 t) = _
  rw [after1_15]
  unfold out1_15
  rw [View.canon_unit_zero hz]
  simp only [View.ld_unit_zero (S := S1000x100) hz, View.ld_unit_zero (S := S1000x64) hz, View.ld_unit_zero (S := S100x300) hz, View.ld_unit_zero (S := S1x300) hz, View.ld_unit_zero (S := S100x256) hz, View.ld_unit_zero (S := S64x256) hz, View.ld_unit_zero (S := S1x256) hz, View.ld_unit_zero (S := S64x8) hz, View.ld_unit_zero (S := S1x8) hz]
  rw [CellPay.pay_cell (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t),
    par_eq V c t]
  refine funext fun (j : S1000x64.Idx) => ?_
  obtain ⟨p, q, rfl⟩ : ∃ (p : Fin 1000) (q : Fin 64), j = ix2 p q := ⟨j 0, j 1, eq_ix2 j⟩
  have ht : t.val < 50 := pt_lt t
  have hn : 1000 * t.val + p.val < 50000 := by have := p.isLt; omega
  refine Eq.trans ?_ (rdG15 _ t (ix2 p q) (ix2 (⟨1000 * t.val + p.val, hn⟩ : Fin 50000) q) rfl rfl).symm
  show cellArr (entryW V c) (iblk1 V c 0 t) (iblk1 V c 1 t) (iblk1 V c 2 t) (iblk1 V c 3 t) (ix2 p q) = _
  exact cell_blk (entryW V c) (iblk1 V c 0 t) (iblk1 V c 1 t) (iblk1 V c 2 t) (iblk1 V c 3 t)
    (V c main_v5) (V c main_v30) (V c main_v31) (V c main_v32) p ⟨1000 * t.val + p.val, hn⟩
    (fun k => rd0 V c t (ix2 p k) (ix2 (⟨1000 * t.val + p.val, hn⟩ : Fin 50000) k) rfl rfl)
    (fun k => rd1 V c t (ix2 p k) (ix2 (⟨1000 * t.val + p.val, hn⟩ : Fin 50000) k) rfl rfl)
    (fun k => rd2 V c t (ix2 p k) (ix2 (⟨1000 * t.val + p.val, hn⟩ : Fin 50000) k) rfl rfl)
    (fun k => rd3 V c t (ix2 p k) (ix2 (⟨1000 * t.val + p.val, hn⟩ : Fin 50000) k) rfl rfl) q

/-- Every index of window 15's array is in the block of the point its row falls in, row / 1000. -/
private theorem cover15 (i : S50000x64.Idx) :
    ∃ t : Fin cfg1.N, (cfg1.win 15).flush t = true ∧ i ∈ ((cfg1.win 15).blk t).view.set := by
  have hi0 : (i 0).val < 50000 := (i 0).isLt
  have hi1 : (i 1).val < 64 := (i 1).isLt
  obtain ⟨t, ht⟩ : ∃ t : Fin cfg1.N, t.val = (i 0).val / 1000 :=
    ⟨⟨(i 0).val / 1000, by rw [show cfg1.N = 50 from N_1]; omega⟩, rfl⟩
  refine ⟨t, flush1_15 t, ?_⟩
  show i ∈ ((View.whole main_v43_1).slice (win1_15.rect t)).set
  rw [View.set_slice_whole, Rect.mem_set_unit]
  obtain ⟨-, -, -, -, -, ⟨e0, e1⟩, -⟩ := idx_row t
  intro a
  match a with
  | ⟨0, _⟩ => show win1_15.index t (0 : Fin 2) * 1000 ≤ (i 0).val ∧ (i 0).val < win1_15.index t (0 : Fin 2) * 1000 + 1000; rw [e0, ht]; omega
  | ⟨1, _⟩ => show win1_15.index t (1 : Fin 2) * 64 ≤ (i 1).val ∧ (i 1).val < win1_15.index t (1 : Fin 2) * 64 + 64; rw [e1]; omega

/-- The new cell rows. -/
theorem arr_cell (c : Dev nD) :
    (dat1 (F := Ideal) V c).arrAt 15 cfg1.N
      = (cellArr (entryW V c) (V c main_v5) (V c main_v30) (V c main_v31) (V c main_v32) : Mat 50000 64) :=
  (dat1 (F := Ideal) V c).arrAt_eq_of_cover 15 _ (fun t _ => flushed15_eq V c t) cover15

/-- A whole array read through block `t` of window 16: rows 1000 t … 1000 t + 999. -/
private theorem rdG16 (G : Vec Ideal S50000x8 .f32) (t : Fin cfg1.N) (y : S1000x8.Idx) (i : S50000x8.Idx)
    (h0 : (i 0).val = 1000 * t.val + (y 0).val) (h1 : (i 1).val = (y 1).val) :
    ((cfg1.win 16).blk t).view.read (Elt Ideal) G y = G i := by
  rw [View.read_apply]
  show G (((cfg1.win 16).blk t).view.emb y) = G i
  refine congrArg _ ?_
  funext a
  apply Fin.ext
  obtain ⟨-, -, -, -, -, -, ⟨e0, e1⟩⟩ := idx_row t
  match a with
  | ⟨0, _⟩ => show win1_16.index t (0 : Fin 2) * 1000 + 1 * (y 0).val = (i 0).val; rw [e0, h0]; omega
  | ⟨1, _⟩ => show win1_16.index t (1 : Fin 2) * 8 + 1 * (y 1).val = (i 1).val; rw [e1, h1]; omega

/-- The heads read their four arrays only through the node's rows: where block row `p` of each is array row `n`,
    the block's row `p` is the arrays' row `n`. -/
private theorem head_blk (W : Wts) (b0 b1 : Mat 1000 100) (b2 b3 : Mat 1000 64) (A0 A1 : Mat 50000 100) (A2 A3 : Mat 50000 64)
    (p : Fin 1000) (n : Fin 50000)
    (h0 : ∀ k : Fin 100, b0 (ix2 p k) = A0 (ix2 n k)) (h1 : ∀ k : Fin 100, b1 (ix2 p k) = A1 (ix2 n k))
    (h2 : ∀ k : Fin 64, b2 (ix2 p k) = A2 (ix2 n k)) (h3 : ∀ k : Fin 64, b3 (ix2 p k) = A3 (ix2 n k)) (q : Fin 8) :
    headArr W b0 b1 b2 b3 (ix2 p q) = headArr W A0 A1 A2 A3 (ix2 n q) := by
  show head W (row b0 p) (row b1 p) (row b2 p) (row b3 p) q = head W (row A0 n) (row A1 n) (row A2 n) (row A3 n) q
  rw [show row b0 p = row A0 n from funext h0, show row b1 p = row A1 n from funext h1,
    show row b2 p = row A2 n from funext h2, show row b3 p = row A3 n from funext h3]

/-- What point `t` writes back to window 16 is block `t` of the heads of the arrays at entry. -/
private theorem flushed16_eq (c : Dev nD) (t : Fin cfg1.N) :
    (dat1 (F := Ideal) V c).flushed 16 t = ((cfg1.win 16).blk t).view.read (Elt Ideal)
      (headArr (entryW V c) (V c main_v5) (V c main_v30) (V c main_v31) (V c main_v32) : Mat 50000 8) := by
  show (cfg1.win 16).cut (grid1.coords t) ((dat1 V c).after 16 t) = _
  rw [after1_16]
  unfold out1_16
  rw [View.canon_unit_zero hz]
  simp only [View.ld_unit_zero (S := S1000x100) hz, View.ld_unit_zero (S := S1000x64) hz, View.ld_unit_zero (S := S100x300) hz, View.ld_unit_zero (S := S1x300) hz, View.ld_unit_zero (S := S100x256) hz, View.ld_unit_zero (S := S64x256) hz, View.ld_unit_zero (S := S1x256) hz, View.ld_unit_zero (S := S64x8) hz, View.ld_unit_zero (S := S1x8) hz]
  rw [CellPay.pay_head (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t),
    par_eq V c t]
  refine funext fun (j : S1000x8.Idx) => ?_
  obtain ⟨p, q, rfl⟩ : ∃ (p : Fin 1000) (q : Fin 8), j = ix2 p q := ⟨j 0, j 1, eq_ix2 j⟩
  have ht : t.val < 50 := pt_lt t
  have hn : 1000 * t.val + p.val < 50000 := by have := p.isLt; omega
  refine Eq.trans ?_ (rdG16 _ t (ix2 p q) (ix2 (⟨1000 * t.val + p.val, hn⟩ : Fin 50000) q) rfl rfl).symm
  show headArr (entryW V c) (iblk1 V c 0 t) (iblk1 V c 1 t) (iblk1 V c 2 t) (iblk1 V c 3 t) (ix2 p q) = _
  exact head_blk (entryW V c) (iblk1 V c 0 t) (iblk1 V c 1 t) (iblk1 V c 2 t) (iblk1 V c 3 t)
    (V c main_v5) (V c main_v30) (V c main_v31) (V c main_v32) p ⟨1000 * t.val + p.val, hn⟩
    (fun k => rd0 V c t (ix2 p k) (ix2 (⟨1000 * t.val + p.val, hn⟩ : Fin 50000) k) rfl rfl)
    (fun k => rd1 V c t (ix2 p k) (ix2 (⟨1000 * t.val + p.val, hn⟩ : Fin 50000) k) rfl rfl)
    (fun k => rd2 V c t (ix2 p k) (ix2 (⟨1000 * t.val + p.val, hn⟩ : Fin 50000) k) rfl rfl)
    (fun k => rd3 V c t (ix2 p k) (ix2 (⟨1000 * t.val + p.val, hn⟩ : Fin 50000) k) rfl rfl) q

/-- Every index of window 16's array is in the block of the point its row falls in, row / 1000. -/
private theorem cover16 (i : S50000x8.Idx) :
    ∃ t : Fin cfg1.N, (cfg1.win 16).flush t = true ∧ i ∈ ((cfg1.win 16).blk t).view.set := by
  have hi0 : (i 0).val < 50000 := (i 0).isLt
  have hi1 : (i 1).val < 8 := (i 1).isLt
  obtain ⟨t, ht⟩ : ∃ t : Fin cfg1.N, t.val = (i 0).val / 1000 :=
    ⟨⟨(i 0).val / 1000, by rw [show cfg1.N = 50 from N_1]; omega⟩, rfl⟩
  refine ⟨t, flush1_16 t, ?_⟩
  show i ∈ ((View.whole main_v43_2).slice (win1_16.rect t)).set
  rw [View.set_slice_whole, Rect.mem_set_unit]
  obtain ⟨-, -, -, -, -, -, ⟨e0, e1⟩⟩ := idx_row t
  intro a
  match a with
  | ⟨0, _⟩ => show win1_16.index t (0 : Fin 2) * 1000 ≤ (i 0).val ∧ (i 0).val < win1_16.index t (0 : Fin 2) * 1000 + 1000; rw [e0, ht]; omega
  | ⟨1, _⟩ => show win1_16.index t (1 : Fin 2) * 8 ≤ (i 1).val ∧ (i 1).val < win1_16.index t (1 : Fin 2) * 8 + 8; rw [e1]; omega

/-- The heads. -/
theorem arr_head (c : Dev nD) :
    (dat1 (F := Ideal) V c).arrAt 16 cfg1.N
      = (headArr (entryW V c) (V c main_v5) (V c main_v30) (V c main_v31) (V c main_v32) : Mat 50000 8) :=
  (dat1 (F := Ideal) V c).arrAt_eq_of_cover 16 _ (fun t _ => flushed16_eq V c t) cover16

end Cert.KernelIdeal.CellArr

end
-- ==== Proof.KHost.lean ====
/-
  The kernel program's host stretches, read: what each region finds in the arrays it stages and what the last
  stretch leaves in the results, as functions of the launch memory. Before the projection: the features as
  launched and the first 64 rows of the weight. Before the cell: the features padded with zero columns, the
  neighbourhood mean of the projection's array, the previous hidden and cell rows without their unit axis, and
  the parameters transposed or given a unit axis. After it: the head as the region left it, the new hidden and
  cell rows given back their unit axis.
-/
import proofs.«148086_j54443005444660_1_alg».proof.Proof.Gen.KernelIdeal.Frame
import proofs.«148086_j54443005444660_1_alg».proof.Proof.Spec
import proofs.«148086_j54443005444660_1_alg».proof.Proof.KCell
import Idealize.ShloMosaic.Lib.Pipeline.Value
import Idealize.ShloMosaic.Lib.StableHlo.Run

set_option maxRecDepth 16384

noncomputable section

open Idealize.ShloMosaic Idealize.ShloMosaic.TcCoe Idealize.ShloMosaic.ValueIdx Idealize.SL.Sem

namespace Cert.KernelIdeal.Fold

open Cert.KernelIdeal Cert.KernelIdeal.Gen Cert.Cell Cert.Spec
open Idealize.ShloMosaic.Pipeline (Dat Cfg Window)

/-! ## The host stretches over any contents

Each stretch of host operations read at one buffer, from arbitrary contents `X`: the buffer's own operations applied to
`X` at their argument buffers, or `X` itself at a buffer the stretch does not write. -/

section Stretches
variable (X : Valuation τ sig (Elt Ideal))

/-- The first stretch does not write the features. -/
private theorem ops0_arg0 :
    StableHlo.after (hostOps0 (F := Ideal)) X (Proc.devRef .tc main_arg0) = X (Proc.devRef .tc main_arg0) := by
  dsimp only [hostOps0]; after_results_simp

/-- The last stretch does not write the head's buffer. -/
private theorem ops2_v43_2 :
    StableHlo.after (hostOps2 (F := Ideal)) X (Proc.devRef .tc main_v43_2) = X (Proc.devRef .tc main_v43_2) := by
  dsimp only [hostOps2]; after_results_simp

/-- The last stretch gives the hidden rows a unit axis. -/
private theorem ops2_v44 :
    StableHlo.after (hostOps2 (F := Ideal)) X (Proc.devRef .tc main_v44)
      = broadcastInDim S1x50000x64 ![1, 2] bcast_S50000x64_S1x50000x64_1_2 (X (Proc.devRef .tc main_v43_0)) := by
  dsimp only [hostOps2]; after_results_simp

/-- The last stretch gives the cell rows a unit axis. -/
private theorem ops2_v45 :
    StableHlo.after (hostOps2 (F := Ideal)) X (Proc.devRef .tc main_v45)
      = broadcastInDim S1x50000x64 ![1, 2] bcast_S50000x64_S1x50000x64_1_2 (X (Proc.devRef .tc main_v43_1)) := by
  dsimp only [hostOps2]; after_results_simp

/-- The first stretch leaves every buffer it does not write. -/
private theorem ops0_keep (r : Ref sig .tc)
    (h : r ≠ main_v0 ∧ r ≠ main_v1 ∧ r ≠ main_v2 ∧ r ≠ main_v3 ∧ r ≠ main_cst ∧ r ≠ main_v4 ∧ r ≠ main_v5 ∧ r ≠ main_v6 ∧ r ≠ main_v7) :
    StableHlo.after (hostOps0 (F := Ideal)) X (Proc.devRef .tc r) = X (Proc.devRef .tc r) := by
  obtain ⟨h0, h1, h2, h3, h4, h5, h6, h7, h8⟩ := h
  dsimp only [hostOps0]
  simp (disch := assumption) only [StableHlo.after_cons, StableHlo.after_nil, StableHlo.nullary_result_ne',
    StableHlo.unary_result_ne', StableHlo.binary_result_ne', StableHlo.reshape_result_ne']

/-- The first stretch leaves the edges' source row, flattened, in its buffer. -/
private theorem ops0_v1 :
    (StableHlo.after (hostOps0 (F := Ideal)) X (Proc.devRef .tc main_v1) : (⟨S800000, .i32⟩ : BufTy).Contents (Elt Ideal))
      = shapeCast _ (extractStridedSlice S1x800000 ![0, 0] (X (Proc.devRef .tc main_arg1)) slices_S2x800000_S1x800000_0_0) shapeCasts_S1x800000_S800000 := by
  dsimp only [hostOps0]; after_results_simp; rfl

/-- The first stretch leaves the edges' destination row, flattened, in its buffer. -/
private theorem ops0_v3 :
    (StableHlo.after (hostOps0 (F := Ideal)) X (Proc.devRef .tc main_v3) : (⟨S800000, .i32⟩ : BufTy).Contents (Elt Ideal))
      = shapeCast _ (extractStridedSlice S1x800000 ![1, 0] (X (Proc.devRef .tc main_arg1)) slices_S2x800000_S1x800000_1_0) shapeCasts_S1x800000_S800000 := by
  dsimp only [hostOps0]; after_results_simp; rfl

/-- The second stretch leaves the neighbourhood mean of the projection's array, once the two index rows it finds are the
    rows of the edge array `ei`. -/
private theorem ops1_v30 (ei : (⟨S2x800000, .i32⟩ : BufTy).Contents (Elt Ideal))
    (h1 : (X (Proc.devRef .tc main_v1) : (⟨S800000, .i32⟩ : BufTy).Contents (Elt Ideal))
      = shapeCast _ (extractStridedSlice S1x800000 ![0, 0] ei slices_S2x800000_S1x800000_0_0) shapeCasts_S1x800000_S800000)
    (h3 : (X (Proc.devRef .tc main_v3) : (⟨S800000, .i32⟩ : BufTy).Contents (Elt Ideal))
      = shapeCast _ (extractStridedSlice S1x800000 ![1, 0] ei slices_S2x800000_S1x800000_1_0) shapeCasts_S1x800000_S800000) :
    (StableHlo.after (hostOps1 (F := Ideal)) X (Proc.devRef .tc main_v30) : (⟨S50000x100, .f32⟩ : BufTy).Contents (Elt Ideal))
      = aggOf (F := Ideal) (X (Proc.devRef .tc main_v8)) ei (X (Proc.devRef .tc main_arg2)) := by
  dsimp only [hostOps1]; after_results_simp
  rw [h1, h3]
  rfl

/-- The first stretch leaves the first 64 rows of the weight, without the unit axis, in their buffer. -/
private theorem ops0_v7 :
    (StableHlo.after (hostOps0 (F := Ideal)) X (Proc.devRef .tc main_v7) : (⟨S64x100, .f32⟩ : BufTy).Contents (Elt Ideal))
      = shapeCast S64x100 (extractStridedSlice S1x64x100 ![0, 0, 0] (X (Proc.devRef .tc main_arg5)) slices_S1x100x100_S1x64x100_0_0_0) shapeCasts_S1x64x100_S64x100 := by
  dsimp only [hostOps0]; after_results_simp; rfl

/-- The second stretch leaves the previous hidden rows reshaped. -/
private theorem ops1_v31 :
    (StableHlo.after (hostOps1 (F := Ideal)) X (Proc.devRef .tc main_v31) : (⟨S50000x64, .f32⟩ : BufTy).Contents (Elt Ideal))
      = shapeCast S50000x64 (X (Proc.devRef .tc main_arg3)) shapeCasts_S1x50000x64_S50000x64 := by
  dsimp only [hostOps1]; after_results_simp; rfl

/-- The second stretch leaves the previous cell rows reshaped. -/
private theorem ops1_v32 :
    (StableHlo.after (hostOps1 (F := Ideal)) X (Proc.devRef .tc main_v32) : (⟨S50000x64, .f32⟩ : BufTy).Contents (Elt Ideal))
      = shapeCast S50000x64 (X (Proc.devRef .tc main_arg4)) shapeCasts_S1x50000x64_S50000x64 := by
  dsimp only [hostOps1]; after_results_simp; rfl

/-- The first stretch leaves the features with 36 columns of the zero word appended. -/
private theorem ops0_v5 :
    (StableHlo.after (hostOps0 (F := Ideal)) X (Proc.devRef .tc main_v5) : (⟨S50000x100, .f32⟩ : BufTy).Contents (Elt Ideal))
      = concatenate S50000x100 1 [⟨S50000x64, X (Proc.devRef .tc main_arg0)⟩,
          ⟨S50000x36, broadcastInDim S50000x36 ![] bcast_S_S50000x36 (constant (F := Ideal) S_ .f32 0x00000000#32)⟩]
          concatenates_S50000x64_S50000x36_S50000x100_d1 := by
  dsimp only [hostOps0]; after_results_simp; rfl

/-- The second stretch does not write the padded features. -/
private theorem ops1_v5 :
    StableHlo.after (hostOps1 (F := Ideal)) X (Proc.devRef .tc main_v5) = X (Proc.devRef .tc main_v5) := by
  dsimp only [hostOps1]; after_results_simp

/-- The second stretch leaves each weight transposed and each bias with a leading unit axis. -/
private theorem ops1_v33 :
    (StableHlo.after (hostOps1 (F := Ideal)) X (Proc.devRef .tc main_v33) : (⟨S100x300, .f32⟩ : BufTy).Contents (Elt Ideal))
      = transpose S100x300 [1, 0] (X (Proc.devRef .tc main_arg6)) transposes_S300x100_S100x300_1_0 := by
  dsimp only [hostOps1]; after_results_simp
private theorem ops1_v34 :
    (StableHlo.after (hostOps1 (F := Ideal)) X (Proc.devRef .tc main_v34) : (⟨S100x300, .f32⟩ : BufTy).Contents (Elt Ideal))
      = transpose S100x300 [1, 0] (X (Proc.devRef .tc main_arg7)) transposes_S300x100_S100x300_1_0 := by
  dsimp only [hostOps1]; after_results_simp
private theorem ops1_v35 :
    (StableHlo.after (hostOps1 (F := Ideal)) X (Proc.devRef .tc main_v35) : (⟨S1x300, .f32⟩ : BufTy).Contents (Elt Ideal))
      = shapeCast S1x300 (X (Proc.devRef .tc main_arg8)) shapeCasts_S300_S1x300 := by
  dsimp only [hostOps1]; after_results_simp; rfl
private theorem ops1_v36 :
    (StableHlo.after (hostOps1 (F := Ideal)) X (Proc.devRef .tc main_v36) : (⟨S1x300, .f32⟩ : BufTy).Contents (Elt Ideal))
      = shapeCast S1x300 (X (Proc.devRef .tc main_arg9)) shapeCasts_S300_S1x300 := by
  dsimp only [hostOps1]; after_results_simp; rfl
private theorem ops1_v37 :
    (StableHlo.after (hostOps1 (F := Ideal)) X (Proc.devRef .tc main_v37) : (⟨S100x256, .f32⟩ : BufTy).Contents (Elt Ideal))
      = transpose S100x256 [1, 0] (X (Proc.devRef .tc main_arg10)) transposes_S256x100_S100x256_1_0 := by
  dsimp only [hostOps1]; after_results_simp
private theorem ops1_v38 :
    (StableHlo.after (hostOps1 (F := Ideal)) X (Proc.devRef .tc main_v38) : (⟨S64x256, .f32⟩ : BufTy).Contents (Elt Ideal))
      = transpose S64x256 [1, 0] (X (Proc.devRef .tc main_arg11)) transposes_S256x64_S64x256_1_0 := by
  dsimp only [hostOps1]; after_results_simp
private theorem ops1_v39 :
    (StableHlo.after (hostOps1 (F := Ideal)) X (Proc.devRef .tc main_v39) : (⟨S1x256, .f32⟩ : BufTy).Contents (Elt Ideal))
      = shapeCast S1x256 (X (Proc.devRef .tc main_arg12)) shapeCasts_S256_S1x256 := by
  dsimp only [hostOps1]; after_results_simp; rfl
private theorem ops1_v40 :
    (StableHlo.after (hostOps1 (F := Ideal)) X (Proc.devRef .tc main_v40) : (⟨S1x256, .f32⟩ : BufTy).Contents (Elt Ideal))
      = shapeCast S1x256 (X (Proc.devRef .tc main_arg13)) shapeCasts_S256_S1x256 := by
  dsimp only [hostOps1]; after_results_simp; rfl
private theorem ops1_v41 :
    (StableHlo.after (hostOps1 (F := Ideal)) X (Proc.devRef .tc main_v41) : (⟨S64x8, .f32⟩ : BufTy).Contents (Elt Ideal))
      = transpose S64x8 [1, 0] (X (Proc.devRef .tc main_arg14)) transposes_S8x64_S64x8_1_0 := by
  dsimp only [hostOps1]; after_results_simp
private theorem ops1_v42 :
    (StableHlo.after (hostOps1 (F := Ideal)) X (Proc.devRef .tc main_v42) : (⟨S1x8, .f32⟩ : BufTy).Contents (Elt Ideal))
      = shapeCast S1x8 (X (Proc.devRef .tc main_arg15)) shapeCasts_S8_S1x8 := by
  dsimp only [hostOps1]; after_results_simp; rfl

end Stretches

/-! ## The layout operations against the arrays of the specification -/

/-- A [1, 50000, 64] array reshaped to [50000, 64] is the array without its unit axis: entry (n, j) has the same
    row-major position as (0, n, j). -/
private theorem dropUnit_eq (a : (⟨S1x50000x64, .f32⟩ : BufTy).Contents (Elt Ideal)) :
    shapeCast S50000x64 a shapeCasts_S1x50000x64_S50000x64 = dropUnit a := by
  funext i
  refine shapeCast_apply a shapeCasts_S1x50000x64_S50000x64 i (ix3 (0 : Fin 1) (i 0) (i 1)) ?_
  rw [Shape.rowMajor_val_three, Shape.rowMajor_val_two]
  show ((0 : Nat) * 50000 + (i 0).val) * 64 + (i 1).val = (i 0).val * 64 + (i 1).val
  omega

/-- The slice [0:1, 0:64, 0:100] of the weight reshaped to [64, 100] is its first 64 rows. -/
private theorem wTop_eq (a5 : (⟨S1x100x100, .f32⟩ : BufTy).Contents (Elt Ideal)) :
    shapeCast S64x100 (extractStridedSlice S1x64x100 ![0, 0, 0] a5 slices_S1x100x100_S1x64x100_0_0_0) shapeCasts_S1x64x100_S64x100
      = wTopArr a5 := by
  funext i
  refine (shapeCast_apply _ shapeCasts_S1x64x100_S64x100 i (ix3 (0 : Fin 1) (i 0) (i 1)) ?_).trans ?_
  · rw [Shape.rowMajor_val_three, Shape.rowMajor_val_two]
    show ((0 : Nat) * 64 + (i 0).val) * 100 + (i 1).val = (i 0).val * 100 + (i 1).val
    omega
  · refine extractStridedSlice_apply _ a5 slices_S1x100x100_S1x64x100_0_0_0 _ _ ?_
    intro a
    match a with
    | ⟨0, _⟩ => rfl
    | ⟨1, _⟩ => show (i 0).val = 0 + (i 0).val; omega
    | ⟨2, _⟩ => show (i 1).val = 0 + (i 1).val; omega

/-- The features and 36 columns of the zero word, side by side, are the padded features: a column below 64 reads the
    features, any other reads the zero word, which is 0. -/
private theorem pad_eq (a0 : (⟨S50000x64, .f32⟩ : BufTy).Contents (Elt Ideal)) :
    concatenate S50000x100 1 [⟨S50000x64, a0⟩,
        ⟨S50000x36, broadcastInDim S50000x36 ![] bcast_S_S50000x36 (constant (F := Ideal) S_ .f32 0x00000000#32)⟩]
        concatenates_S50000x64_S50000x36_S50000x100_d1 = padArr a0 := by
  funext i
  unfold padArr
  split
  · rename_i h
    refine concatenate_pair_apply_left (s₁ := S50000x64) (s₂ := S50000x36) (1 : Fin 2) a0
      (broadcastInDim S50000x36 ![] bcast_S_S50000x36 (constant (F := Ideal) S_ .f32 0x00000000#32))
      concatenates_S50000x64_S50000x36_S50000x100_d1 i rfl (ix2 (i 0) (⟨(i 1).val, h⟩ : Fin 64)) ?_
    intro b
    match b with
    | ⟨0, _⟩ => rfl
    | ⟨1, _⟩ => rfl
  · rename_i h
    have h36 : (i 1).val - 64 < 36 := by have := idx2_lt1 i; omega
    refine (concatenate_pair_apply_right (s₁ := S50000x64) (s₂ := S50000x36) (1 : Fin 2) a0
      (broadcastInDim S50000x36 ![] bcast_S_S50000x36 (constant (F := Ideal) S_ .f32 0x00000000#32))
      concatenates_S50000x64_S50000x36_S50000x100_d1 i rfl rfl
      (ix2 (i 0) (⟨(i 1).val - 64, h36⟩ : Fin 36)) ?_ ?_).trans ?_
    · intro b hb
      match b with
      | ⟨0, _⟩ => rfl
      | ⟨1, _⟩ => exact absurd rfl hb
    · show (i 1).val - 64 + 64 = (i 1).val
      omega
    · exact Ideal.ofBits_zero_f32

/-- A two-axis array transposed, read at an index. -/
private theorem transpose2_apply {n0 n1 : Nat} (x : (⟨2, ![n0, n1]⟩ : Shape).Idx → EReal)
    (h : (⟨2, ![n0, n1]⟩ : Shape).Transposes [1, 0] (⟨2, ![n1, n0]⟩ : Shape)) (i : (⟨2, ![n1, n0]⟩ : Shape).Idx) :
    transpose (⟨2, ![n1, n0]⟩ : Shape) [1, 0] x h i = x (ix2 (i 1) (i 0)) := by
  refine transpose_apply _ x h i _ ?_
  intro b
  match b with
  | ⟨0, _⟩ => rfl
  | ⟨1, _⟩ => rfl

/-- A one-axis array given a leading unit axis, read at an index. -/
private theorem unitRow_apply {n : Nat} (x : (⟨1, ![n]⟩ : Shape).Idx → EReal)
    (h : (⟨1, ![n]⟩ : Shape).ShapeCasts (⟨2, ![1, n]⟩ : Shape)) (q : Fin n) :
    shapeCast (⟨2, ![1, n]⟩ : Shape) x h (ix2 (0 : Fin 1) q) = x (ix1 q) := by
  refine shapeCast_apply x h _ _ ?_
  rw [Shape.rowMajor_val_one, Shape.rowMajor_val_two]
  show q.val = 0 * n + q.val
  omega

/-- The staged parameters, each weight a transpose and each bias a one-row reshape of an argument array, are the
    parameters read off the argument arrays. -/
private theorem blk_arg (a6 a7 : (⟨S300x100, .f32⟩ : BufTy).Contents (Elt Ideal)) (a8 a9 : (⟨S300, .f32⟩ : BufTy).Contents (Elt Ideal))
    (a10 : (⟨S256x100, .f32⟩ : BufTy).Contents (Elt Ideal)) (a11 : (⟨S256x64, .f32⟩ : BufTy).Contents (Elt Ideal))
    (a12 a13 : (⟨S256, .f32⟩ : BufTy).Contents (Elt Ideal)) (a14 : (⟨S8x64, .f32⟩ : BufTy).Contents (Elt Ideal))
    (a15 : (⟨S8, .f32⟩ : BufTy).Contents (Elt Ideal)) :
    blkW (transpose S100x300 [1, 0] a6 transposes_S300x100_S100x300_1_0) (transpose S100x300 [1, 0] a7 transposes_S300x100_S100x300_1_0)
      (shapeCast S1x300 a8 shapeCasts_S300_S1x300) (shapeCast S1x300 a9 shapeCasts_S300_S1x300)
      (transpose S100x256 [1, 0] a10 transposes_S256x100_S100x256_1_0) (transpose S64x256 [1, 0] a11 transposes_S256x64_S64x256_1_0)
      (shapeCast S1x256 a12 shapeCasts_S256_S1x256) (shapeCast S1x256 a13 shapeCasts_S256_S1x256)
      (transpose S64x8 [1, 0] a14 transposes_S8x64_S64x8_1_0) (shapeCast S1x8 a15 shapeCasts_S8_S1x8)
      = argW a6 a7 a8 a9 a10 a11 a12 a13 a14 a15 := by
  unfold blkW argW
  congr 1
  · funext i; exact transpose2_apply a6 _ i
  · funext i; exact transpose2_apply a7 _ i
  · funext q; exact unitRow_apply a8 _ q
  · funext q; exact unitRow_apply a9 _ q
  · funext i; exact transpose2_apply a10 _ i
  · funext i; exact transpose2_apply a11 _ i
  · funext q; exact unitRow_apply a12 _ q
  · funext q; exact unitRow_apply a13 _ q
  · funext i; exact transpose2_apply a14 _ i
  · funext q; exact unitRow_apply a15 _ q

variable (m : (ℓ : Loc nD τ sig) → Buf (Elt Ideal) ℓ) (ρ : Dev nD → PrngReg) (c : Dev nD)

/-- At the projection region's exit a buffer that is none of its arrays and that the first stretch does not write holds
    what the launch memory holds. -/
private theorem W2_arg (r : Ref sig .tc) (hw : ∀ w, Pipeline.arrRef spec0 w ≠ r)
    (h : r ≠ main_v0 ∧ r ≠ main_v1 ∧ r ≠ main_v2 ∧ r ≠ main_v3 ∧ r ≠ main_cst ∧ r ≠ main_v4 ∧ r ≠ main_v5 ∧ r ≠ main_v6 ∧ r ≠ main_v7) :
    W2 m ρ c (Proc.devRef .tc r) = m ((c : Thread nD τ).loc r) :=
  (W2_of_ne m ρ c r hw).trans ((ops0_keep (W0 m ρ c) r h).trans rfl)

/-- The projection region finds the features as launched. -/
theorem entry0_x : V1 m ρ c main_arg0 = (m ((c : Thread nD τ).loc main_arg0)) := by
  exact (ops0_arg0 (W0 m ρ c)).trans rfl

/-- The projection region finds the first 64 rows of the weight. -/
theorem entry0_w : (V1 m ρ c main_v7 : (⟨S64x100, .f32⟩ : BufTy).Contents (Elt Ideal)) = wTopArr (m ((c : Thread nD τ).loc main_arg5)) := by
  exact (ops0_v7 (W0 m ρ c)).trans (wTop_eq (m ((c : Thread nD τ).loc main_arg5)))

/-- The projection's array at the region's exit is what its write-backs leave. -/
theorem mid_m : V2 m ρ c main_v8 = (dat0 (V1 m ρ) c).arrAt 2 cfg0.N := by
  exact W2_arr m ρ c 2

/-- The cell region finds the features padded with 36 zero columns. -/
theorem entry1_xp : (V3 m ρ c main_v5 : (⟨S50000x100, .f32⟩ : BufTy).Contents (Elt Ideal)) = padArr (m ((c : Thread nD τ).loc main_arg0)) := by
  refine (ops1_v5 (W2 m ρ c)).trans ?_
  refine (W2_of_ne m ρ c main_v5 (by decide)).trans ?_
  exact (ops0_v5 (W0 m ρ c)).trans (pad_eq (m ((c : Thread nD τ).loc main_arg0)))

/-- The cell region finds the neighbourhood mean of the projection's array. -/
theorem entry1_ag :
    (V3 m ρ c main_v30 : (⟨S50000x100, .f32⟩ : BufTy).Contents (Elt Ideal))
      = aggOf (F := Ideal) (V2 m ρ c main_v8) (m ((c : Thread nD τ).loc main_arg1)) (m ((c : Thread nD τ).loc main_arg2)) := by
  have h1 := (W2_of_ne m ρ c main_v1 (by decide)).trans ((ops0_v1 (W0 m ρ c)).trans rfl)
  have h3 := (W2_of_ne m ρ c main_v3 (by decide)).trans ((ops0_v3 (W0 m ρ c)).trans rfl)
  have e := ops1_v30 (W2 m ρ c) (m ((c : Thread nD τ).loc main_arg1)) h1 h3
  rw [W2_arg m ρ c main_arg2 (by decide) (by decide)] at e
  exact e

/-- The cell region finds the previous hidden rows without their unit axis. -/
theorem entry1_h0 : (V3 m ρ c main_v31 : (⟨S50000x64, .f32⟩ : BufTy).Contents (Elt Ideal)) = dropUnit (m ((c : Thread nD τ).loc main_arg3)) := by
  have e := ops1_v31 (W2 m ρ c)
  rw [W2_arg m ρ c main_arg3 (by decide) (by decide)] at e
  exact e.trans (dropUnit_eq _)

/-- The cell region finds the previous cell rows without their unit axis. -/
theorem entry1_c0 : (V3 m ρ c main_v32 : (⟨S50000x64, .f32⟩ : BufTy).Contents (Elt Ideal)) = dropUnit (m ((c : Thread nD τ).loc main_arg4)) := by
  have e := ops1_v32 (W2 m ρ c)
  rw [W2_arg m ρ c main_arg4 (by decide) (by decide)] at e
  exact e.trans (dropUnit_eq _)

/-- The cell region finds the parameters of the launch memory, the weights transposed. -/
theorem entry1_W :
    CellArr.entryW (V3 m ρ) c = argW (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  have e33 : V3 m ρ c main_v33 = transpose S100x300 [1, 0] (m ((c : Thread nD τ).loc main_arg6)) transposes_S300x100_S100x300_1_0 := by
    have e := ops1_v33 (W2 m ρ c)
    rw [W2_arg m ρ c main_arg6 (by decide) (by decide)] at e
    exact e
  have e34 : V3 m ρ c main_v34 = transpose S100x300 [1, 0] (m ((c : Thread nD τ).loc main_arg7)) transposes_S300x100_S100x300_1_0 := by
    have e := ops1_v34 (W2 m ρ c)
    rw [W2_arg m ρ c main_arg7 (by decide) (by decide)] at e
    exact e
  have e35 : V3 m ρ c main_v35 = shapeCast S1x300 (m ((c : Thread nD τ).loc main_arg8)) shapeCasts_S300_S1x300 := by
    have e := ops1_v35 (W2 m ρ c)
    rw [W2_arg m ρ c main_arg8 (by decide) (by decide)] at e
    exact e
  have e36 : V3 m ρ c main_v36 = shapeCast S1x300 (m ((c : Thread nD τ).loc main_arg9)) shapeCasts_S300_S1x300 := by
    have e := ops1_v36 (W2 m ρ c)
    rw [W2_arg m ρ c main_arg9 (by decide) (by decide)] at e
    exact e
  have e37 : V3 m ρ c main_v37 = transpose S100x256 [1, 0] (m ((c : Thread nD τ).loc main_arg10)) transposes_S256x100_S100x256_1_0 := by
    have e := ops1_v37 (W2 m ρ c)
    rw [W2_arg m ρ c main_arg10 (by decide) (by decide)] at e
    exact e
  have e38 : V3 m ρ c main_v38 = transpose S64x256 [1, 0] (m ((c : Thread nD τ).loc main_arg11)) transposes_S256x64_S64x256_1_0 := by
    have e := ops1_v38 (W2 m ρ c)
    rw [W2_arg m ρ c main_arg11 (by decide) (by decide)] at e
    exact e
  have e39 : V3 m ρ c main_v39 = shapeCast S1x256 (m ((c : Thread nD τ).loc main_arg12)) shapeCasts_S256_S1x256 := by
    have e := ops1_v39 (W2 m ρ c)
    rw [W2_arg m ρ c main_arg12 (by decide) (by decide)] at e
    exact e
  have e40 : V3 m ρ c main_v40 = shapeCast S1x256 (m ((c : Thread nD τ).loc main_arg13)) shapeCasts_S256_S1x256 := by
    have e := ops1_v40 (W2 m ρ c)
    rw [W2_arg m ρ c main_arg13 (by decide) (by decide)] at e
    exact e
  have e41 : V3 m ρ c main_v41 = transpose S64x8 [1, 0] (m ((c : Thread nD τ).loc main_arg14)) transposes_S8x64_S64x8_1_0 := by
    have e := ops1_v41 (W2 m ρ c)
    rw [W2_arg m ρ c main_arg14 (by decide) (by decide)] at e
    exact e
  have e42 : V3 m ρ c main_v42 = shapeCast S1x8 (m ((c : Thread nD τ).loc main_arg15)) shapeCasts_S8_S1x8 := by
    have e := ops1_v42 (W2 m ρ c)
    rw [W2_arg m ρ c main_arg15 (by decide) (by decide)] at e
    exact e
  unfold CellArr.entryW
  rw [e33, e34, e35, e36, e37, e38, e39, e40, e41, e42]
  exact blk_arg _ _ _ _ _ _ _ _ _ _

/-- The head's buffer ends as the cell region left it. -/
theorem exit_head : W5 m ρ c (Proc.devRef .tc main_v43_2) = (dat1 (V3 m ρ) c).arrAt 16 cfg1.N := by
  exact (ops2_v43_2 (W4 m ρ c)).trans (W4_arr m ρ c 16)

/-- The new hidden rows end with their unit axis back. -/
theorem exit_hid :
    W5 m ρ c (Proc.devRef .tc main_v44)
      = broadcastInDim S1x50000x64 ![1, 2] bcast_S50000x64_S1x50000x64_1_2 ((dat1 (V3 m ρ) c).arrAt 14 cfg1.N) := by
  exact (ops2_v44 (W4 m ρ c)).trans (congrArg _ (W4_arr m ρ c 14))

/-- The new cell rows end with their unit axis back. -/
theorem exit_cell :
    W5 m ρ c (Proc.devRef .tc main_v45)
      = broadcastInDim S1x50000x64 ![1, 2] bcast_S50000x64_S1x50000x64_1_2 ((dat1 (V3 m ρ) c).arrAt 15 cfg1.N) := by
  exact (ops2_v45 (W4 m ρ c)).trans (congrArg _ (W4_arr m ρ c 15))

end Cert.KernelIdeal.Fold

end
-- ==== Proof.KProj.lean ====
/-
  The projection region's array after its run: block `t` of the grid holds rows 1000 t … 1000 t + 999, each point
  writes back the product of its block of the features with the whole 64 by 100 weight, and the 50 blocks tile
  the array; so the array ends holding every node's 64 features against the weight, `Cert.Cell.projArr`.
-/
import proofs.«148086_j54443005444660_1_alg».proof.Proof.Gen.KernelIdeal.Frame
import proofs.«148086_j54443005444660_1_alg».proof.Proof.Spec
import proofs.«148086_j54443005444660_1_alg».proof.Proof.KDots
import Idealize.ShloMosaic.Lib.Pipeline.Value

noncomputable section

open Idealize.ShloMosaic Idealize.ShloMosaic.TcCoe Idealize.ShloMosaic.ValueIdx Idealize.SL.Sem

namespace Cert.KernelIdeal.Proj

open Cert.KernelIdeal Cert.KernelIdeal.Gen Cert.Cell Cert.Spec
open Idealize.ShloMosaic.Pipeline (Dat Cfg Window)

variable (V : (c : Dev nD) → (b : Ref sig .tc) → Buf (Elt Ideal) ((c : Thread nD τ).loc b))

/-- The zero offsets of a whole-buffer access, as the constant function. -/
private theorem hz : (![0, 0] : Fin 2 → Nat) = fun _ => 0 := funext fun a => by fin_cases a <;> rfl

/-- The three index maps over the 50 grid points: at point `t` the features' block and the output's block have
    index (t, 0), the weight's block index (0, 0). -/
private theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What the body stores, at an entry (p, q): the two format changes and the shape cast are the identity at the
    extended reals, so it is the plain sum over the contraction index of the loaded blocks' products. -/
private theorem pay_apply (x0 : Vec Ideal S1000x64 .f32) (x1 : Vec Ideal S64x100 .f32) (p : Fin 1000) (q : Fin 100) :
    k0_pay1 (F := Ideal) x0 x1 (ix2 p q) = ∑ k : Fin 64, x0 (ix2 p k) * x1 (ix2 k q) := by
  unfold k0_pay1
  rw [Dots.mm_proj]
  simp only [truncf_apply, shapeCast_self]

/-- What point `t` writes back is block `t` of the projection of the two arrays the region finds: entry (p, q) of
    the stored product sums row p of the features' block `t`, which is row 1000 t + p of the features, against
    column q of the whole weight; the output's block `t` puts that entry at row 1000 t + p, column q. -/
private theorem flushed_eq (c : Dev nD) (t : Fin cfg0.N) :
    (dat0 (F := Ideal) V c).flushed 2 t = ((cfg0.win 2).blk t).view.read (Elt Ideal)
      (projArr (V c main_arg0 : (⟨S50000x64, .f32⟩ : BufTy).Contents (Elt Ideal)) (V c main_v7 : (⟨S64x100, .f32⟩ : BufTy).Contents (Elt Ideal)) : Mat 50000 100) := by
  show (cfg0.win 2).cut (grid0.coords t) ((dat0 V c).after 2 t) = _
  rw [after0_2]
  unfold out0_2
  rw [View.canon_unit_zero hz]
  simp only [View.ld_unit_zero (S := S1000x64) hz, View.ld_unit_zero (S := S64x100) hz]
  obtain ⟨e0, e1, e2, e3, e4, e5⟩ := idx_facts t
  funext j
  obtain ⟨p, q, rfl⟩ : ∃ (p : Fin 1000) (q : Fin 100), j = ix2 p q := ⟨j 0, j 1, eq_ix2 (n0 := 1000) (n1 := 100) j⟩
  show k0_pay1 (iblk0 V c 0 t) (iblk0 V c 1 t) (ix2 p q)
    = projArr (V c main_arg0 : (⟨S50000x64, .f32⟩ : BufTy).Contents (Elt Ideal)) (V c main_v7 : (⟨S64x100, .f32⟩ : BufTy).Contents (Elt Ideal)) (((cfg0.win 2).blk t).view.emb (ix2 p q))
  rw [pay_apply]
  unfold projArr
  refine Finset.sum_congr rfl fun k _ => ?_
  -- a block's coordinate in the array is the block index times the block's size plus the coordinate inside the block
  have h0 : iblk0 V c 0 t (ix2 p k) = V c main_arg0 (ix2 (((cfg0.win 2).blk t).view.emb (ix2 p q) 0) k) := by
    show V c main_arg0 (((cfg0.win 0).blk t).view.emb (ix2 p k)) = _
    congr 1
    funext a; apply Fin.ext
    match a with
    | ⟨0, _⟩ => show win0_0.index t (0 : Fin 2) * 1000 + 1 * p.val = win0_2.index t (0 : Fin 2) * 1000 + 1 * p.val; omega
    | ⟨1, _⟩ => show win0_0.index t (1 : Fin 2) * 64 + 1 * k.val = k.val; omega
  have h1 : iblk0 V c 1 t (ix2 k q) = V c main_v7 (ix2 k (((cfg0.win 2).blk t).view.emb (ix2 p q) 1)) := by
    show V c main_v7 (((cfg0.win 1).blk t).view.emb (ix2 k q)) = _
    congr 1
    funext a; apply Fin.ext
    match a with
    | ⟨0, _⟩ => show win0_1.index t (0 : Fin 2) * 64 + 1 * k.val = k.val; omega
    | ⟨1, _⟩ => show win0_1.index t (1 : Fin 2) * 100 + 1 * q.val = win0_2.index t (1 : Fin 2) * 100 + 1 * q.val; omega
  rw [h0, h1]

/-- An index of the output array is in point `t`'s block iff each coordinate is in the block's range on its axis. -/
private theorem mem_blk (t : Fin cfg0.N) (i : S50000x100.Idx) :
    i ∈ ((cfg0.win 2).blk t).view.set ↔ ∀ a : Fin 2, win0_2.index t a * S1000x100.size a ≤ (i a).val ∧ (i a).val < win0_2.index t a * S1000x100.size a + S1000x100.size a := by
  show i ∈ ((View.whole main_v8).slice (win0_2.rect t)).set ↔ _
  rw [View.set_slice_whole, Rect.mem_set_unit]
  exact Iff.rfl

/-- The 50 blocks of 1000 rows tile the 50000 rows: an index is in the block of the point its row divided by 1000
    names, and every point writes its block back. -/
private theorem covered (i : S50000x100.Idx) : ∃ t : Fin cfg0.N, (cfg0.win 2).flush t = true ∧ i ∈ ((cfg0.win 2).blk t).view.set := by
  have hi0 : (i 0).val < 50000 := (i 0).isLt
  have hi1 : (i 1).val < 100 := (i 1).isLt
  have hN : cfg0.N = 50 := N_0
  let t : Fin cfg0.N := ⟨(i 0).val / 1000, by rw [hN]; omega⟩
  obtain ⟨e0, e1, e2, e3, e4, e5⟩ := idx_facts t
  have ht : t.val = (i 0).val / 1000 := rfl
  refine ⟨t, flush0_2 t, (mem_blk t i).mpr fun a => ?_⟩
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 100 ≤ (i 1).val ∧ (i 1).val < win0_2.index t (1 : Fin 2) * 100 + 100; omega

/-- What the projection region leaves in its output array, from the arrays it finds at its entry. -/
theorem proj_arr (c : Dev nD) :
    (dat0 (F := Ideal) V c).arrAt 2 cfg0.N
      = (projArr (V c main_arg0 : (⟨S50000x64, .f32⟩ : BufTy).Contents (Elt Ideal)) (V c main_v7 : (⟨S64x100, .f32⟩ : BufTy).Contents (Elt Ideal)) : Mat 50000 100) := by
  -- every point writes back its block of the projection, and the blocks cover the array
  exact (dat0 V c).arrAt_eq_of_cover 2 _ (fun t _ => flushed_eq V c t) covered

end Cert.KernelIdeal.Proj

end
-- ==== Proof.KValue.lean ====
/-
  The idealized kernel program's run with its three results as functions of the argument arrays: the fold's
  contents at the results are the cell region's arrays (with the unit axis put back on two of them), those are
  the row functions over the arrays the region finds, and those arrays are the padded features, the neighbourhood
  mean of the projection region's array — the 64-term projection —, the previous rows and the parameters.
-/
import proofs.«148086_j54443005444660_1_alg».proof.Proof.KRun
import proofs.«148086_j54443005444660_1_alg».proof.Proof.KHost
import proofs.«148086_j54443005444660_1_alg».proof.Proof.KProj
import proofs.«148086_j54443005444660_1_alg».proof.Proof.KCell

noncomputable section

open Idealize.ShloMosaic Idealize.ShloMosaic.TcCoe Idealize.ShloMosaic.ValueIdx Idealize.SL.Sem

namespace Cert.KernelIdeal.Result

open Cert.KernelIdeal Cert.KernelIdeal.Gen Cert.Cell Cert.Spec

variable (m : (ℓ : Loc nD τ sig) → Buf (Elt Ideal) ℓ) (ρ : Dev nD → PrngReg)

/-- The neighbourhood mean the cell region finds is the shared chain of the 64-term projection. -/
theorem entry1_agg (c : Dev nD) :
    (V3 m ρ c main_v30 : (⟨S50000x100, .f32⟩ : BufTy).Contents (Elt Ideal)) = aggArr (m ((c : Thread nD τ).loc main_arg0)) (m ((c : Thread nD τ).loc main_arg1)) (m ((c : Thread nD τ).loc main_arg2)) (m ((c : Thread nD τ).loc main_arg5)) := by
  rw [Fold.entry1_ag m ρ c, Fold.mid_m m ρ c, Proj.proj_arr (V1 m ρ) c, Fold.entry0_x m ρ c, Fold.entry0_w m ρ c]
  rfl

/-- The head's buffer at the end of the run. -/
theorem head_value (c : Dev nD) : W5 m ρ c (Proc.devRef .tc main_v43_2) = headRes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  rw [Fold.exit_head m ρ c, CellArr.arr_head (V3 m ρ) c, Fold.entry1_W m ρ c, Fold.entry1_xp m ρ c, entry1_agg m ρ c,
    Fold.entry1_h0 m ρ c, Fold.entry1_c0 m ρ c]
  rfl

/-- The new hidden rows' buffer at the end of the run. -/
theorem hid_value (c : Dev nD) :
    W5 m ρ c (Proc.devRef .tc main_v44)
      = broadcastInDim S1x50000x64 ![1, 2] bcast_S50000x64_S1x50000x64_1_2 (hidRes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  rw [Fold.exit_hid m ρ c, CellArr.arr_hid (V3 m ρ) c, Fold.entry1_W m ρ c, Fold.entry1_xp m ρ c, entry1_agg m ρ c,
    Fold.entry1_h0 m ρ c, Fold.entry1_c0 m ρ c]
  rfl

/-- The new cell rows' buffer at the end of the run. -/
theorem cell_value (c : Dev nD) :
    W5 m ρ c (Proc.devRef .tc main_v45)
      = broadcastInDim S1x50000x64 ![1, 2] bcast_S50000x64_S1x50000x64_1_2 (cellRes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  rw [Fold.exit_cell m ρ c, CellArr.arr_cell (V3 m ρ) c, Fold.entry1_W m ρ c, Fold.entry1_xp m ρ c, entry1_agg m ρ c,
    Fold.entry1_h0 m ρ c, Fold.entry1_c0 m ρ c]
  rfl

/-- The run, its results as functions of the arguments. -/
theorem run_value : θ_run defs (onTc (τ := τ) (main (F := Ideal))) ⟨m, fun _ => 0, ρ⟩ (fun r => ∀ c : Dev nD,
      r.2.mem ((c.tc : Thread nD τ).loc main_v43_2) = headRes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
      ∧ r.2.mem ((c.tc : Thread nD τ).loc main_v44) = broadcastInDim S1x50000x64 ![1, 2] bcast_S50000x64_S1x50000x64_1_2 (hidRes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))
      ∧ r.2.mem ((c.tc : Thread nD τ).loc main_v45) = broadcastInDim S1x50000x64 ![1, 2] bcast_S50000x64_S1x50000x64_1_2 (cellRes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c).1.trans (head_value m ρ c), (h c).2.1.trans (hid_value m ρ c), (h c).2.2.1.trans (cell_value m ρ c), (h c).2.2.2⟩)
    (Named.run_named m ρ)

end Cert.KernelIdeal.Result

end
-- ==== Proof.RGru.lean ====
/-
  The reference's recurrent unit, read at a node and an entry: its two affine maps (a whole-array product plus a
  broadcast bias), the gates (the logistic function spelt out as one over one plus the exponential of the
  negation, which is the logistic function at the extended reals), the candidate and the unit's result are the
  row functions of `Cert.Cell` of the node's rows of the padded features and of the neighbourhood mean.
-/
import proofs.«148086_j54443005444660_1_alg».proof.Proof.Gen.ReferenceIdeal.Read
import proofs.«148086_j54443005444660_1_alg».proof.Proof.Spec

noncomputable section

open Idealize.ShloMosaic Idealize.ShloMosaic.TcCoe Idealize.ShloMosaic.ValueIdx Idealize.SL.Sem

namespace Cert.ReferenceIdeal.CellR

open Cert.ReferenceIdeal Cert.ReferenceIdeal.Gen Cert.ReferenceIdeal.Read Cert.Cell Cert.Spec

variable (x0 : (⟨S50000x64, .f32⟩ : BufTy).Contents (Elt Ideal)) (x1 : (⟨S2x800000, .i32⟩ : BufTy).Contents (Elt Ideal))
  (x2 : (⟨S800000, .f32⟩ : BufTy).Contents (Elt Ideal)) (x3 x4 : (⟨S1x50000x64, .f32⟩ : BufTy).Contents (Elt Ideal))
  (x5 : (⟨S1x100x100, .f32⟩ : BufTy).Contents (Elt Ideal)) (x6 x7 : (⟨S300x100, .f32⟩ : BufTy).Contents (Elt Ideal))
  (x8 x9 : (⟨S300, .f32⟩ : BufTy).Contents (Elt Ideal)) (x10 : (⟨S256x100, .f32⟩ : BufTy).Contents (Elt Ideal))
  (x11 : (⟨S256x64, .f32⟩ : BufTy).Contents (Elt Ideal)) (x12 x13 : (⟨S256, .f32⟩ : BufTy).Contents (Elt Ideal))
  (x14 : (⟨S8x64, .f32⟩ : BufTy).Contents (Elt Ideal)) (x15 : (⟨S8, .f32⟩ : BufTy).Contents (Elt Ideal))

/-- The parameters off the argument arrays (`Cert.Spec.argW`). -/
local notation "𝒲" => Cert.Spec.argW x6 x7 x8 x9 x10 x11 x12 x13 x14 x15
/-- The reference's padded features and neighbourhood mean, as its own stages. -/
local notation "XP" => (val_main_v4 (F := Ideal) x0 : Cert.Cell.Mat 50000 100)
local notation "AG" => (val_main_v28 (F := Ideal) x0 x1 x2 x5 : Cert.Cell.Mat 50000 100)

/-! ## Index equations: the reference's composed index functions at `ix2 n q` -/

private theorem lidx30 (n : Fin 50000) (q : Fin 300) (k : Fin 100) :
    lidx_main_v30 (ix2 n q) k = ix2 n k :=
  funext fun a => Fin.ext (by match a with | ⟨0, _⟩ => rfl | ⟨1, _⟩ => rfl)

private theorem ridx30 (n : Fin 50000) (q : Fin 300) (k : Fin 100) :
    ridx_main_v30 (ix2 n q) k = ix2 k q :=
  funext fun a => Fin.ext (by match a with | ⟨0, _⟩ => rfl | ⟨1, _⟩ => rfl)

private theorem idx29 (k : Fin 100) (q : Fin 300) : idx_main_v29 (ix2 k q) = ix2 q k :=
  funext fun a => Fin.ext (by match a with | ⟨0, _⟩ => rfl | ⟨1, _⟩ => rfl)

private theorem idx31_32 (n : Fin 50000) (q : Fin 300) : idx_main_v31 (idx_main_v32 (ix2 n q)) = ix1 q :=
  funext fun a => Fin.ext (by match a with | ⟨0, _⟩ => rfl)

private theorem lidx35 (n : Fin 50000) (q : Fin 300) (k : Fin 100) :
    lidx_main_v35 (ix2 n q) k = ix2 n k :=
  funext fun a => Fin.ext (by match a with | ⟨0, _⟩ => rfl | ⟨1, _⟩ => rfl)

private theorem ridx35 (n : Fin 50000) (q : Fin 300) (k : Fin 100) :
    ridx_main_v35 (ix2 n q) k = ix2 k q :=
  funext fun a => Fin.ext (by match a with | ⟨0, _⟩ => rfl | ⟨1, _⟩ => rfl)

private theorem idx34 (k : Fin 100) (q : Fin 300) : idx_main_v34 (ix2 k q) = ix2 q k :=
  funext fun a => Fin.ext (by match a with | ⟨0, _⟩ => rfl | ⟨1, _⟩ => rfl)

private theorem idx36_37 (n : Fin 50000) (q : Fin 300) : idx_main_v36 (idx_main_v37 (ix2 n q)) = ix1 q :=
  funext fun a => Fin.ext (by match a with | ⟨0, _⟩ => rfl)

/-- The affine map of the neighbourhood mean. -/
theorem ref_gi (n : Fin 50000) (q : Fin 300) :
    val_main_v33 (F := Ideal) x0 x1 x2 x5 x6 x8 (ix2 n q) = gi 𝒲 (row AG n) q := by
  rw [val_main_v33_apply, val_main_v30_apply, val_main_v32_apply, val_main_v31_apply]
  simp only [lidx30, ridx30, val_main_v29_apply, idx29, idx31_32, Ideal.addf_def]
  unfold gi
  rfl

/-- The affine map of the padded features. -/
theorem ref_gh (n : Fin 50000) (q : Fin 300) :
    val_main_v38 (F := Ideal) x0 x7 x9 (ix2 n q) = gh 𝒲 (row XP n) q := by
  rw [val_main_v38_apply, val_main_v35_apply, val_main_v37_apply, val_main_v36_apply]
  simp only [lidx35, ridx35, val_main_v34_apply, idx34, idx36_37, Ideal.addf_def]
  unfold gh
  rfl

/-! ## The thirds: the six slices at `ix2 n j` -/

private theorem idx39 (n : Fin 50000) (j : Fin 100) : idx_main_v39 (ix2 n j) = ix2 n (third0 j) :=
  funext fun a => Fin.ext (by match a with | ⟨0, _⟩ => rfl | ⟨1, _⟩ => rfl)

private theorem idx40 (n : Fin 50000) (j : Fin 100) : idx_main_v40 (ix2 n j) = ix2 n (third1 j) :=
  funext fun a => Fin.ext (by match a with | ⟨0, _⟩ => rfl | ⟨1, _⟩ => rfl)

private theorem idx41 (n : Fin 50000) (j : Fin 100) : idx_main_v41 (ix2 n j) = ix2 n (third2 j) :=
  funext fun a => Fin.ext (by match a with | ⟨0, _⟩ => rfl | ⟨1, _⟩ => rfl)

private theorem idx42 (n : Fin 50000) (j : Fin 100) : idx_main_v42 (ix2 n j) = ix2 n (third0 j) :=
  funext fun a => Fin.ext (by match a with | ⟨0, _⟩ => rfl | ⟨1, _⟩ => rfl)

private theorem idx43 (n : Fin 50000) (j : Fin 100) : idx_main_v43 (ix2 n j) = ix2 n (third1 j) :=
  funext fun a => Fin.ext (by match a with | ⟨0, _⟩ => rfl | ⟨1, _⟩ => rfl)

private theorem idx44 (n : Fin 50000) (j : Fin 100) : idx_main_v44 (ix2 n j) = ix2 n (third2 j) :=
  funext fun a => Fin.ext (by match a with | ⟨0, _⟩ => rfl | ⟨1, _⟩ => rfl)

/-- The reset gate: one over one plus the exponential of the negated sum of the first thirds is the logistic
    function of that sum. -/
private theorem ref_reset (n : Fin 50000) (j : Fin 100) :
    val_main_v51 (F := Ideal) x0 x1 x2 x5 x6 x7 x8 x9 (ix2 n j) = reset 𝒲 (row XP n) (row AG n) j := by
  rw [val_main_v51_apply, val_main_v50_apply, val_main_cst_6_apply, val_main_v49_apply, val_main_v48_apply,
    val_main_cst_5_apply, val_main_v47_apply, val_main_v46_apply, val_main_v45_apply, val_main_v39_apply,
    val_main_v42_apply, idx39, idx42,
    ref_gi x0 x1 x2 x5 x6 x7 x8 x9 x10 x11 x12 x13 x14 x15 n (third0 j),
    ref_gh x0 x6 x7 x8 x9 x10 x11 x12 x13 x14 x15 n (third0 j)]
  simp only [Ideal.hostDivf_def, Ideal.addf_def, Ideal.hostUnary_exp_def, Ideal.hostNegf_def, Ideal.negf_def,
    Ideal.ofBits_def]
  unfold reset
  rw [logistic_words]

/-- The update gate, the same of the second thirds. -/
private theorem ref_update (n : Fin 50000) (j : Fin 100) :
    val_main_v58 (F := Ideal) x0 x1 x2 x5 x6 x7 x8 x9 (ix2 n j) = update 𝒲 (row XP n) (row AG n) j := by
  rw [val_main_v58_apply, val_main_v57_apply, val_main_cst_8_apply, val_main_v56_apply, val_main_v55_apply,
    val_main_cst_7_apply, val_main_v54_apply, val_main_v53_apply, val_main_v52_apply, val_main_v40_apply,
    val_main_v43_apply, idx40, idx43,
    ref_gi x0 x1 x2 x5 x6 x7 x8 x9 x10 x11 x12 x13 x14 x15 n (third1 j),
    ref_gh x0 x6 x7 x8 x9 x10 x11 x12 x13 x14 x15 n (third1 j)]
  simp only [Ideal.hostDivf_def, Ideal.addf_def, Ideal.hostUnary_exp_def, Ideal.hostNegf_def, Ideal.negf_def,
    Ideal.ofBits_def]
  unfold update
  rw [logistic_words]

/-- The candidate: the hyperbolic tangent of the last third of the one map plus the reset gate times the last
    third of the other. -/
private theorem ref_cand (n : Fin 50000) (j : Fin 100) :
    val_main_v61 (F := Ideal) x0 x1 x2 x5 x6 x7 x8 x9 (ix2 n j) = cand 𝒲 (row XP n) (row AG n) j := by
  rw [val_main_v61_apply, val_main_v60_apply, val_main_v41_apply, val_main_v59_apply, val_main_v44_apply,
    idx41, idx44,
    ref_reset x0 x1 x2 x5 x6 x7 x8 x9 x10 x11 x12 x13 x14 x15 n j,
    ref_gi x0 x1 x2 x5 x6 x7 x8 x9 x10 x11 x12 x13 x14 x15 n (third2 j),
    ref_gh x0 x6 x7 x8 x9 x10 x11 x12 x13 x14 x15 n (third2 j)]
  simp only [Ideal.hostUnary_tanh_def, Ideal.addf_def, Ideal.mulf_def]
  unfold cand
  rfl

/-- The recurrent unit's result. -/
theorem ref_conv (n : Fin 50000) (j : Fin 100) :
    val_main_v66 (F := Ideal) x0 x1 x2 x5 x6 x7 x8 x9 (ix2 n j) = conv 𝒲 (row XP n) (row AG n) j := by
  rw [val_main_v66_apply, val_main_v64_apply, val_main_v63_apply, val_main_v62_apply, val_main_cst_9_apply,
    val_main_v65_apply,
    ref_update x0 x1 x2 x5 x6 x7 x8 x9 x10 x11 x12 x13 x14 x15 n j,
    ref_cand x0 x1 x2 x5 x6 x7 x8 x9 x10 x11 x12 x13 x14 x15 n j]
  simp only [Ideal.addf_def, Ideal.mulf_def, Ideal.subf_def, Ideal.ofBits_def]
  unfold conv
  rfl

end Cert.ReferenceIdeal.CellR

end
-- ==== Proof.RLstm.lean ====
/-
  The reference's memory step and head, read at a node and an entry: the 256 pre-activations (two whole-array
  products and two broadcast biases, added in the program's order), the four gates cut from them, the new cell
  rows, the new hidden rows and the head are the row functions of `Cert.Cell` of the node's rows.
-/
import proofs.«148086_j54443005444660_1_alg».proof.Proof.Gen.ReferenceIdeal.Read
import proofs.«148086_j54443005444660_1_alg».proof.Proof.Spec
import proofs.«148086_j54443005444660_1_alg».proof.Proof.RGru

noncomputable section

open Idealize.ShloMosaic Idealize.ShloMosaic.TcCoe Idealize.ShloMosaic.ValueIdx Idealize.SL.Sem

namespace Cert.ReferenceIdeal.CellR

open Cert.ReferenceIdeal Cert.ReferenceIdeal.Gen Cert.ReferenceIdeal.Read Cert.Cell Cert.Spec

variable (x0 : (⟨S50000x64, .f32⟩ : BufTy).Contents (Elt Ideal)) (x1 : (⟨S2x800000, .i32⟩ : BufTy).Contents (Elt Ideal))
  (x2 : (⟨S800000, .f32⟩ : BufTy).Contents (Elt Ideal)) (x3 x4 : (⟨S1x50000x64, .f32⟩ : BufTy).Contents (Elt Ideal))
  (x5 : (⟨S1x100x100, .f32⟩ : BufTy).Contents (Elt Ideal)) (x6 x7 : (⟨S300x100, .f32⟩ : BufTy).Contents (Elt Ideal))
  (x8 x9 : (⟨S300, .f32⟩ : BufTy).Contents (Elt Ideal)) (x10 : (⟨S256x100, .f32⟩ : BufTy).Contents (Elt Ideal))
  (x11 : (⟨S256x64, .f32⟩ : BufTy).Contents (Elt Ideal)) (x12 x13 : (⟨S256, .f32⟩ : BufTy).Contents (Elt Ideal))
  (x14 : (⟨S8x64, .f32⟩ : BufTy).Contents (Elt Ideal)) (x15 : (⟨S8, .f32⟩ : BufTy).Contents (Elt Ideal))

/-- The parameters off the argument arrays (`Cert.Spec.argW`). -/
local notation "𝒲" => Cert.Spec.argW x6 x7 x8 x9 x10 x11 x12 x13 x14 x15
/-- The reference's padded features and neighbourhood mean, as its own stages. -/
local notation "XP" => (val_main_v4 (F := Ideal) x0 : Cert.Cell.Mat 50000 100)
local notation "AG" => (val_main_v28 (F := Ideal) x0 x1 x2 x5 : Cert.Cell.Mat 50000 100)

/-- The 256 pre-activations of the memory step. -/
theorem ref_gates (n : Fin 50000) (q : Fin 256) :
    val_main_v78 (F := Ideal) x0 x1 x2 x3 x5 x6 x7 x8 x9 x10 x11 x12 x13 (ix2 n q)
      = gates 𝒲 (row XP n) (row AG n) (row (dropUnit x3) n) q := by
  -- the two biases, broadcast twice, are read at the entry's column
  have eb1 : idx_main_v69 (idx_main_v70 (ix2 n q)) = ix1 q :=
    funext fun a => Fin.ext (by match a with | ⟨0, _⟩ => rfl)
  have eb2 : idx_main_v76 (idx_main_v77 (ix2 n q)) = ix1 q :=
    funext fun a => Fin.ext (by match a with | ⟨0, _⟩ => rfl)
  -- the first product: the recurrent unit's row against the transposed weight
  have el1 : ∀ k : Fin 100, lidx_main_v68 (ix2 n q) k = ix2 n k := fun k =>
    funext fun a => Fin.ext (by match a with | ⟨0, _⟩ => rfl | ⟨1, _⟩ => rfl)
  have er1 : ∀ k : Fin 100, idx_main_v67 (ridx_main_v68 (ix2 n q) k) = ix2 q k := fun k =>
    funext fun a => Fin.ext (by match a with | ⟨0, _⟩ => rfl | ⟨1, _⟩ => rfl)
  -- the second product: the previous hidden row (the unit axis dropped) against the transposed weight
  have el2 : ∀ k : Fin 64, idx_main_v72 (lidx_main_v74 (ix2 n q) k) = ix3 (0 : Fin 1) n k := fun k =>
    funext fun a => Fin.ext (by
      have hn : n.val < 50000 := n.isLt
      have hk : k.val < 64 := k.isLt
      match a with
      | ⟨0, _⟩ => rfl
      | ⟨1, _⟩ => show (n.val * 64 + k.val) / 64 % 50000 = n.val; omega
      | ⟨2, _⟩ => show (n.val * 64 + k.val) % 64 = k.val; omega)
  have er2 : ∀ k : Fin 64, idx_main_v73 (ridx_main_v74 (ix2 n q) k) = ix2 q k := fun k =>
    funext fun a => Fin.ext (by match a with | ⟨0, _⟩ => rfl | ⟨1, _⟩ => rfl)
  rw [val_main_v78_apply, val_main_v75_apply, val_main_v71_apply, val_main_v68_apply, val_main_v70_apply,
    val_main_v69_apply, val_main_v74_apply, val_main_v77_apply, val_main_v76_apply, eb1, eb2]
  simp only [val_main_v67_apply, val_main_v72_apply, val_main_v73_apply, el1, er1, el2, er2,
    ref_conv x0 x1 x2 x5 x6 x7 x8 x9 x10 x11 x12 x13 x14 x15, Ideal.addf_def]
  unfold gates
  rfl

/-- The input gate: one over one plus the exponential of the negated first quarter. -/
private theorem ref_in (n : Fin 50000) (j : Fin 64) :
    val_main_v88 (F := Ideal) x0 x1 x2 x3 x5 x6 x7 x8 x9 x10 x11 x12 x13 (ix2 n j)
      = Ideal.logistic (gates 𝒲 (row XP n) (row AG n) (row (dropUnit x3) n) (quarter0 j)) := by
  have e : idx_main_v79 (ix2 n j) = ix2 n (quarter0 j) :=
    funext fun a => Fin.ext (by match a with | ⟨0, _⟩ => rfl | ⟨1, _⟩ => rfl)
  rw [val_main_v88_apply, val_main_v87_apply, val_main_cst_11_apply, val_main_v86_apply, val_main_v85_apply,
    val_main_cst_10_apply, val_main_v84_apply, val_main_v83_apply, val_main_v79_apply, e,
    ref_gates x0 x1 x2 x3 x5 x6 x7 x8 x9 x10 x11 x12 x13 x14 x15, logistic_words]
  -- the pre-activation stays closed: both sides are the same spelling of it
  generalize gates 𝒲 (row XP n) (row AG n) (row (dropUnit x3) n) (quarter0 j) = g
  rfl

/-- The forget gate, of the second quarter. -/
private theorem ref_forget (n : Fin 50000) (j : Fin 64) :
    val_main_v94 (F := Ideal) x0 x1 x2 x3 x5 x6 x7 x8 x9 x10 x11 x12 x13 (ix2 n j)
      = Ideal.logistic (gates 𝒲 (row XP n) (row AG n) (row (dropUnit x3) n) (quarter1 j)) := by
  have e : idx_main_v80 (ix2 n j) = ix2 n (quarter1 j) :=
    funext fun a => Fin.ext (by match a with | ⟨0, _⟩ => rfl | ⟨1, _⟩ => rfl)
  rw [val_main_v94_apply, val_main_v93_apply, val_main_cst_13_apply, val_main_v92_apply, val_main_v91_apply,
    val_main_cst_12_apply, val_main_v90_apply, val_main_v89_apply, val_main_v80_apply, e,
    ref_gates x0 x1 x2 x3 x5 x6 x7 x8 x9 x10 x11 x12 x13 x14 x15, logistic_words]
  -- the pre-activation stays closed: both sides are the same spelling of it
  generalize gates 𝒲 (row XP n) (row AG n) (row (dropUnit x3) n) (quarter1 j) = g
  rfl

/-- The cell candidate: the hyperbolic tangent of the third quarter. -/
private theorem ref_cand (n : Fin 50000) (j : Fin 64) :
    val_main_v95 (F := Ideal) x0 x1 x2 x3 x5 x6 x7 x8 x9 x10 x11 x12 x13 (ix2 n j)
      = Ideal.tanh (gates 𝒲 (row XP n) (row AG n) (row (dropUnit x3) n) (quarter2 j)) := by
  have e : idx_main_v81 (ix2 n j) = ix2 n (quarter2 j) :=
    funext fun a => Fin.ext (by match a with | ⟨0, _⟩ => rfl | ⟨1, _⟩ => rfl)
  rw [val_main_v95_apply, val_main_v81_apply, e, ref_gates x0 x1 x2 x3 x5 x6 x7 x8 x9 x10 x11 x12 x13 x14 x15]
  generalize gates 𝒲 (row XP n) (row AG n) (row (dropUnit x3) n) (quarter2 j) = g
  rfl

/-- The output gate, of the last quarter. -/
private theorem ref_out (n : Fin 50000) (j : Fin 64) :
    val_main_v101 (F := Ideal) x0 x1 x2 x3 x5 x6 x7 x8 x9 x10 x11 x12 x13 (ix2 n j)
      = Ideal.logistic (gates 𝒲 (row XP n) (row AG n) (row (dropUnit x3) n) (quarter3 j)) := by
  have e : idx_main_v82 (ix2 n j) = ix2 n (quarter3 j) :=
    funext fun a => Fin.ext (by match a with | ⟨0, _⟩ => rfl | ⟨1, _⟩ => rfl)
  rw [val_main_v101_apply, val_main_v100_apply, val_main_cst_15_apply, val_main_v99_apply, val_main_v98_apply,
    val_main_cst_14_apply, val_main_v97_apply, val_main_v96_apply, val_main_v82_apply, e,
    ref_gates x0 x1 x2 x3 x5 x6 x7 x8 x9 x10 x11 x12 x13 x14 x15, logistic_words]
  -- the pre-activation stays closed: both sides are the same spelling of it
  generalize gates 𝒲 (row XP n) (row AG n) (row (dropUnit x3) n) (quarter3 j) = g
  rfl

/-- The new cell row at an entry: the forget gate times the previous cell entry plus the input gate times the
    candidate. -/
private theorem ref_cell_at (n : Fin 50000) (j : Fin 64) :
    val_main_v105 (F := Ideal) x0 x1 x2 x3 x4 x5 x6 x7 x8 x9 x10 x11 x12 x13 (ix2 n j)
      = cell 𝒲 (row XP n) (row AG n) (row (dropUnit x3) n) (row (dropUnit x4) n) j := by
  have e : idx_main_v102 (ix2 n j) = ix3 (0 : Fin 1) n j :=
    funext fun a => Fin.ext (by
      have hn : n.val < 50000 := n.isLt
      have hj : j.val < 64 := j.isLt
      match a with
      | ⟨0, _⟩ => rfl
      | ⟨1, _⟩ => show (n.val * 64 + j.val) / 64 % 50000 = n.val; omega
      | ⟨2, _⟩ => show (n.val * 64 + j.val) % 64 = j.val; omega)
  rw [val_main_v105_apply, val_main_v103_apply, val_main_v104_apply, val_main_v102_apply, e,
    ref_forget x0 x1 x2 x3 x5 x6 x7 x8 x9 x10 x11 x12 x13 x14 x15,
    ref_in x0 x1 x2 x3 x5 x6 x7 x8 x9 x10 x11 x12 x13 x14 x15,
    ref_cand x0 x1 x2 x3 x5 x6 x7 x8 x9 x10 x11 x12 x13 x14 x15]
  unfold cell
  generalize gates 𝒲 (row XP n) (row AG n) (row (dropUnit x3) n) = gf
  rfl

/-- The new hidden row at an entry: the output gate times the hyperbolic tangent of the new cell entry. -/
private theorem ref_hid_at (n : Fin 50000) (j : Fin 64) :
    val_main_v107 (F := Ideal) x0 x1 x2 x3 x4 x5 x6 x7 x8 x9 x10 x11 x12 x13 (ix2 n j)
      = hid 𝒲 (row XP n) (row AG n) (row (dropUnit x3) n) (row (dropUnit x4) n) j := by
  rw [val_main_v107_apply, val_main_v106_apply, ref_out x0 x1 x2 x3 x5 x6 x7 x8 x9 x10 x11 x12 x13 x14 x15,
    ref_cell_at x0 x1 x2 x3 x4 x5 x6 x7 x8 x9 x10 x11 x12 x13 x14 x15]
  unfold hid
  generalize cell 𝒲 (row XP n) (row AG n) (row (dropUnit x3) n) (row (dropUnit x4) n) j = c
  generalize gates 𝒲 (row XP n) (row AG n) (row (dropUnit x3) n) (quarter3 j) = g
  rfl

/-- The rectified hidden row at an entry: the larger of the hidden entry and the word of zero. -/
private theorem ref_relu_at (n : Fin 50000) (j : Fin 64) :
    val_main_v108 (F := Ideal) x0 x1 x2 x3 x4 x5 x6 x7 x8 x9 x10 x11 x12 x13 (ix2 n j)
      = max (hid 𝒲 (row XP n) (row AG n) (row (dropUnit x3) n) (row (dropUnit x4) n) j) zero := by
  rw [val_main_v108_apply, val_main_call1_v0_apply, val_main_call1_cst_apply,
    ref_hid_at x0 x1 x2 x3 x4 x5 x6 x7 x8 x9 x10 x11 x12 x13 x14 x15]
  -- the hidden entry stays closed: both sides are the same spelling of it
  generalize hid 𝒲 (row XP n) (row AG n) (row (dropUnit x3) n) (row (dropUnit x4) n) j = h
  rfl

/-- The head at an entry: the rectified hidden row against the transposed weight, plus the bias. -/
private theorem ref_head_at (n : Fin 50000) (q : Fin 8) :
    val_main_v113 (F := Ideal) x0 x1 x2 x3 x4 x5 x6 x7 x8 x9 x10 x11 x12 x13 x14 x15 (ix2 n q)
      = head 𝒲 (row XP n) (row AG n) (row (dropUnit x3) n) (row (dropUnit x4) n) q := by
  -- the bias, broadcast twice, is read at the entry's column
  have eb : idx_main_v111 (idx_main_v112 (ix2 n q)) = ix1 q :=
    funext fun a => Fin.ext (by match a with | ⟨0, _⟩ => rfl)
  -- the product: the rectified hidden row against the transposed weight
  have el : ∀ k : Fin 64, lidx_main_v110 (ix2 n q) k = ix2 n k := fun k =>
    funext fun a => Fin.ext (by match a with | ⟨0, _⟩ => rfl | ⟨1, _⟩ => rfl)
  have er : ∀ k : Fin 64, idx_main_v109 (ridx_main_v110 (ix2 n q) k) = ix2 q k := fun k =>
    funext fun a => Fin.ext (by match a with | ⟨0, _⟩ => rfl | ⟨1, _⟩ => rfl)
  rw [val_main_v113_apply, val_main_v110_apply, val_main_v112_apply, val_main_v111_apply, eb]
  simp only [val_main_v109_apply, el, er, ref_relu_at x0 x1 x2 x3 x4 x5 x6 x7 x8 x9 x10 x11 x12 x13 x14 x15,
    Ideal.addf_def]
  unfold head
  -- the hidden row stays closed: both sides are the same spelling of it
  generalize hid 𝒲 (row XP n) (row AG n) (row (dropUnit x3) n) (row (dropUnit x4) n) = hf
  rfl

/-- The new cell rows. -/
theorem ref_cell :
    (val_main_v105 (F := Ideal) x0 x1 x2 x3 x4 x5 x6 x7 x8 x9 x10 x11 x12 x13 : Mat 50000 64)
      = cellArr 𝒲 XP AG (dropUnit x3) (dropUnit x4) := by
  funext i
  obtain ⟨n, j, rfl⟩ : ∃ (n : Fin 50000) (j : Fin 64), i = ix2 n j := ⟨i 0, i 1, eq_ix2 i⟩
  rw [cellArr_apply]
  exact ref_cell_at x0 x1 x2 x3 x4 x5 x6 x7 x8 x9 x10 x11 x12 x13 x14 x15 n j

/-- The new hidden rows. -/
theorem ref_hid :
    (val_main_v107 (F := Ideal) x0 x1 x2 x3 x4 x5 x6 x7 x8 x9 x10 x11 x12 x13 : Mat 50000 64)
      = hidArr 𝒲 XP AG (dropUnit x3) (dropUnit x4) := by
  funext i
  obtain ⟨n, j, rfl⟩ : ∃ (n : Fin 50000) (j : Fin 64), i = ix2 n j := ⟨i 0, i 1, eq_ix2 i⟩
  rw [hidArr_apply]
  exact ref_hid_at x0 x1 x2 x3 x4 x5 x6 x7 x8 x9 x10 x11 x12 x13 x14 x15 n j

/-- The heads. -/
theorem ref_head :
    (val_main_v113 (F := Ideal) x0 x1 x2 x3 x4 x5 x6 x7 x8 x9 x10 x11 x12 x13 x14 x15 : Mat 50000 8)
      = headArr 𝒲 XP AG (dropUnit x3) (dropUnit x4) := by
  funext i
  obtain ⟨n, q, rfl⟩ : ∃ (n : Fin 50000) (q : Fin 8), i = ix2 n q := ⟨i 0, i 1, eq_ix2 i⟩
  rw [headArr_apply]
  exact ref_head_at x0 x1 x2 x3 x4 x5 x6 x7 x8 x9 x10 x11 x12 x13 x14 x15 n q

end Cert.ReferenceIdeal.CellR

end
-- ==== Proof.RProj.lean ====
/-
  The reference's inputs to the cell. Its padded features are the features with 36 zero columns. Its projection
  contracts those 100 columns against all 100 rows of the weight; the last 36 terms are zero times a weight
  entry, which is zero at the extended reals whatever the entry, so the sum is the kernel's 64-term sum against
  the first 64 rows. Its neighbourhood mean is the shared chain of host operations applied to that projection.
-/
import proofs.«148086_j54443005444660_1_alg».proof.Proof.Gen.ReferenceIdeal.Read
import proofs.«148086_j54443005444660_1_alg».proof.Proof.Spec

noncomputable section

open Idealize.ShloMosaic Idealize.ShloMosaic.TcCoe Idealize.ShloMosaic.ValueIdx Idealize.SL.Sem

namespace Cert.ReferenceIdeal.CellR

open Cert.ReferenceIdeal Cert.ReferenceIdeal.Gen Cert.ReferenceIdeal.Read Cert.Cell Cert.Spec

variable (x0 : (⟨S50000x64, .f32⟩ : BufTy).Contents (Elt Ideal)) (x1 : (⟨S2x800000, .i32⟩ : BufTy).Contents (Elt Ideal))
  (x2 : (⟨S800000, .f32⟩ : BufTy).Contents (Elt Ideal)) (x5 : (⟨S1x100x100, .f32⟩ : BufTy).Contents (Elt Ideal))

/-- The padded features at an entry: the feature where the column is below 64, the converted integer zero,
    which is the real number zero, elsewhere. -/
private theorem pad_at (n : Fin 50000) (k : Fin 100) :
    val_main_v4 (F := Ideal) x0 (ix2 n k) = if h : k.val < 64 then x0 (ix2 n ⟨k.val, h⟩) else 0 := by
  unfold val_main_v4 pad
  by_cases h : k.val < 64
  · rw [dif_pos h]
    split
    · congr 1
      funext a
      match a with
      | ⟨0, _⟩ => exact Fin.ext (by show (n.val - 0) / (0 + 1) = n.val; omega)
      | ⟨1, _⟩ => exact Fin.ext (by show (k.val - 0) / (0 + 1) = k.val; omega)
    · rename_i hin
      exfalso
      apply hin
      intro a
      match a with
      | ⟨0, _⟩ =>
        have hn := n.isLt
        exact ⟨Nat.zero_le _, by show (n.val - 0) % (0 + 1) = 0; omega, by show (n.val - 0) / (0 + 1) < 50000; omega⟩
      | ⟨1, _⟩ =>
        exact ⟨Nat.zero_le _, by show (k.val - 0) % (0 + 1) = 0; omega, by show (k.val - 0) / (0 + 1) < 64; omega⟩
  · rw [dif_neg h]
    split
    · rename_i hin
      exfalso
      have h1 := (hin ⟨1, by decide⟩).2.2
      change (k.val - 0) / (0 + 1) < 64 at h1
      omega
    · show (((0#32 : BitVec 32).toInt : ℝ) : EReal) = 0
      simp

/-- A sum of 100 terms is the sum of its first 64 plus the sum of its last 36. -/
private theorem sum_split (f : Fin 100 → EReal) :
    ∑ k : Fin 100, f k
      = (∑ k : Fin 64, f ⟨k.val, Nat.lt_trans k.isLt (by decide)⟩)
        + ∑ k : Fin 36, f ⟨64 + k.val, by have := k.isLt; omega⟩ :=
  Fin.sum_univ_add (a := 64) (b := 36) f

/-- The reshaped weight at row `k`, column `q` is the weight at `(0, k, q)`. -/
private theorem weight_at (k q : Fin 100) :
    val_main_v5 (F := Ideal) x5 (ix2 k q) = x5 (ix3 (0 : Fin 1) k q) := by
  rw [val_main_v5_apply]
  congr 1
  funext a
  have hk := k.isLt
  have hq := q.isLt
  match a with
  | ⟨0, _⟩ => rfl
  | ⟨1, _⟩ => exact Fin.ext (by show (k.val * 100 + q.val) / 100 % 100 = k.val; omega)
  | ⟨2, _⟩ => exact Fin.ext (by show (k.val * 100 + q.val) % 100 = q.val; omega)

/-- One of the first 64 terms of the reference's contraction. -/
private theorem term_lo (n : Fin 50000) (q : Fin 100) (k : Fin 64) :
    val_main_v4 (F := Ideal) x0 (lidx_main_v6 (ix2 n q) ⟨k.val, Nat.lt_trans k.isLt (by decide)⟩)
        * val_main_v5 (F := Ideal) x5 (ridx_main_v6 (ix2 n q) ⟨k.val, Nat.lt_trans k.isLt (by decide)⟩)
      = x0 (ix2 n k) * wTopArr x5 (ix2 k q) := by
  have hl : lidx_main_v6 (ix2 n q) ⟨k.val, Nat.lt_trans k.isLt (by decide)⟩
      = ix2 n (⟨k.val, Nat.lt_trans k.isLt (by decide)⟩ : Fin 100) := by
    funext a
    match a with
    | ⟨0, _⟩ => rfl
    | ⟨1, _⟩ => rfl
  have hr : ridx_main_v6 (ix2 n q) ⟨k.val, Nat.lt_trans k.isLt (by decide)⟩
      = ix2 (⟨k.val, Nat.lt_trans k.isLt (by decide)⟩ : Fin 100) q := by
    funext a
    match a with
    | ⟨0, _⟩ => rfl
    | ⟨1, _⟩ => rfl
  rw [hl, hr, pad_at, weight_at, dif_pos (show (⟨k.val, Nat.lt_trans k.isLt (by decide)⟩ : Fin 100).val < 64 from k.isLt)]
  rfl

/-- One of the last 36 terms: zero times a weight entry. -/
private theorem term_hi (n : Fin 50000) (q : Fin 100) (k : Fin 36) :
    val_main_v4 (F := Ideal) x0 (lidx_main_v6 (ix2 n q) ⟨64 + k.val, by have := k.isLt; omega⟩)
        * val_main_v5 (F := Ideal) x5 (ridx_main_v6 (ix2 n q) ⟨64 + k.val, by have := k.isLt; omega⟩)
      = 0 := by
  have hl : lidx_main_v6 (ix2 n q) ⟨64 + k.val, by have := k.isLt; omega⟩
      = ix2 n (⟨64 + k.val, by have := k.isLt; omega⟩ : Fin 100) := by
    funext a
    match a with
    | ⟨0, _⟩ => rfl
    | ⟨1, _⟩ => rfl
  rw [hl, pad_at, dif_neg (show ¬ (⟨64 + k.val, by have := k.isLt; omega⟩ : Fin 100).val < 64 from by
    show ¬ 64 + k.val < 64; omega), zero_mul]

/-- The reference's padded features. -/
theorem ref_pad : (val_main_v4 (F := Ideal) x0 : Mat 50000 100) = padArr x0 := by
  funext i
  obtain ⟨n, k, rfl⟩ : ∃ n k, i = ix2 n k := ⟨i 0, i 1, eq_ix2 i⟩
  exact pad_at x0 n k

/-- The reference's projection is the 64-term projection. -/
theorem ref_proj : (val_main_v6 (F := Ideal) x0 x5 : Mat 50000 100) = projArr x0 (wTopArr x5) := by
  funext i
  obtain ⟨n, q, rfl⟩ : ∃ n q, i = ix2 n q := ⟨i 0, i 1, eq_ix2 i⟩
  rw [val_main_v6_apply, projArr_apply, sum_split,
    Finset.sum_congr rfl (fun k _ => term_lo x0 x5 n q k),
    Finset.sum_eq_zero (fun k _ => term_hi x0 x5 n q k), add_zero]

/-- The reference's neighbourhood mean is the shared chain of the projection. -/
theorem ref_agg : (val_main_v28 (F := Ideal) x0 x1 x2 x5 : Mat 50000 100) = aggArr x0 x1 x2 x5 := by
  unfold aggArr
  rw [← ref_proj x0 x5]
  unfold val_main_v28 val_main_v27 val_main_v26 val_main_v25 val_main_v24 val_main_v23 val_main_v22 val_main_v21
    val_main_v20 val_main_v19 val_main_v18 val_main_v17 val_main_v16 val_main_v15 val_main_v14 val_main_v13
    val_main_v12 val_main_v11 val_main_v10 val_main_v9 val_main_v8 val_main_v7 val_main_v3 val_main_v2
    val_main_v1 val_main_v0 val_main_cst val_main_cst_2 val_main_cst_3 val_main_cst_4 val_main_c_0 val_main_c_1
    aggOf srcCol dstCol
  rfl

end Cert.ReferenceIdeal.CellR

end
-- ==== Proof.lean ====
/-
  A graph cell over 50000 nodes and 800000 edges: project the node features, average the projected rows of each
  node's in-neighbours (weighted, by a gather and two scatter-adds on the host), run a gated recurrent unit on that
  mean and the padded features, one step of a long short-term memory on its result, and a linear head on the
  rectified hidden rows. The kernel program does the projection and everything after the mean in two tiled
  regions of 50 blocks of 1000 nodes; the reference does it all with whole-array host operations.

  At the extended reals both compute, node by node, the row functions of `Cert.Cell` (Proof/RowSpec.lean) of the
  same arrays (Proof/Spec.lean): every conversion to the narrow float format is the identity, a tiled product is
  the whole product row by row, the kernel's logistic function is the reference's one over one plus the exponential
  of the negation, and the reference's projection over the 36 zero-padded columns adds terms that are zero
  whatever the weight holds. The neighbourhood mean is the same chain of host operations in both programs and is
  never opened. No law used needs the inputs finite, so the precondition is not opened either.

  The three frames: the kernel programs' are the generated ones, the reference's is its generated run with the
  results dropped. The idealization rewrote nothing, so the preservation claim is trivial.
-/
import proofs.«148086_j54443005444660_1_alg».proof.Defs
import proofs.«148086_j54443005444660_1_alg».proof.Proof.Gen.Kernel
import proofs.«148086_j54443005444660_1_alg».proof.Proof.Gen.Kernel.Frame
import proofs.«148086_j54443005444660_1_alg».proof.Proof.Gen.KernelIdeal
import proofs.«148086_j54443005444660_1_alg».proof.Proof.Gen.KernelIdeal.Frame
import proofs.«148086_j54443005444660_1_alg».proof.Proof.Gen.ReferenceIdeal
import proofs.«148086_j54443005444660_1_alg».proof.Proof.Gen.ReferenceIdeal.Run
import proofs.«148086_j54443005444660_1_alg».proof.Proof.Gen.ReferenceIdeal.Read
import proofs.«148086_j54443005444660_1_alg».proof.Proof.Gen.Pre_finite_inputs
import proofs.«148086_j54443005444660_1_alg».proof.Proof.KValue
import proofs.«148086_j54443005444660_1_alg».proof.Proof.RLstm
import proofs.«148086_j54443005444660_1_alg».proof.Proof.RProj
import Idealize.ShloMosaic.Adequacy
import Idealize.ShloMosaic.Init

noncomputable section

namespace Cert.Proof

open Idealize.ShloMosaic Idealize.ShloMosaic.TcCoe Idealize.SL.Sem Cert.Cell Cert.Spec

/-! ## The reference's three results are the same functions of the arguments -/

section Ref
open Cert.ReferenceIdeal Cert.ReferenceIdeal.Read Cert.ReferenceIdeal.CellR

variable (m : (ℓ : Loc nD τ sig) → Buf (Elt Ideal) ℓ) (c : Dev nD)

theorem ref_head_value : Cert.ReferenceIdeal.Value.res_main_v113 m c = headRes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  rw [val_main_v113_eq]
  exact (ref_head (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))).trans
    (by rw [ref_pad, ref_agg]; rfl)

theorem ref_hid_value : Cert.ReferenceIdeal.Value.res_main_v114 m c
    = broadcastInDim S1x50000x64 ![1, 2] Cert.KernelIdeal.Gen.bcast_S50000x64_S1x50000x64_1_2 (hidRes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) := by
  rw [val_main_v114_eq]
  unfold val_main_v114
  refine congrArg _ ?_
  exact (ref_hid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))).trans
    (by rw [ref_pad, ref_agg]; rfl)

theorem ref_cell_value : Cert.ReferenceIdeal.Value.res_main_v115 m c
    = broadcastInDim S1x50000x64 ![1, 2] Cert.KernelIdeal.Gen.bcast_S50000x64_S1x50000x64_1_2 (cellRes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) := by
  rw [val_main_v115_eq]
  unfold val_main_v115
  refine congrArg _ ?_
  exact (ref_cell (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))).trans
    (by rw [ref_pad, ref_agg]; rfl)

end Ref

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2) (Cert.ReferenceIdeal.Value.run (F := Ideal) m ρ)

/-- Both idealized programs end with the head, the new hidden rows and the new cell rows at the same functions
    of arguments that agree. -/
theorem algebraic : Cert.algebraic_KernelIdeal_ReferenceIdeal := by
  intro m ρ m' ρ' _ hagree
  refine ⟨_, _, _, Cert.KernelIdeal.Result.run_value m ρ, ?_⟩
  refine (θ_run Cert.ReferenceIdeal.defs _ _).mono (fun _ h c => ?_) (Cert.ReferenceIdeal.Value.run (F := Ideal) m' ρ')
  obtain ⟨h0, h1, h2, hargs⟩ := h c
  obtain ⟨e0, e1, e2, e3, e4, e5, e6, e7, e8, e9, e10, e11, e12, e13, e14, e15⟩ := hagree c
  refine ⟨h0.trans ?_, h1.trans ?_, h2.trans ?_, hargs⟩
  · rw [ref_head_value m' c, e0, e1, e2, e3, e4, e5, e6, e7, e8, e9, e10, e11, e12, e13, e14, e15]
  · rw [ref_hid_value m' c, e0, e1, e2, e3, e4, e5, e6, e7, e8, e9, e10, e11, e12, e13, e14, e15]
  · rw [ref_cell_value m' c, e0, e1, e2, e3, e4, e5, e6, e7, e8, e9, e10, e11, e12, e13, e14, e15]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
